-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x2x9 : Shape := ⟨4, ![16384, 32, 2, 9]⟩
abbrev S16384x32 : Shape := ⟨2, ![16384, 32]⟩
abbrev S64x9 : Shape := ⟨2, ![64, 9]⟩
abbrev S64 : Shape := ⟨1, ![64]⟩
abbrev S_ : Shape := ⟨0, ![]⟩

class Facts : Prop where
  bcast_S_S16384x32x2x9 : S_.BroadcastsInDim S16384x32x2x9 (![] : Fin 0 → Fin S16384x32x2x9.rank)
  reducesTo_S16384x32x2x9_S_d0_1_2_3 : S16384x32x2x9.ReducesTo [0, 1, 2, 3] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16384x32x2x9 .f32) (main_arg1 : IVec S16384x32 32) (main_arg2 : FVec F S64x9 .f32) (main_arg3 : FVec F S64 .f32) (main_arg4 : FVec F S64 .f32) : IVec S_ 1 :=
  let main_v0 : FVec F S16384x32x2x9 .f32 := Host.absf main_arg0
  let main_cst : FVec F S_ .f32 := constant S_ .f32 0x7F800000#32
  let main_v1 : FVec F S16384x32x2x9 .f32 := broadcastInDim S16384x32x2x9 ![] bcast_S_S16384x32x2x9 main_cst
  let main_v2 : IVec S16384x32x2x9 1 := cmpf .olt main_v0 main_v1
  let main_c : IVec S_ 1 := constantI S_ 1 1#1
  let main_v3 : IVec S_ 1 := (fun x v => Host.reduce IntOp.andi x v reducesTo_S16384x32x2x9_S_d0_1_2_3 h_S_) main_v2 main_c
  let main_v4 : FVec F S64x9 .f32 := Host.absf main_arg2
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16384x32x2x9 : Shape := ⟨4, ![16384, 32, 2, 9]⟩
abbrev S16384x32 : Shape := ⟨2, ![16384, 32]⟩
abbrev S64x9 : Shape := ⟨2, ![64, 9]⟩
abbrev S64 : Shape := ⟨1, ![64]⟩
abbrev S1048576x9 : Shape := ⟨2, ![1048576, 9]⟩
abbrev S9x64 : Shape := ⟨2, ![9, 64]⟩
abbrev S1x64 : Shape := ⟨2, ![1, 64]⟩
abbrev S32768x9 : Shape := ⟨2, ![32768, 9]⟩
abbrev S32768x64 : Shape := ⟨2, ![32768, 64]⟩
abbrev S512x64x64 : Shape := ⟨3, ![512, 64, 64]⟩
abbrev S512x64 : Shape := ⟨2, ![512, 64]⟩
abbrev S_ : Shape := ⟨0, ![]⟩
abbrev S32x2 : Shape := ⟨2, ![32, 2]⟩
abbrev S16384x64x32 : Shape := ⟨3, ![16384, 64, 32]⟩
abbrev S16384x9 : Shape := ⟨2, ![16384, 9]⟩
abbrev S256x64x32 : Shape := ⟨3, ![256, 64, 32]⟩
abbrev S16384x64 : Shape := ⟨2, ![16384, 64]⟩
abbrev S256x32x2x64 : Shape := ⟨4, ![256, 32, 2, 64]⟩
abbrev S1x32x2x1 : Shape := ⟨4, ![1, 32, 2, 1]⟩
abbrev S256x32x64 : Shape := ⟨3, ![256, 32, 64]⟩

abbrev nBuf : Space → Nat
  | .hbm => 30
  | .vmem => 14
  | .smem => 0
  | _ => 0

abbrev bufTy : (tb : Table) → Fin (tcTables nBuf tb) → BufTy
  | .hbm, ⟨0, _⟩ => ⟨S16384x32x2x9, .f32⟩
  | .hbm, ⟨1, _⟩ => ⟨S16384x32, .i32⟩
  | .hbm, ⟨2, _⟩ => ⟨S64x9, .f32⟩
  | .hbm, ⟨3, _⟩ => ⟨S64, .f32⟩
  | .hbm, ⟨4, _⟩ => ⟨S64, .f32⟩
  | .hbm, ⟨5, _⟩ => ⟨S1048576x9, .f32⟩
  | .hbm, ⟨6, _⟩ => ⟨S9x64, .f32⟩
  | .hbm, ⟨7, _⟩ => ⟨S1x64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S32x2, .f32⟩
  | .hbm, ⟨25, _⟩ => ⟨S64, .f32⟩
  | .hbm, ⟨26, _⟩ => ⟨S64, .f32⟩
  | .hbm, ⟨27, _⟩ => ⟨S64, .f32⟩
  | .hbm, ⟨28, _⟩ => ⟨S32x2, .f32⟩
  | .hbm, ⟨29, _⟩ => ⟨S16384x64x32, .f32⟩
  | .local _ .vmem, ⟨0, _⟩ => ⟨S32768x9, .f32⟩
  | .local _ .vmem, ⟨1, _⟩ => ⟨S32768x9, .f32⟩
  | .local _ .vmem, ⟨2, _⟩ => ⟨S9x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S16384x9, .f32⟩
  | .local _ .vmem, ⟨8, _⟩ => ⟨S16384x9, .f32⟩
  | .local _ .vmem, ⟨9, _⟩ => ⟨S9x64, .f32⟩
  | .local _ .vmem, ⟨10, _⟩ => ⟨S32x2, .f32⟩
  | .local _ .vmem, ⟨11, _⟩ => ⟨S32x2, .f32⟩
  | .local _ .vmem, ⟨12, _⟩ => ⟨S256x64x32, .f32⟩
  | .local _ .vmem, ⟨13, _⟩ => ⟨S256x64x32, .f32⟩
  | _, _ => ⟨S16384x32x2x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v28 : BitVec 1 := Scalar.cmpi .eq arg0 c31_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32768x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16384x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S16384x32x2x9_S1048576x9 : S16384x32x2x9.ShapeCasts S1048576x9
  transposes_S64x9_S9x64_1_0 : S64x9.Transposes [1, 0] S9x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S32768x9_S32768x9_0_0 : ∀ a, (![0, 0] : Fin 2 → Nat) a + S32768x9.size a ≤ S32768x9.size a
  h_S32768x9 : 0 < S32768x9.numel
  shapeCasts_S32768x9_S32768x9 : S32768x9.ShapeCasts S32768x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  shapeCasts_S9x64_S9x64 : S9x64.ShapeCasts S9x64
  shapeCasts_S32768x64_S512x64x64 : S32768x64.ShapeCasts S512x64x64
  reduces_S512x64x64_S512x64 : S512x64x64.Reduces [2] S512x64
  reduces_S512x64_S64 : S512x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  shapeCasts_S64_S32x2 : S64.ShapeCasts S32x2
  inb_S16384x9_S16384x9_0_0 : ∀ a, (![0, 0] : Fin 2 → Nat) a + S16384x9.size a ≤ S16384x9.size a
  h_S16384x9 : 0 < S16384x9.numel
  shapeCasts_S16384x9_S16384x9 : S16384x9.ShapeCasts S16384x9
  shapeCasts_S16384x64_S256x32x2x64 : S16384x64.ShapeCasts S256x32x2x64
  inb_S32x2_S32x2_0_0 : ∀ a, (![0, 0] : Fin 2 → Nat) a + S32x2.size a ≤ S32x2.size a
  h_S32x2 : 0 < S32x2.numel
  shapeCasts_S32x2_S32x2 : S32x2.ShapeCasts S32x2
  shapeCasts_S32x2_S1x32x2x1 : S32x2.ShapeCasts S1x32x2x1
  shapeCasts_S1x32x2x1_S1x32x2x1 : S1x32x2x1.ShapeCasts S1x32x2x1
  broadcasts_S1x32x2x1_S256x32x2x64 : S1x32x2x1.Broadcasts S256x32x2x64
  reduces_S256x32x2x64_S256x32x64 : S256x32x2x64.Reduces [2] S256x32x64
  transposes_S256x32x64_p0_2_1_S256x64x32 : S256x32x64.Transposes [0, 2, 1] S256x64x32
  inb_S256x64x32_S256x64x32_0_0_0 : ∀ a, (![0, 0, 0] : Fin 3 → Nat) a + S256x64x32.size a ≤ S256x64x32.size a
  h_S256x64x32 : 0 < S256x64x32.numel
  dot_S32768x9_S9x64_S32768x64_1_0_0_1_n_n_wf : DotDims.WF S32768x9 S9x64 S32768x64 [1] [0] [0] [1] [] []
  dot_S16384x9_S9x64_S16384x64_1_0_0_1_n_n_wf : DotDims.WF S16384x9 S9x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x9.size a ≤ S1048576x9.size a
  hwx0_0 : ∀ i : grid0.Coords, EltTy.bits .f32 = 32 ∨ (Rect.block (s := S1048576x9) S32768x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x9.size a ≤ S1048576x9.size a
  hwx1_0 : ∀ i : grid1.Coords, EltTy.bits .f32 = 32 ∨ (Rect.block (s := S1048576x9) S16384x9.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x64.size a ≤ S9x64.size a
  hwx1_1 : ∀ i : grid1.Coords, EltTy.bits .f32 = 32 ∨ (Rect.block (s := S9x64) S9x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x2.size a ≤ S32x2.size a
  hwx1_3 : ∀ i : grid1.Coords, EltTy.bits .f32 = 32 ∨ (Rect.block (s := S32x2) S32x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64x32.size a ≤ S16384x64x32.size a
  hwx1_4 : ∀ i : grid1.Coords, EltTy.bits .f32 = 32 ∨ (Rect.block (s := S16384x64x32) S256x64x32.size (cc1_transform_4 i) (hinb1_4 i)).WholeWords (EltTy.packing .f32)

variable [Facts₀]

def dot_S32768x9_S9x64_S32768x64_1_0_0_1_n_n : DotDims S32768x9 S9x64 S32768x64 where
  lhsContracting := [1]
  rhsContracting := [0]
  lhsNonContracting := [0]
  rhsNonContracting := [1]
  lhsBatch := []
  rhsBatch := []
  wf := dot_S32768x9_S9x64_S32768x64_1_0_0_1_n_n_wf
def dot_S16384x9_S9x64_S16384x64_1_0_0_1_n_n : DotDims S16384x9 S9x64 S16384x64 where
  lhsContracting := [1]
  rhsContracting := [0]
  lhsNonContracting := [0]
  rhsNonContracting := [1]
  lhsBatch := []
  rhsBatch := []
  wf := dot_S16384x9_S9x64_S16384x64_1_0_0_1_n_n_wf

abbrev win0_0 : Pipeline.Window sig grid0 :=
  Pipeline.Window.ofSpec (Memref.whole main_v0) S32768x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x64.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0) S16384x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S9x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S32x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S256x64x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x32x2x9 : Shape := ⟨4, ![16384, 32, 2, 9]⟩
abbrev S16384x32 : Shape := ⟨2, ![16384, 32]⟩
abbrev S64x9 : Shape := ⟨2, ![64, 9]⟩
abbrev S64 : Shape := ⟨1, ![64]⟩
abbrev S16384x32x2x64 : Shape := ⟨4, ![16384, 32, 2, 64]⟩
abbrev S16384x64x32x2 : Shape := ⟨4, ![16384, 64, 32, 2]⟩
abbrev S1048576x64 : Shape := ⟨2, ![1048576, 64]⟩
abbrev S_ : Shape := ⟨0, ![]⟩
abbrev S1x64 : Shape := ⟨2, ![1, 64]⟩
abbrev S16384x64x32 : Shape := ⟨3, ![16384, 64, 32]⟩

abbrev nBuf : Space → Nat
  | .hbm => 44
  | .vmem => 0
  | .smem => 0
  | _ => 0

abbrev bufTy : (tb : Table) → Fin (tcTables nBuf tb) → BufTy
  | .hbm, ⟨0, _⟩ => ⟨S16384x32x2x9, .f32⟩
  | .hbm, ⟨1, _⟩ => ⟨S16384x32, .i32⟩
  | .hbm, ⟨2, _⟩ => ⟨S64x9, .f32⟩
  | .hbm, ⟨3, _⟩ => ⟨S64, .f32⟩
  | .hbm, ⟨4, _⟩ => ⟨S64, .f32⟩
  | .hbm, ⟨5, _⟩ => ⟨S16384x32x2x64, .f32⟩
  | .hbm, ⟨6, _⟩ => ⟨S16384x64x32x2, .f32⟩
  | .hbm, ⟨7, _⟩ => ⟨S1048576x64, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S1048576x64, .f32⟩
  | .hbm, ⟨15, _⟩ => ⟨S1048576x64, .f32⟩
  | .hbm, ⟨16, _⟩ => ⟨S1048576x64, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S1048576x64, .f32⟩
  | .hbm, ⟨24, _⟩ => ⟨S1048576x64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S1x64, .f32⟩
  | .hbm, ⟨30, _⟩ => ⟨S1048576x64, .f32⟩
  | .hbm, ⟨31, _⟩ => ⟨S1048576x64, .f32⟩
  | .hbm, ⟨32, _⟩ => ⟨S1x64, .f32⟩
  | .hbm, ⟨33, _⟩ => ⟨S1048576x64, .f32⟩
  | .hbm, ⟨34, _⟩ => ⟨S1048576x64, .f32⟩
  | .hbm, ⟨35, _⟩ => ⟨S1x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S16384x64x32x2, .f32⟩
  | .hbm, ⟨42, _⟩ => ⟨S_, .f32⟩
  | .hbm, ⟨43, _⟩ => ⟨S16384x64x32, .f32⟩
  | _, _ => ⟨S16384x32x2x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  transposes_S16384x32x2x64_S16384x64x32x2_0_3_1_2 : S16384x32x2x64.Transposes [0, 3, 1, 2] S16384x64x32x2
  shapeCasts_S16384x64x32x2_S1048576x64 : S16384x64x32x2.ShapeCasts S1048576x64
  reducesTo_S1048576x64_S64_d0 : S1048576x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  shapeCasts_S1048576x64_S16384x64x32x2 : S1048576x64.ShapeCasts S16384x64x32x2
  reducesTo_S16384x64x32x2_S16384x64x32_d3 : S16384x64x32x2.ReducesTo [3] S16384x64x32
  dot_S16384x32x2x9_S64x9_S16384x32x2x64_3_1_012_0_n_n_wf : DotDims.WF S16384x32x2x9 S64x9 S16384x32x2x64 [3] [1] [0, 1, 2] [0] [] []

variable [Facts₀]

def dot_S16384x32x2x9_S64x9_S16384x32x2x64_3_1_012_0_n_n : DotDims S16384x32x2x9 S64x9 S16384x32x2x64 where
  lhsContracting := [3]
  rhsContracting := [1]
  lhsNonContracting := [0, 1, 2]
  rhsNonContracting := [0]
  lhsBatch := []
  rhsBatch := []
  wf := dot_S16384x32x2x9_S64x9_S16384x32x2x64_3_1_012_0_n_n_wf

class Facts : Prop extends Facts₀ where

variable [Facts]
-- ==== Proof.BitsStatsCases.lean ====
/-
  The statistics kernel (the first pallas_call), run once per control case.

  At every grid point the body adds, into two one-row accumulators kept in scratch memory, the block's
  column sums: for each position j of the 64, the sum over the block's 512 batch rows and the 64 output
  channels of the projected value, and the same sum of its square. At the first point it first clears both
  accumulators; at the last point it also copies both into the two output rows. So a point is in exactly one
  of three cases: first (clear, then add), middle (add), last (add, then copy out). Each case's run below says
  which pieces every buffer the body stores into ends up with; the pieces are found by running the body.
-/
import proofs.«153306_j41257455845539_1_alg».proof.Proof.Gen.Kernel.Launch
import proofs.«153306_j41257455845539_1_alg».proof.Proof.Gen.Kernel.Skeleton
import proofs.«153306_j41257455845539_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the 32 points -/

/-- "This is the first grid point" as the body computes it. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val % 32 = 0 :=
  (by decide +kernel : ∀ t : Fin grid0.N, isFirst (grid0.coords t) ↔ t.val % 32 = 0)

/-- "This is the last grid point" as the body computes it. -/
abbrev isLast (i : grid0.Coords) : Prop := k0_cond2 i = 1#1
theorem isLast_iff : ∀ t : Fin cfg0.N, isLast (grid0.coords t) ↔ t.val % 32 = 31 :=
  (by decide +kernel : ∀ t : Fin grid0.N, isLast (grid0.coords t) ↔ t.val % 32 = 31)

/-! ## Where the two output rows are idle: everywhere but the last point -/

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem idle0_3 : ∀ t : Fin cfg0.N, ¬isLast (grid0.coords t) → cfg0.idle 3 (grid0.coords t) = true := by decide +kernel
theorem noFlush0_2 : ∀ t : Fin cfg0.N, ¬isLast (grid0.coords t) → (cfg0.win 2).flush t = false := by decide +kernel
theorem noFlush0_3 : ∀ t : Fin cfg0.N, ¬isLast (grid0.coords t) → (cfg0.win 3).flush t = false := by decide +kernel
theorem live0_2 : ∀ t : Fin cfg0.N, isLast (grid0.coords t) → cfg0.idle 2 (grid0.coords t) = false := by decide +kernel
theorem live0_3 : ∀ t : Fin cfg0.N, isLast (grid0.coords t) → cfg0.idle 3 (grid0.coords t) = false := by decide +kernel

/-! ## The memrefs the body is called with -/

abbrev mX (t : Fin cfg0.N) : Memref sig .tc .vmem S32768x9 .f32 := win0_0.stage (cfg0.slots t 0)
abbrev hX (t : Fin cfg0.N) : (mX t).IsWhole := hstage0_0 ((cfg0.slots t 0).cast nbuf0_0)
abbrev mW (t : Fin cfg0.N) : Memref sig .tc .vmem S9x64 .f32 := win0_1.stage (cfg0.slots t 1)
abbrev hW (t : Fin cfg0.N) : (mW t).IsWhole := hstage0_1 ((cfg0.slots t 1).cast nbuf0_1)
abbrev mO1 (t : Fin cfg0.N) : Memref sig .tc .vmem S1x64 .f32 := win0_2.stage (cfg0.slots t 2)
abbrev hO1 (t : Fin cfg0.N) : (mO1 t).IsWhole := hstage0_2 ((cfg0.slots t 2).cast nbuf0_2)
abbrev mO2 (t : Fin cfg0.N) : Memref sig .tc .vmem S1x64 .f32 := win0_3.stage (cfg0.slots t 3)
abbrev hO2 (t : Fin cfg0.N) : (mO2 t).IsWhole := hstage0_3 ((cfg0.slots t 3).cast nbuf0_3)
/-- The two accumulators: whole scratch buffers of the kernel's own. -/
abbrev mA1 : Memref sig .tc .vmem S1x64 .f32 := Memref.whole cc0_scratch0
abbrev mA2 : Memref sig .tc .vmem S1x64 .f32 := Memref.whole cc0_scratch1

/-! ## The three runs -/

set_option maxHeartbeats 4000000 in
/-- FIRST point: both accumulators at anything on entry; both output rows handed back untouched. -/
noncomputable def runFirst (c : Dev nD) (i : grid0.Coords)
    (a1 : Memref sig .tc .vmem S32768x9 .f32) (h1 : a1.IsWhole) (a2 : Memref sig .tc .vmem S9x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (hc0 : isFirst i) (hc1 : ¬isLast i) (x : Vec F S32768x9 .f32) (w : Vec F S9x64 .f32) :
    Σ' (LA1 : List (View.Piece (Elt F) S1x64 .f32)), { LA2 : List (View.Piece (Elt F) S1x64 .f32) //
      ∀ (o1 o2 : Vec F S1x64 .f32) (E : Set ℕ) (K : PUnit → sProp 𝕄),
        iprop(owns (c : Thread nD τ) a1 fullShare x ∗ owns (c : Thread nD τ) a2 fullShare w
            ∗ owns (c : Thread nD τ) a3 fullShare o1 ∗ owns (c : Thread nD τ) a4 fullShare o2
            ∗ (∃ d, owns (c : Thread nD τ) a5 fullShare d) ∗ (∃ d, owns (c : Thread nD τ) a6 fullShare d)
            ∗ (iprop(owns (c : Thread nD τ) a1 fullShare x ∗ owns (c : Thread nD τ) a2 fullShare w
                ∗ owns (c : Thread nD τ) a3 fullShare o1 ∗ owns (c : Thread nD τ) a4 fullShare o2
                ∗ (∃ f, a5.view.loc (c : Thread nD τ) ↦[a5.view.set]{fullShare} a5.view.writes (Elt F) f LA1)
                ∗ (∃ f, a6.view.loc (c : Thread nD τ) ↦[a6.view.set]{fullShare} a6.view.writes (Elt F) f LA2)) -∗ K ⟨⟩))
          ⊢ wp frame (wpE (defs₀ (F := F)) Variants.none c none) E (cc0__stats_kernel i a1 h1 a2 h2 a3 h3 a4 h4 a5 h5 a6 h6) K } := by
  refine ⟨?_, ?_, fun o1 o2 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h1.eq_unread hf1; obtain rfl := h2.eq_unread hf2
    obtain rfl := h3.eq_unread hf3; obtain rfl := h4.eq_unread hf4
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 4000000 in
/-- MIDDLE point: the accumulators at what the point before left (`s1`, `s2`); both output rows untouched. -/
noncomputable def runMid (c : Dev nD) (i : grid0.Coords)
    (a1 : Memref sig .tc .vmem S32768x9 .f32) (h1 : a1.IsWhole) (a2 : Memref sig .tc .vmem S9x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (hc0 : ¬isFirst i) (hc1 : ¬isLast i) (x : Vec F S32768x9 .f32) (w : Vec F S9x64 .f32) (s1 s2 : Vec F S1x64 .f32) :
    Σ' (LA1 : List (View.Piece (Elt F) S1x64 .f32)), { LA2 : List (View.Piece (Elt F) S1x64 .f32) //
      ∀ (o1 o2 : Vec F S1x64 .f32) (E : Set ℕ) (K : PUnit → sProp 𝕄),
        iprop(owns (c : Thread nD τ) a1 fullShare x ∗ owns (c : Thread nD τ) a2 fullShare w
            ∗ owns (c : Thread nD τ) a3 fullShare o1 ∗ owns (c : Thread nD τ) a4 fullShare o2
            ∗ owns (c : Thread nD τ) a5 fullShare s1 ∗ owns (c : Thread nD τ) a6 fullShare s2
            ∗ (iprop(owns (c : Thread nD τ) a1 fullShare x ∗ owns (c : Thread nD τ) a2 fullShare w
                ∗ owns (c : Thread nD τ) a3 fullShare o1 ∗ owns (c : Thread nD τ) a4 fullShare o2
                ∗ (∃ f, a5.view.loc (c : Thread nD τ) ↦[a5.view.set]{fullShare} a5.view.writes (Elt F) f LA1)
                ∗ (∃ f, a6.view.loc (c : Thread nD τ) ↦[a6.view.set]{fullShare} a6.view.writes (Elt F) f LA2)) -∗ K ⟨⟩))
          ⊢ wp frame (wpE (defs₀ (F := F)) Variants.none c none) E (cc0__stats_kernel i a1 h1 a2 h2 a3 h3 a4 h4 a5 h5 a6 h6) K } := by
  refine ⟨?_, ?_, fun o1 o2 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h1.eq_unread hf1; obtain rfl := h2.eq_unread hf2
    obtain rfl := h3.eq_unread hf3; obtain rfl := h4.eq_unread hf4
    obtain rfl := h5.eq_unread hf5; obtain rfl := h6.eq_unread hf6
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 4000000 in
/-- LAST point: the accumulators at what the point before left; both output rows at anything on entry, stored into. -/
noncomputable def runLast (c : Dev nD) (i : grid0.Coords)
    (a1 : Memref sig .tc .vmem S32768x9 .f32) (h1 : a1.IsWhole) (a2 : Memref sig .tc .vmem S9x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (hc0 : ¬isFirst i) (hc1 : isLast i) (x : Vec F S32768x9 .f32) (w : Vec F S9x64 .f32) (s1 s2 : Vec F S1x64 .f32) :
    Σ' (LO1 : List (View.Piece (Elt F) S1x64 .f32)) (LO2 : List (View.Piece (Elt F) S1x64 .f32))
       (LA1 : List (View.Piece (Elt F) S1x64 .f32)), { LA2 : List (View.Piece (Elt F) S1x64 .f32) //
      ∀ (E : Set ℕ) (K : PUnit → sProp 𝕄),
        iprop(owns (c : Thread nD τ) a1 fullShare x ∗ owns (c : Thread nD τ) a2 fullShare w
            ∗ (∃ d, owns (c : Thread nD τ) a3 fullShare d) ∗ (∃ d, owns (c : Thread nD τ) a4 fullShare d)
            ∗ owns (c : Thread nD τ) a5 fullShare s1 ∗ owns (c : Thread nD τ) a6 fullShare s2
            ∗ (iprop(owns (c : Thread nD τ) a1 fullShare x ∗ owns (c : Thread nD τ) a2 fullShare w
                ∗ (∃ f, a3.view.loc (c : Thread nD τ) ↦[a3.view.set]{fullShare} a3.view.writes (Elt F) f LO1)
                ∗ (∃ f, a4.view.loc (c : Thread nD τ) ↦[a4.view.set]{fullShare} a4.view.writes (Elt F) f LO2)
                ∗ (∃ f, a5.view.loc (c : Thread nD τ) ↦[a5.view.set]{fullShare} a5.view.writes (Elt F) f LA1)
                ∗ (∃ f, a6.view.loc (c : Thread nD τ) ↦[a6.view.set]{fullShare} a6.view.writes (Elt F) f LA2)) -∗ K ⟨⟩))
          ⊢ wp frame (wpE (defs₀ (F := F)) Variants.none c none) E (cc0__stats_kernel i a1 h1 a2 h2 a3 h3 a4 h4 a5 h5 a6 h6) K } := by
  refine ⟨?_, ?_, ?_, ?_, fun E K => ?run⟩
  case run =>
    simp only [cc0__stats_kernel_eq_skeleton]; unfold cc0__stats_kernel_skel
    unfold owns
    iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
    obtain rfl := h1.eq_unread hf1; obtain rfl := h2.eq_unread hf2
    obtain rfl := h5.eq_unread hf5; obtain rfl := h6.eq_unread hf6
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    iexists _; iexact H6

end Cert.Kernel.Hand

end
-- ==== Proof.BitsStatsRegion.lean ====
/-
  The statistics region as a whole: what the two accumulators hold after each grid point, the region
  invariant that carries them from one point to the next, and the body obligation at every point.

  After point 0 the accumulators hold the first block's column sums (added to the cleared rows); after
  point n + 1 they hold what point n left plus block n + 1's column sums. Only the last point stores the two
  output rows (a copy of the accumulators); at every other point the output windows are idle.
-/
import proofs.«153306_j41257455845539_1_alg».proof.Proof.BitsStatsCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Views through which contents are stated (the choice of buffer does not matter: the pieces cover it) -/

abbrev VA1 : View sig .tc .vmem S1x64 .f32 := mA1.view
abbrev VA2 : View sig .tc .vmem S1x64 .f32 := mA2.view
abbrev VO1 : View sig .tc .vmem S1x64 .f32 := (Memref.whole cc0_stg2_0 : Memref sig .tc .vmem S1x64 .f32).view
abbrev VO2 : View sig .tc .vmem S1x64 .f32 := (Memref.whole cc0_stg3_0 : Memref sig .tc .vmem S1x64 .f32).view

/-! ## Each case's pieces cover the buffer they are stored into; the contents they leave -/

section Cases
variable (c : Dev nD) (i : grid0.Coords) (a1 : Memref sig .tc .vmem S32768x9 .f32) (h1 : a1.IsWhole) (a2 : Memref sig .tc .vmem S9x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole)

theorem first_cover1 (hc0 : isFirst i) (hc1 : ¬isLast i) (x : Vec F S32768x9 .f32) (w : Vec F S9x64 .f32) (y : S1x64.Idx) :
    ∃ pc ∈ (runFirst c i a1 h1 a2 h2 a3 h3 a4 h4 a5 h5 a6 h6 hc0 hc1 x w).1, y ∈ pc.1.set :=
  View.cover_of_tiledL (runFirst c i a1 h1 a2 h2 a3 h3 a4 h4 a5 h5 a6 h6 hc0 hc1 x w).1 S1x64.size (by sl_kernel_rfl) y
theorem first_cover2 (hc0 : isFirst i) (hc1 : ¬isLast i) (x : Vec F S32768x9 .f32) (w : Vec F S9x64 .f32) (y : S1x64.Idx) :
    ∃ pc ∈ (runFirst c i a1 h1 a2 h2 a3 h3 a4 h4 a5 h5 a6 h6 hc0 hc1 x w).2.1, y ∈ pc.1.set :=
  View.cover_of_tiledL (runFirst c i a1 h1 a2 h2 a3 h3 a4 h4 a5 h5 a6 h6 hc0 hc1 x w).2.1 S1x64.size (by sl_kernel_rfl) y
/-- What the first point leaves in the first accumulator (the sum row), -/
def first_acc1 (hc0 : isFirst i) (hc1 : ¬isLast i) (x : Vec F S32768x9 .f32) (w : Vec F S9x64 .f32) : Vec F S1x64 .f32 :=
  VA1.read (Elt F) (VA1.writes (Elt F) VA1.junk (runFirst c i a1 h1 a2 h2 a3 h3 a4 h4 a5 h5 a6 h6 hc0 hc1 x w).1)
/-- and in the second (the sum-of-squares row). -/
def first_acc2 (hc0 : isFirst i) (hc1 : ¬isLast i) (x : Vec F S32768x9 .f32) (w : Vec F S9x64 .f32) : Vec F S1x64 .f32 :=
  VA2.read (Elt F) (VA2.writes (Elt F) VA2.junk (runFirst c i a1 h1 a2 h2 a3 h3 a4 h4 a5 h5 a6 h6 hc0 hc1 x w).2.1)

theorem mid_cover1 (hc0 : ¬isFirst i) (hc1 : ¬isLast i) (x : Vec F S32768x9 .f32) (w : Vec F S9x64 .f32) (s1 s2 : Vec F S1x64 .f32) (y : S1x64.Idx) :
    ∃ pc ∈ (runMid c i a1 h1 a2 h2 a3 h3 a4 h4 a5 h5 a6 h6 hc0 hc1 x w s1 s2).1, y ∈ pc.1.set :=
  View.cover_of_tiledL (runMid c i a1 h1 a2 h2 a3 h3 a4 h4 a5 h5 a6 h6 hc0 hc1 x w s1 s2).1 S1x64.size (by sl_kernel_rfl) y
theorem mid_cover2 (hc0 : ¬isFirst i) (hc1 : ¬isLast i) (x : Vec F S32768x9 .f32) (w : Vec F S9x64 .f32) (s1 s2 : Vec F S1x64 .f32) (y : S1x64.Idx) :
    ∃ pc ∈ (runMid c i a1 h1 a2 h2 a3 h3 a4 h4 a5 h5 a6 h6 hc0 hc1 x w s1 s2).2.1, y ∈ pc.1.set :=
  View.cover_of_tiledL (runMid c i a1 h1 a2 h2 a3 h3 a4 h4 a5 h5 a6 h6 hc0 hc1 x w s1 s2).2.1 S1x64.size (by sl_kernel_rfl) y
def mid_acc1 (hc0 : ¬isFirst i) (hc1 : ¬isLast i) (x : Vec F S32768x9 .f32) (w : Vec F S9x64 .f32) (s1 s2 : Vec F S1x64 .f32) : Vec F S1x64 .f32 :=
  VA1.read (Elt F) (VA1.writes (Elt F) VA1.junk (runMid c i a1 h1 a2 h2 a3 h3 a4 h4 a5 h5 a6 h6 hc0 hc1 x w s1 s2).1)
def mid_acc2 (hc0 : ¬isFirst i) (hc1 : ¬isLast i) (x : Vec F S32768x9 .f32) (w : Vec F S9x64 .f32) (s1 s2 : Vec F S1x64 .f32) : Vec F S1x64 .f32 :=
  VA2.read (Elt F) (VA2.writes (Elt F) VA2.junk (runMid c i a1 h1 a2 h2 a3 h3 a4 h4 a5 h5 a6 h6 hc0 hc1 x w s1 s2).2.1)

theorem last_coverO1 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).1, y ∈ pc.1.set :=
  View.cover_of_tiledL (runLast c i a1 h1 a2 h2 a3 h3 a4 h4 a5 h5 a6 h6 hc0 hc1 x w s1 s2).1 S1x64.size (by sl_kernel_rfl) y
theorem last_coverO2 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).2.1, y ∈ pc.1.set :=
  View.cover_of_tiledL (runLast c i a1 h1 a2 h2 a3 h3 a4 h4 a5 h5 a6 h6 hc0 hc1 x w s1 s2).2.1 S1x64.size (by sl_kernel_rfl) y
theorem last_cover1 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).2.2.1, y ∈ pc.1.set :=
  View.cover_of_tiledL (runLast c i a1 h1 a2 h2 a3 h3 a4 h4 a5 h5 a6 h6 hc0 hc1 x w s1 s2).2.2.1 S1x64.size (by sl_kernel_rfl) y
theorem last_cover2 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).2.2.2.1, y ∈ pc.1.set :=
  View.cover_of_tiledL (runLast c i a1 h1 a2 h2 a3 h3 a4 h4 a5 h5 a6 h6 hc0 hc1 x w s1 s2).2.2.2.1 S1x64.size (by sl_kernel_rfl) y
/-- What the last point stores into the first output row, -/
def last_out1 (hc0 : ¬isFirst i) (hc1 : isLast i) (x : Vec F S32768x9 .f32) (w : Vec F S9x64 .f32) (s1 s2 : Vec F S1x64 .f32) : Vec F S1x64 .f32 :=
  VO1.read (Elt F) (VO1.writes (Elt F) VO1.junk (runLast c i a1 h1 a2 h2 a3 h3 a4 h4 a5 h5 a6 h6 hc0 hc1 x w s1 s2).1)
/-- into the second, -/
def last_out2 (hc0 : ¬isFirst i) (hc1 : isLast i) (x : Vec F S32768x9 .f32) (w : Vec F S9x64 .f32) (s1 s2 : Vec F S1x64 .f32) : Vec F S1x64 .f32 :=
  VO2.read (Elt F) (VO2.writes (Elt F) VO2.junk (runLast c i a1 h1 a2 h2 a3 h3 a4 h4 a5 h5 a6 h6 hc0 hc1 x w s1 s2).2.1)
/-- and leaves in the two accumulators. -/
def last_acc1 (hc0 : ¬isFirst i) (hc1 : isLast i) (x : Vec F S32768x9 .f32) (w : Vec F S9x64 .f32) (s1 s2 : Vec F S1x64 .f32) : Vec F S1x64 .f32 :=
  VA1.read (Elt F) (VA1.writes (Elt F) VA1.junk (runLast c i a1 h1 a2 h2 a3 h3 a4 h4 a5 h5 a6 h6 hc0 hc1 x w s1 s2).2.2.1)
def last_acc2 (hc0 : ¬isFirst i) (hc1 : isLast i) (x : Vec F S32768x9 .f32) (w : Vec F S9x64 .f32) (s1 s2 : Vec F S1x64 .f32) : Vec F S1x64 .f32 :=
  VA2.read (Elt F) (VA2.writes (Elt F) VA2.junk (runLast c i a1 h1 a2 h2 a3 h3 a4 h4 a5 h5 a6 h6 hc0 hc1 x w s1 s2).2.2.2.1)
end Cases

section
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem N0_eq : cfg0.N = 32 := N_0

/-- THE ACCUMULATION: the two accumulators after the body at position `n`. -/
def accAt (c : Dev nD) : (n : ℕ) → n < cfg0.N → Vec F S1x64 .f32 × Vec F S1x64 .f32
  | 0, hn =>
    (first_acc1 c (grid0.coords ⟨0, hn⟩) (mX ⟨0, hn⟩) (hX ⟨0, hn⟩) (mW ⟨0, hn⟩) (hW ⟨0, hn⟩) (mO1 ⟨0, hn⟩) (hO1 ⟨0, hn⟩) (mO2 ⟨0, hn⟩) (hO2 ⟨0, hn⟩) mA1 (Memref.isWhole_whole _) mA2 (Memref.isWhole_whole _) ((isFirst_iff ⟨0, hn⟩).mpr (Nat.zero_mod _)) (fun h => absurd ((isLast_iff ⟨0, hn⟩).mp h) (by show ¬ (0 % 32 = 31); decide)) (blk0 V c 0 ⟨0, hn⟩) (blk0 V c 1 ⟨0, hn⟩),
     first_acc2 c (grid0.coords ⟨0, hn⟩) (mX ⟨0, hn⟩) (hX ⟨0, hn⟩) (mW ⟨0, hn⟩) (hW ⟨0, hn⟩) (mO1 ⟨0, hn⟩) (hO1 ⟨0, hn⟩) (mO2 ⟨0, hn⟩) (hO2 ⟨0, hn⟩) mA1 (Memref.isWhole_whole _) mA2 (Memref.isWhole_whole _) ((isFirst_iff ⟨0, hn⟩).mpr (Nat.zero_mod _)) (fun h => absurd ((isLast_iff ⟨0, hn⟩).mp h) (by show ¬ (0 % 32 = 31); decide)) (blk0 V c 0 ⟨0, hn⟩) (blk0 V c 1 ⟨0, hn⟩))
  | n + 1, hn =>
    have hnf : ¬isFirst (grid0.coords ⟨n + 1, hn⟩) := fun h => by
      have h' := (isFirst_iff ⟨n + 1, hn⟩).mp h
      have hN : n + 1 < 32 := lt_of_lt_of_eq hn N0_eq
      dsimp only at h'; omega
    if h1 : (n + 1) % 32 = 31 then
      (last_acc1 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf ((isLast_iff ⟨n + 1, hn⟩).mpr h1) (blk0 V c 0 ⟨n + 1, hn⟩) (blk0 V c 1 ⟨n + 1, hn⟩) (accAt c n (Nat.lt_of_succ_lt hn)).1 (accAt c n (Nat.lt_of_succ_lt hn)).2,
       last_acc2 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf ((isLast_iff ⟨n + 1, hn⟩).mpr h1) (blk0 V c 0 ⟨n + 1, hn⟩) (blk0 V c 1 ⟨n + 1, hn⟩) (accAt c n (Nat.lt_of_succ_lt hn)).1 (accAt c n (Nat.lt_of_succ_lt hn)).2)
    else
      (mid_acc1 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf (fun h => h1 ((isLast_iff ⟨n + 1, hn⟩).mp h)) (blk0 V c 0 ⟨n + 1, hn⟩) (blk0 V c 1 ⟨n + 1, hn⟩) (accAt c n (Nat.lt_of_succ_lt hn)).1 (accAt c n (Nat.lt_of_succ_lt hn)).2,
       mid_acc2 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf (fun h => h1 ((isLast_iff ⟨n + 1, hn⟩).mp h)) (blk0 V c 0 ⟨n + 1, hn⟩) (blk0 V c 1 ⟨n + 1, hn⟩) (accAt c n (Nat.lt_of_succ_lt hn)).1 (accAt c n (Nat.lt_of_succ_lt hn)).2)

/-- The accumulators the point before `t` left (junk-free only when `t` is not the first point). -/
abbrev prevAcc (c : Dev nD) (t : Fin cfg0.N) : Vec F S1x64 .f32 × Vec F S1x64 .f32 :=
  accAt V c (t.val - 1) (Nat.lt_of_le_of_lt (Nat.sub_le _ _) t.isLt)

theorem accAt_first (c : Dev nD) (t : Fin cfg0.N) (hc0 : isFirst (grid0.coords t)) (hc1 : ¬isLast (grid0.coords t)) :
    accAt V c t.val t.isLt
      = (first_acc1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t),
         first_acc2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t)) := by
  have h0 := (isFirst_iff t).mp hc0
  obtain ⟨n, hn⟩ := t
  cases n with
  | zero => rfl
  | succ n => exfalso; have hN : n + 1 < 32 := lt_of_lt_of_eq hn N0_eq; dsimp only at h0; omega

theorem accAt_mid (c : Dev nD) (t : Fin cfg0.N) (hc0 : ¬isFirst (grid0.coords t)) (hc1 : ¬isLast (grid0.coords t)) :
    accAt V c t.val t.isLt
      = (mid_acc1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2,
         mid_acc2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2) := by
  have h1 : ¬ t.val % 32 = 31 := fun h => hc1 ((isLast_iff t).mpr h)
  obtain ⟨n, hn⟩ := t
  cases n with
  | zero => exact absurd ((isFirst_iff ⟨0, hn⟩).mpr (Nat.zero_mod _)) hc0
  | succ n => exact (dif_neg h1).trans rfl

theorem accAt_last (c : Dev nD) (t : Fin cfg0.N) (hc0 : ¬isFirst (grid0.coords t)) (hc1 : isLast (grid0.coords t)) :
    accAt V c t.val t.isLt
      = (last_acc1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2,
         last_acc2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2) := by
  have h1 : t.val % 32 = 31 := (isLast_iff t).mp hc1
  obtain ⟨n, hn⟩ := t
  cases n with
  | zero => exact absurd ((isFirst_iff ⟨0, hn⟩).mpr (Nat.zero_mod _)) hc0
  | succ n => exact (dif_pos h1).trans rfl

/-- What the two output rows' staging buffers hold after the body at point `t`: the last point's stores; at any other point
    a placeholder nothing consults (the windows are idle there and not written back). -/
def outAt (c : Dev nD) (t : Fin cfg0.N) : Vec F S1x64 .f32 × Vec F S1x64 .f32 :=
  if h1 : t.val % 32 = 31 then
    have hnf : ¬isFirst (grid0.coords t) := fun h => by have h' := (isFirst_iff t).mp h; omega
    (last_out1 c (grid0.coords t) (mX t) (hX t) (mW t) (hW t) (mO1 t) (hO1 t) (mO2 t) (hO2 t) mA1 (Memref.isWhole_whole _) mA2 (Memref.isWhole_whole _) hnf ((isLast_iff t).mpr h1) (blk0 V c 0 t) (blk0 V c 1 t) (prevAcc V c t).1 (prevAcc V c t).2,
     last_out2 c (grid0.coords t) (mX t) (hX t) (mW t) (hW t) (mO1 t) (hO1 t) (mO2 t) (hO2 t) mA1 (Memref.isWhole_whole _) mA2 (Memref.isWhole_whole _) hnf ((isLast_iff t).mpr h1) (blk0 V c 0 t) (blk0 V c 1 t) (prevAcc V c t).1 (prevAcc V c t).2)
  else (VO1.read (Elt F) VO1.junk, VO2.read (Elt F) VO2.junk)

theorem outAt_last (c : Dev nD) (t : Fin cfg0.N) (hc0 : ¬isFirst (grid0.coords t)) (hc1 : isLast (grid0.coords t)) :
    outAt V c t
      = (last_out1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2,
         last_out2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2) := by
  unfold outAt; rw [dif_pos ((isLast_iff t).mp hc1)]

/-! ## The region invariant -/

/-- The scoped buffers that are neither this kernel's staging buffers nor its accumulators (the other kernel's
    staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant (every scoped buffer no window stages at anything, the generator register at some state)
    with the two accumulators spelt as memrefs. -/
theorem PhiA0_eq (c : Dev nD) :
    (Pipeline.ΦA spec0 c : sProp 𝕄)
      = iprop(iprop((∃ d, owns (c : Thread nD τ) mA1 fullShare d) ∗ (∃ d, owns (c : Thread nD τ) mA2 fullShare d) ∗ otherScoped c) ∗ (∃ r, prngReg c r)) := by
  unfold Pipeline.ΦA otherScoped; rw [scopedRest0_eq]; simp only [mA1, mA2, owns_whole]; try rfl

/-- Before position `n`: at the very start the class invariant (the accumulators at anything); afterwards the same
    with the accumulators at what the point before left. -/
def PhiS (c : Dev nD) : (n : ℕ) → n ≤ cfg0.N → sProp 𝕄
  | 0, _ => Pipeline.ΦA spec0 c
  | n + 1, hn => iprop(iprop(owns (c : Thread nD τ) mA1 fullShare (accAt V c n hn).1 ∗ owns (c : Thread nD τ) mA2 fullShare (accAt V c n hn).2 ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mA1 fullShare (accAt V c n hn).1 ∗ owns (c : Thread nD τ) mA2 fullShare (accAt V c n hn).2 ∗ otherScoped c) ∗ (∃ r, prngReg c r)) := rfl
theorem PhiS_pos (c : Dev nD) (n : ℕ) (h : n ≤ cfg0.N) (hz : n ≠ 0) :
    PhiS V c n h = iprop(iprop(owns (c : Thread nD τ) mA1 fullShare (accAt V c (n - 1) (by omega)).1 ∗ owns (c : Thread nD τ) mA2 fullShare (accAt V c (n - 1) (by omega)).2 ∗ otherScoped c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (outAt V c t).1
    | ⟨3, _⟩ => (outAt V c t).2
  Φ t := PhiS V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_Phi_castSucc (c : Dev nD) (t : Fin cfg0.N) :
    (dat0 V c).Φ t.castSucc = PhiS V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = (outAt V c t).1 := by dsimp only [dat0]
theorem dat0_after3 (c : Dev nD) (t : Fin cfg0.N) : (dat0 V c).after 3 t = (outAt V c t).2 := by dsimp only [dat0]
theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d

/-! ## The body obligation -/

def statsPre (c : Dev nD) (t : Fin cfg0.N) : sProp 𝕄 :=
  iprop((dat0 V c).Φ t.castSucc ∗ (dat0 V c).owesAt () t.castSucc
    ∗ (∃ d, owns (c : Thread nD τ) (mX t) fullShare ((dat0 V c).before 0 t d))
    ∗ (∃ d, owns (c : Thread nD τ) (mW t) fullShare ((dat0 V c).before 1 t d))
    ∗ (∃ d, owns (c : Thread nD τ) (mO1 t) fullShare ((dat0 V c).before 2 t d))
    ∗ (∃ d, owns (c : Thread nD τ) (mO2 t) fullShare ((dat0 V c).before 3 t d)))

def statsPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem stats_point (c : Dev nD) (t : Fin cfg0.N) :
    statsPre V c t ⊢ wp frame (wpE (defs₀ (F := F)) Variants.none c none) Set.univ (bodyAt0 t) (fun _ => statsPost V c t) := by
  unfold statsPre statsPost bodyAt0
  simp only [dat0_before0, dat0_before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (mX t) fullShare ((dat0 V c).after 0 t) from by
    unfold Dat.leavesExact; rw [live0_0 t], dat0_after0]
  rw [show (dat0 V c).leavesExact 1 t = owns (c : Thread nD τ) (mW t) fullShare ((dat0 V c).after 1 t) from by
    unfold Dat.leavesExact; rw [live0_1 t], dat0_after1]
  have hN : t.val < 32 := lt_of_lt_of_eq t.isLt N0_eq
  by_cases hl : isLast (grid0.coords t)
  · -- the last point: add, then copy both accumulators out
    have h31 := (isLast_iff t).mp hl
    have hnf : ¬isFirst (grid0.coords t) := fun h => by have := (isFirst_iff t).mp h; omega
    have hz : t.val ≠ 0 := by omega
    rw [show (dat0 V c).leavesExact 2 t = owns (c : Thread nD τ) (mO1 t) fullShare ((dat0 V c).after 2 t) from by
      unfold Dat.leavesExact; rw [live0_2 t hl], dat0_after2]
    rw [show (dat0 V c).leavesExact 3 t = owns (c : Thread nD τ) (mO2 t) fullShare ((dat0 V c).after 3 t) from by
      unfold Dat.leavesExact; rw [live0_3 t hl], dat0_after3]
    rw [outAt_last V c t hnf hl, accAt_last V c t hnf hl]
    unfold last_out1 last_out2 last_acc1 last_acc2; (try dsimp only)
    rw [dat0_Phi_castSucc V c t, PhiS_pos V c _ _ hz]
    iintro ⟨⟨⟨HA1, HA2, Hr⟩, Hg⟩, Ho, ⟨%d0, H0⟩, ⟨%d1, H1⟩, ⟨%d2, H2⟩, ⟨%d3, H3⟩⟩
    iapply ((runLast c (grid0.coords t) _ _ _ _ _ _ _ _ _ _ _ _ hnf hl (blk0 V c 0 t) (blk0 V c 1 t) _ _).2.2.2.2 Set.univ _)
    isplitl [H0]; · iexact H0
    isplitl [H1]; · iexact H1
    isplitl [H2]; · iexists _; iexact H2
    isplitl [H3]; · iexists _; iexact H3
    isplitl [HA1]; · iexact HA1
    isplitl [HA2]; · iexact HA2
    iintro ⟨H0, H1, ⟨%e2, H2⟩, ⟨%e3, H3⟩, ⟨%e5, HA1⟩, ⟨%e6, HA2⟩⟩
    isplitl [HA1 HA2 Hr Hg]
    · isplitl [HA1 HA2 Hr]
      · isplitl [HA1]
        · unfold owns; iexists _; isplitr
          swap; · iexact HA1
          ipureintro; exact View.read_writes_of_cover _ _ _ _ _ (last_cover1 c _ _ _ _ _ _ _ _ _ _ _ _ _ _ _ _ _ _ _)
        isplitl [HA2]
        · unfold owns; iexists _; isplitr
          swap; · iexact HA2
          ipureintro; exact View.read_writes_of_cover _ _ _ _ _ (last_cover2 c _ _ _ _ _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (last_coverO1 c _ _ _ _ _ _ _ _ _ _ _ _ _ _ _ _ _ _ _)
    unfold owns; iexists _; isplitr
    swap; · iexact H3
    ipureintro; exact View.read_writes_of_cover _ _ _ _ _ (last_coverO2 c _ _ _ _ _ _ _ _ _ _ _ _ _ _ _ _ _ _ _)
  · rw [Dat.leavesExact_idle (dat0 V c) 2 t (idle0_2 t hl) (noFlush0_2 t hl)]
    rw [Dat.leavesExact_idle (dat0 V c) 3 t (idle0_3 t hl) (noFlush0_3 t hl)]
    by_cases hf : isFirst (grid0.coords t)
    · -- the first point: clear, then add
      have hz : t.val = 0 := by have := (isFirst_iff t).mp hf; omega
      rw [accAt_first V c t hf hl]
      unfold first_acc1 first_acc2; (try dsimp only)
      rw [dat0_Phi_castSucc V c t, PhiS_zero V c _ _ hz, PhiA0_eq]
      iintro ⟨⟨⟨HA1, HA2, Hr⟩, Hg⟩, Ho, ⟨%d0, H0⟩, ⟨%d1, H1⟩, ⟨%d2, H2⟩, ⟨%d3, H3⟩⟩
      iapply ((runFirst c (grid0.coords t) _ _ _ _ _ _ _ _ _ _ _ _ hf hl (blk0 V c 0 t) (blk0 V c 1 t)).2.2 _ _ Set.univ _)
      isplitl [H0]; · iexact H0
      isplitl [H1]; · iexact H1
      isplitl [H2]; · iexact H2
      isplitl [H3]; · iexact H3
      isplitl [HA1]; · iexact HA1
      isplitl [HA2]; · iexact HA2
      iintro ⟨H0, H1, H2, H3, ⟨%e5, HA1⟩, ⟨%e6, HA2⟩⟩
      isplitl [HA1 HA2 Hr Hg]
      · isplitl [HA1 HA2 Hr]
        · isplitl [HA1]
          · unfold owns; iexists _; isplitr
            swap; · iexact HA1
            ipureintro; exact View.read_writes_of_cover _ _ _ _ _ (first_cover1 c _ _ _ _ _ _ _ _ _ _ _ _ _ _ _ _ _)
          isplitl [HA2]
          · unfold owns; iexists _; isplitr
            swap; · iexact HA2
            ipureintro; exact View.read_writes_of_cover _ _ _ _ _ (first_cover2 c _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3
    · -- a middle point: add
      have hz : t.val ≠ 0 := fun h => hf ((isFirst_iff t).mpr (by rw [h]))
      rw [accAt_mid V c t hf hl]
      unfold mid_acc1 mid_acc2; (try dsimp only)
      rw [dat0_Phi_castSucc V c t, PhiS_pos V c _ _ hz]
      iintro ⟨⟨⟨HA1, HA2, Hr⟩, Hg⟩, Ho, ⟨%d0, H0⟩, ⟨%d1, H1⟩, ⟨%d2, H2⟩, ⟨%d3, H3⟩⟩
      iapply ((runMid c (grid0.coords t) _ _ _ _ _ _ _ _ _ _ _ _ hf hl (blk0 V c 0 t) (blk0 V c 1 t) _ _).2.2 _ _ Set.univ _)
      isplitl [H0]; · iexact H0
      isplitl [H1]; · iexact H1
      isplitl [H2]; · iexact H2
      isplitl [H3]; · iexact H3
      isplitl [HA1]; · iexact HA1
      isplitl [HA2]; · iexact HA2
      iintro ⟨H0, H1, H2, H3, ⟨%e5, HA1⟩, ⟨%e6, HA2⟩⟩
      isplitl [HA1 HA2 Hr Hg]
      · isplitl [HA1 HA2 Hr]
        · isplitl [HA1]
          · unfold owns; iexists _; isplitr
            swap; · iexact HA1
            ipureintro; exact View.read_writes_of_cover _ _ _ _ _ (mid_cover1 c _ _ _ _ _ _ _ _ _ _ _ _ _ _ _ _ _ _ _)
          isplitl [HA2]
          · unfold owns; iexists _; isplitr
            swap; · iexact HA2
            ipureintro; exact View.read_writes_of_cover _ _ _ _ _ (mid_cover2 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

theorem stats_obligation (c : Dev nD) : BodyObligation (dat0 (F := F) V c) (defs₀ (F := F)) Variants.none () Set.univ := fun t => by
  rw [bigSep_W0, bigSep_W0]
  exact stats_point V c t

/-- What the launch hands the region is the invariant before the first point. -/
theorem stats_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back (the accumulators' contents forgotten). -/
theorem stats_out (c : Dev nD) : (dat0 V c).Φ (Fin.last cfg0.N) ⊢ Pipeline.ΦA spec0 c := by
  have ht : (Fin.last cfg0.N).val ≠ 0 := by rw [Fin.val_last]; have := N0_eq; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨H1, H2, Hr⟩, Hg⟩
  isplitl [H1 H2 Hr]
  · isplitl [H1]; · iexists _; iexact H1
    isplitl [H2]; · iexists _; iexact H2
    iexact Hr
  iexact Hg
end

end Cert.Kernel.Hand

end
-- ==== Proof.BitsMainCase.lean ====
/-
  The main kernel (the second pallas_call) at one grid point, and the region's proof data.

  At point t the body reads a block of 16384 rows of the flattened input (256 batch entries x 64 positions),
  the 9 x 64 weight, and the two 32 x 2 tables (scale and shift per position), and stores ONE whole output
  block: the projection, scaled and shifted per position, clamped below at zero, the larger of the two values
  of each pair kept, channels moved before pillars. Nothing is kept between points.
-/
import proofs.«153306_j41257455845539_1_alg».proof.Proof.Gen.Kernel.Launch
import proofs.«153306_j41257455845539_1_alg».proof.Proof.Gen.Kernel.Skeleton
import proofs.«153306_j41257455845539_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
end

/-! ## The body's accesses: every load and the one store take the whole buffer -/

abbrev rX : Rect S16384x9 := Rect.unit (s := S16384x9) ![0, 0] S16384x9.size inb_S16384x9_S16384x9_0_0
abbrev rW : Rect S9x64 := Rect.unit (s := S9x64) ![0, 0] S9x64.size inb_S9x64_S9x64_0_0
abbrev rT : Rect S32x2 := Rect.unit (s := S32x2) ![0, 0] S32x2.size inb_S32x2_S32x2_0_0
abbrev rO : Rect S256x64x32 := Rect.unit (s := S256x64x32) ![0, 0, 0] S256x64x32.size inb_S256x64x32_S256x64x32_0_0_0

/-- The output block after the body, from the four input blocks: its one store. -/
def outBlock (x : Vec F S16384x9 .f32) (w : Vec F S9x64 .f32) (sc sh : Vec F S32x2 .f32) : Vec F S256x64x32 .f32 :=
  View.canon [⟨rO, k1_pay1 (View.ld x rX) (View.ld w rW) (View.ld sc rT) (View.ld sh rT)⟩]

/-- The one store covers the buffer. -/
theorem outBlock_cover (p0 : Vec F S256x64x32 .f32) (y : S256x64x32.Idx) :
    ∃ pc ∈ ([⟨rO, p0⟩] : List (View.Piece (Elt F) S256x64x32 .f32)), y ∈ pc.1.set :=
  View.cover_of_tiled [⟨rO, p0⟩] S256x64x32.size (by rfl) y

set_option maxHeartbeats 4000000 in
/-- The body on whole staging memrefs: the inputs kept, the output at `outBlock` of the inputs. -/
theorem mainKernel_run (c : Dev nD) (E : Set ℕ) (i : grid1.Coords)
    (a1 : Memref sig .tc .vmem S16384x9 .f32) (h1 : a1.IsWhole) (a2 : Memref sig .tc .vmem S9x64 .f32) (h2 : a2.IsWhole)
    (a3 : Memref sig .tc .vmem S32x2 .f32) (h3 : a3.IsWhole) (a4 : Memref sig .tc .vmem S32x2 .f32) (h4 : a4.IsWhole)
    (a5 : Memref sig .tc .vmem S256x64x32 .f32) (h5 : a5.IsWhole)
    (x : Vec F S16384x9 .f32) (w : Vec F S9x64 .f32) (sc sh : Vec F S32x2 .f32) (K : PUnit → sProp 𝕄) :
    iprop(owns (c : Thread nD τ) a1 fullShare x ∗ owns (c : Thread nD τ) a2 fullShare w
        ∗ owns (c : Thread nD τ) a3 fullShare sc ∗ owns (c : Thread nD τ) a4 fullShare sh
        ∗ (∃ d, owns (c : Thread nD τ) a5 fullShare d)
        ∗ (iprop(owns (c : Thread nD τ) a1 fullShare x ∗ owns (c : Thread nD τ) a2 fullShare w
            ∗ owns (c : Thread nD τ) a3 fullShare sc ∗ owns (c : Thread nD τ) a4 fullShare sh
            ∗ owns (c : Thread nD τ) a5 fullShare (outBlock x w sc sh)) -∗ K ⟨⟩))
      ⊢ wp frame (wpE (defs₀ (F := F)) Variants.none c none) E (cc1__main_kernel i a1 h1 a2 h2 a3 h3 a4 h4 a5 h5) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

section
variable (V : (c : Dev nD) → (b : Ref sig .tc) → Buf (Elt F) ((c : Thread nD τ).loc b))

/-- The region's proof data on core `c`: the arrays as the region finds them; after the body at point `t` each
    input's buffer at its block and the output's at `outBlock` of the four input blocks; nothing kept, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outBlock (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = outBlock (blk1 V c 0 t) (blk1 V c 1 t) (blk1 V c 2 t) (blk1 V c 3 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d
theorem dat1_before3 (c : Dev nD) (t : Fin cfg1.N) (d) : (dat1 V c).before 3 t d = blk1 V c 3 t :=
  held1_3 V (dat1 V c) (dat1_A V c 3) (dat1_after3 V c) t d

/-- What the body is called with at point `t`, -/
def mainPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def mainPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem main_point (c : Dev nD) (t : Fin cfg1.N) :
    mainPre V c t ⊢ wp frame (wpE (defs₀ (F := F)) Variants.none c none) Set.univ (bodyAt1 t) (fun _ => mainPost V c t) := by
  unfold mainPre mainPost bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (mainKernel_run c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem main_obligation (c : Dev nD) : BodyObligation (dat1 (F := F) V c) (defs₀ (F := F)) Variants.none () Set.univ := fun t => by
  rw [bigSep_W1, bigSep_W1]
  exact main_point V c t
end

end Cert.Kernel.Hand

end
-- ==== Proof.BitsRun.lean ====
/-
  The whole program's run: host operations, the statistics region, host operations, the main region.

  Between two items the core holds every unscoped buffer at known contents: the launch memory, then what each
  stretch of host operations computes from it, then, after a region, the same with that region's arrays at what
  its write-backs leave. Each region is entered from those contents and left at the next ones; its accumulators
  and staging buffers are scoped and forgotten at its end. At the return every unscoped buffer is read back: the
  arguments unchanged, and the result array at what the main region's 64 write-backs left.
-/
import proofs.«153306_j41257455845539_1_alg».proof.Proof.BitsStatsRegion
import proofs.«153306_j41257455845539_1_alg».proof.Proof.BitsMainCase
import proofs.«153306_j41257455845539_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first two host operations (the input flattened to rows, the weight transposed). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the statistics region: its arrays at what its write-backs leave, the rest as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem exit0_arr (c : Dev nD) (w : Fin cfg0.W) : (dat0 (U1 m) c).arrAt w cfg0.N = U2 m c (Pipeline.arrRef spec0 w) :=
  (W2_arr m c w).symm
theorem exit0_rest (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the twenty host operations between the regions (the scale and shift tables). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the main region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem exit1_arr (c : Dev nD) (w : Fin cfg1.W) : (dat1 (U3 m) c).arrAt w cfg1.N = U4 m c (Pipeline.arrRef spec1 w) :=
  (W4_arr m c w).symm
theorem exit1_rest (c : Dev nD) : ∀ b, b ∉ Finset.univ.image (Pipeline.arrRef spec1) → U4 m c b = U3 m c b :=
  fun b hb => W4_of_ne m c b fun w e => hb (Finset.mem_image.mpr ⟨w, Finset.mem_univ _, e⟩)

/-- A buffer no operation of the first stretch writes is as launched after it; -/
theorem W1_keep (c : Dev nD) (r : Ref sig .tc) (h : r ∉ (hostOps0_W : List (Ref sig .tc))) : W1 m c r = W0 m c r :=
  StableHlo.after_of_writes_sub hostOps0 _ hostOps0_writes h
/-- one the second stretch does not write is as the statistics region left it. -/
theorem W3_keep (c : Dev nD) (r : Ref sig .tc) (h : r ∉ (hostOps1_W : List (Ref sig .tc))) : W3 m c r = W2 m c r :=
  StableHlo.after_of_writes_sub hostOps1 _ hostOps1_writes h

/-- An argument reaches the end as launched: it is no array of either region, and no host operation writes it. -/
theorem W4_arg (c : Dev nD) (r : Ref sig .tc) (h1 : ∀ w, Pipeline.arrRef spec1 w ≠ r) (h0 : ∀ w, Pipeline.arrRef spec0 w ≠ r)
    (hw1 : r ∉ (hostOps1_W : List (Ref sig .tc))) (hw0 : r ∉ (hostOps0_W : List (Ref sig .tc))) :
    W4 m c (Proc.devRef .tc r) = m ((c : Thread nD τ).loc r) :=
  (W4_of_ne m c r h1).trans <| (W3_keep m c r hw1).trans <| (W2_of_ne m c r h0).trans <| (W1_keep m c r hw0).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The statistics region: entered from the buffers at `W1`, left at `W2`. -/
def regStats : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (stats_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (stats_in (U1 m) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (stats_out (U1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered from the buffers at `W3`, left at `W4`. -/
def regMain : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (main_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as four segments, and the launch -/

abbrev segs : List (Pipeline.Seg (pcfgs (F := F)) adm (pdats m) () defs₀ 𝒱₀ L lv) :=
  [ .host (hseg hostOps0 hostOps0_sub hostOps0_fresh (W0 m)),
    .region (regStats m),
    .host (hseg hostOps1 hostOps1_sub hostOps1_fresh (W2 m)),
    .region (regMain m) ]
theorem main_is_segs (c : Dev nD) : main (F := F) c = Pipeline.Seg.run (segs m) := (main_chain c).trans (by chain_rfl)

set_option backward.isDefEq.respectTransparency.types false in
/-- Every weakly fair execution from memory `m` with zero counters terminates, faulting nowhere, and every final
    memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩)
    (run_all m ρ)

/-- The run with the result named: the output array ends at what the main region's write-backs leave. -/
theorem run_result : θ_run defs (onTc (τ := τ) (main (F := F))) ⟨m, fun _ => 0, ρ⟩ (fun r => ∀ c : Dev nD,
      r.2.mem ((c.tc : Thread nD τ).loc main_v20) = (dat1 (U3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v20 (by decide))).trans (W4_arr m c 4),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩)
    (run_all m ρ)

end Cert.Kernel.Hand

end
-- ==== Proof.StatsCases.lean ====
/-
  The statistics kernel (the first pallas_call), run once per control case.

  At every grid point the body adds, into two one-row accumulators kept in scratch memory, the block's
  column sums: for each position j of the 64, the sum over the block's 512 batch rows and the 64 output
  channels of the projected value, and the same sum of its square. At the first point it first clears both
  accumulators; at the last point it also copies both into the two output rows. So a point is in exactly one
  of three cases: first (clear, then add), middle (add), last (add, then copy out). Each case's run below says
  which pieces every buffer the body stores into ends up with; the pieces are found by running the body.
-/
import proofs.«153306_j41257455845539_1_alg».proof.Proof.Gen.KernelIdeal.Launch
import proofs.«153306_j41257455845539_1_alg».proof.Proof.Gen.KernelIdeal.Skeleton
import proofs.«153306_j41257455845539_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the 32 points -/

/-- "This is the first grid point" as the body computes it. -/
abbrev isFirst (i : grid0.Coords) : Prop :=
  (Scalar.cmpi .ne (Scalar.extui (Scalar.cmpi .eq (BitVec.ofNat 32 (i 0).val) 0#32)) 0#32) = 1#1
theorem isFirst_iff : ∀ t : Fin cfg0.N, isFirst (grid0.coords t) ↔ t.val % 32 = 0 :=
  (by decide +kernel : ∀ t : Fin grid0.N, isFirst (grid0.coords t) ↔ t.val % 32 = 0)

/-- "This is the last grid point" as the body computes it. -/
abbrev isLast (i : grid0.Coords) : Prop := k0_cond2 i = 1#1
theorem isLast_iff : ∀ t : Fin cfg0.N, isLast (grid0.coords t) ↔ t.val % 32 = 31 :=
  (by decide +kernel : ∀ t : Fin grid0.N, isLast (grid0.coords t) ↔ t.val % 32 = 31)

/-! ## Where the two output rows are idle: everywhere but the last point -/

theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬isLast (grid0.coords t) → cfg0.idle 2 (grid0.coords t) = true := by decide +kernel
theorem idle0_3 : ∀ t : Fin cfg0.N, ¬isLast (grid0.coords t) → cfg0.idle 3 (grid0.coords t) = true := by decide +kernel
theorem noFlush0_2 : ∀ t : Fin cfg0.N, ¬isLast (grid0.coords t) → (cfg0.win 2).flush t = false := by decide +kernel
theorem noFlush0_3 : ∀ t : Fin cfg0.N, ¬isLast (grid0.coords t) → (cfg0.win 3).flush t = false := by decide +kernel
theorem live0_2 : ∀ t : Fin cfg0.N, isLast (grid0.coords t) → cfg0.idle 2 (grid0.coords t) = false := by decide +kernel
theorem live0_3 : ∀ t : Fin cfg0.N, isLast (grid0.coords t) → cfg0.idle 3 (grid0.coords t) = false := by decide +kernel

/-! ## The memrefs the body is called with -/

abbrev mX (t : Fin cfg0.N) : Memref sig .tc .vmem S32768x9 .f32 := win0_0.stage (cfg0.slots t 0)
abbrev hX (t : Fin cfg0.N) : (mX t).IsWhole := hstage0_0 ((cfg0.slots t 0).cast nbuf0_0)
abbrev mW (t : Fin cfg0.N) : Memref sig .tc .vmem S9x64 .f32 := win0_1.stage (cfg0.slots t 1)
abbrev hW (t : Fin cfg0.N) : (mW t).IsWhole := hstage0_1 ((cfg0.slots t 1).cast nbuf0_1)
abbrev mO1 (t : Fin cfg0.N) : Memref sig .tc .vmem S1x64 .f32 := win0_2.stage (cfg0.slots t 2)
abbrev hO1 (t : Fin cfg0.N) : (mO1 t).IsWhole := hstage0_2 ((cfg0.slots t 2).cast nbuf0_2)
abbrev mO2 (t : Fin cfg0.N) : Memref sig .tc .vmem S1x64 .f32 := win0_3.stage (cfg0.slots t 3)
abbrev hO2 (t : Fin cfg0.N) : (mO2 t).IsWhole := hstage0_3 ((cfg0.slots t 3).cast nbuf0_3)
/-- The two accumulators: whole scratch buffers of the kernel's own. -/
abbrev mA1 : Memref sig .tc .vmem S1x64 .f32 := Memref.whole cc0_scratch0
abbrev mA2 : Memref sig .tc .vmem S1x64 .f32 := Memref.whole cc0_scratch1

/-! ## The three runs -/

set_option maxHeartbeats 4000000 in
/-- FIRST point: both accumulators at anything on entry; both output rows handed back untouched. -/
noncomputable def runFirst (c : Dev nD) (i : grid0.Coords)
    (a1 : Memref sig .tc .vmem S32768x9 .f32) (h1 : a1.IsWhole) (a2 : Memref sig .tc .vmem S9x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (hc0 : isFirst i) (hc1 : ¬isLast i) (x : Vec F S32768x9 .f32) (w : Vec F S9x64 .f32) :
    Σ' (LA1 : List (View.Piece (Elt F) S1x64 .f32)), { LA2 : List (View.Piece (Elt F) S1x64 .f32) //
      ∀ (o1 o2 : Vec F S1x64 .f32) (E : Set ℕ) (K : PUnit → sProp 𝕄),
        iprop(owns (c : Thread nD τ) a1 fullShare x ∗ owns (c : Thread nD τ) a2 fullShare w
            ∗ owns (c : Thread nD τ) a3 fullShare o1 ∗ owns (c : Thread nD τ) a4 fullShare o2
            ∗ (∃ d, owns (c : Thread nD τ) a5 fullShare d) ∗ (∃ d, owns (c : Thread nD τ) a6 fullShare d)
            ∗ (iprop(owns (c : Thread nD τ) a1 fullShare x ∗ owns (c : Thread nD τ) a2 fullShare w
                ∗ owns (c : Thread nD τ) a3 fullShare o1 ∗ owns (c : Thread nD τ) a4 fullShare o2
                ∗ (∃ f, a5.view.loc (c : Thread nD τ) ↦[a5.view.set]{fullShare} a5.view.writes (Elt F) f LA1)
                ∗ (∃ f, a6.view.loc (c : Thread nD τ) ↦[a6.view.set]{fullShare} a6.view.writes (Elt F) f LA2)) -∗ K ⟨⟩))
          ⊢ wp frame (wpE (defs₀ (F := F)) Variants.none c none) E (cc0__stats_kernel i a1 h1 a2 h2 a3 h3 a4 h4 a5 h5 a6 h6) K } := by
  refine ⟨?_, ?_, fun o1 o2 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := h1.eq_unread hf1; obtain rfl := h2.eq_unread hf2
    obtain rfl := h3.eq_unread hf3; obtain rfl := h4.eq_unread hf4
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 4000000 in
/-- MIDDLE point: the accumulators at what the point before left (`s1`, `s2`); both output rows untouched. -/
noncomputable def runMid (c : Dev nD) (i : grid0.Coords)
    (a1 : Memref sig .tc .vmem S32768x9 .f32) (h1 : a1.IsWhole) (a2 : Memref sig .tc .vmem S9x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (hc0 : ¬isFirst i) (hc1 : ¬isLast i) (x : Vec F S32768x9 .f32) (w : Vec F S9x64 .f32) (s1 s2 : Vec F S1x64 .f32) :
    Σ' (LA1 : List (View.Piece (Elt F) S1x64 .f32)), { LA2 : List (View.Piece (Elt F) S1x64 .f32) //
      ∀ (o1 o2 : Vec F S1x64 .f32) (E : Set ℕ) (K : PUnit → sProp 𝕄),
        iprop(owns (c : Thread nD τ) a1 fullShare x ∗ owns (c : Thread nD τ) a2 fullShare w
            ∗ owns (c : Thread nD τ) a3 fullShare o1 ∗ owns (c : Thread nD τ) a4 fullShare o2
            ∗ owns (c : Thread nD τ) a5 fullShare s1 ∗ owns (c : Thread nD τ) a6 fullShare s2
            ∗ (iprop(owns (c : Thread nD τ) a1 fullShare x ∗ owns (c : Thread nD τ) a2 fullShare w
                ∗ owns (c : Thread nD τ) a3 fullShare o1 ∗ owns (c : Thread nD τ) a4 fullShare o2
                ∗ (∃ f, a5.view.loc (c : Thread nD τ) ↦[a5.view.set]{fullShare} a5.view.writes (Elt F) f LA1)
                ∗ (∃ f, a6.view.loc (c : Thread nD τ) ↦[a6.view.set]{fullShare} a6.view.writes (Elt F) f LA2)) -∗ K ⟨⟩))
          ⊢ wp frame (wpE (defs₀ (F := F)) Variants.none c none) E (cc0__stats_kernel i a1 h1 a2 h2 a3 h3 a4 h4 a5 h5 a6 h6) K } := by
  refine ⟨?_, ?_, fun o1 o2 E K => ?run⟩
  case run =>
    simp only [cc0__stats_kernel_eq_skeleton]; unfold cc0__stats_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h1.eq_unread hf1; obtain rfl := h2.eq_unread hf2
    obtain rfl := h3.eq_unread hf3; obtain rfl := h4.eq_unread hf4
    obtain rfl := h5.eq_unread hf5; obtain rfl := h6.eq_unread hf6
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    iexists _; iexact H6

set_option maxHeartbeats 4000000 in
/-- LAST point: the accumulators at what the point before left; both output rows at anything on entry, stored into. -/
noncomputable def runLast (c : Dev nD) (i : grid0.Coords)
    (a1 : Memref sig .tc .vmem S32768x9 .f32) (h1 : a1.IsWhole) (a2 : Memref sig .tc .vmem S9x64 .f32) (h2 : a2.IsWhole)
    (a3 : Memref sig .tc .vmem S1x64 .f32) (h3 : a3.IsWhole) (a4 : Memref sig .tc .vmem S1x64 .f32) (h4 : a4.IsWhole)
    (a5 : Memref sig .tc .vmem S1x64 .f32) (h5 : a5.IsWhole) (a6 : Memref sig .tc .vmem S1x64 .f32) (h6 : a6.IsWhole)
    (hc0 : ¬isFirst i) (hc1 : isLast i) (x : Vec F S32768x9 .f32) (w : Vec F S9x64 .f32) (s1 s2 : Vec F S1x64 .f32) :
    Σ' (LO1 : List (View.Piece (Elt F) S1x64 .f32)) (LO2 : List (View.Piece (Elt F) S1x64 .f32))
       (LA1 : List (View.Piece (Elt F) S1x64 .f32)), { LA2 : List (View.Piece (Elt F) S1x64 .f32) //
      ∀ (E : Set ℕ) (K : PUnit → sProp 𝕄),
        iprop(owns (c : Thread nD τ) a1 fullShare x ∗ owns (c : Thread nD τ) a2 fullShare w
            ∗ (∃ d, owns (c : Thread nD τ) a3 fullShare d) ∗ (∃ d, owns (c : Thread nD τ) a4 fullShare d)
            ∗ owns (c : Thread nD τ) a5 fullShare s1 ∗ owns (c : Thread nD τ) a6 fullShare s2
            ∗ (iprop(owns (c : Thread nD τ) a1 fullShare x ∗ owns (c : Thread nD τ) a2 fullShare w
                ∗ (∃ f, a3.view.loc (c : Thread nD τ) ↦[a3.view.set]{fullShare} a3.view.writes (Elt F) f LO1)
                ∗ (∃ f, a4.view.loc (c : Thread nD τ) ↦[a4.view.set]{fullShare} a4.view.writes (Elt F) f LO2)
                ∗ (∃ f, a5.view.loc (c : Thread nD τ) ↦[a5.view.set]{fullShare} a5.view.writes (Elt F) f LA1)
                ∗ (∃ f, a6.view.loc (c : Thread nD τ) ↦[a6.view.set]{fullShare} a6.view.writes (Elt F) f LA2)) -∗ K ⟨⟩))
          ⊢ wp frame (wpE (defs₀ (F := F)) Variants.none c none) E (cc0__stats_kernel i a1 h1 a2 h2 a3 h3 a4 h4 a5 h5 a6 h6) K } := by
  refine ⟨?_, ?_, ?_, ?_, fun E K => ?run⟩
  case run =>
    simp only [cc0__stats_kernel_eq_skeleton]; unfold cc0__stats_kernel_skel
    unfold owns
    iintro ⟨⟨%f1, %hf1, H1⟩, ⟨%f2, %hf2, H2⟩, ⟨%d3, %f3, -, H3⟩, ⟨%d4, %f4, -, H4⟩, ⟨%f5, %hf5, H5⟩, ⟨%f6, %hf6, H6⟩, Hk⟩
    obtain rfl := h1.eq_unread hf1; obtain rfl := h2.eq_unread hf2
    obtain rfl := h5.eq_unread hf5; obtain rfl := h6.eq_unread hf6
    sl_exec (disch := first | exact hc0 | exact hc1)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]; · iexists _; iexact H4
    isplitl [H5]; · iexists _; iexact H5
    iexists _; iexact H6

end Cert.KernelIdeal.Hand

end
-- ==== Proof.StatsRegion.lean ====
/-
  The statistics region as a whole: what the two accumulators hold after each grid point, the region
  invariant that carries them from one point to the next, and the body obligation at every point.

  After point 0 the accumulators hold the first block's column sums (added to the cleared rows); after
  point n + 1 they hold what point n left plus block n + 1's column sums. Only the last point stores the two
  output rows (a copy of the accumulators); at every other point the output windows are idle.
-/
import proofs.«153306_j41257455845539_1_alg».proof.Proof.StatsCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Views through which contents are stated (the choice of buffer does not matter: the pieces cover it) -/

abbrev VA1 : View sig .tc .vmem S1x64 .f32 := mA1.view
abbrev VA2 : View sig .tc .vmem S1x64 .f32 := mA2.view
abbrev VO1 : View sig .tc .vmem S1x64 .f32 := (Memref.whole cc0_stg2_0 : Memref sig .tc .vmem S1x64 .f32).view
abbrev VO2 : View sig .tc .vmem S1x64 .f32 := (Memref.whole cc0_stg3_0 : Memref sig .tc .vmem S1x64 .f32).view

/-! ## Each case's pieces cover the buffer they are stored into; the contents they leave -/

section Cases
variable (c : Dev nD) (i : grid0.Coords) (a1 : Memref sig .tc .vmem S32768x9 .f32) (h1 : a1.IsWhole) (a2 : Memref sig .tc .vmem S9x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole)

theorem first_cover1 (hc0 : isFirst i) (hc1 : ¬isLast i) (x : Vec F S32768x9 .f32) (w : Vec F S9x64 .f32) (y : S1x64.Idx) :
    ∃ pc ∈ (runFirst c i a1 h1 a2 h2 a3 h3 a4 h4 a5 h5 a6 h6 hc0 hc1 x w).1, y ∈ pc.1.set :=
  View.cover_of_tiledL (runFirst c i a1 h1 a2 h2 a3 h3 a4 h4 a5 h5 a6 h6 hc0 hc1 x w).1 S1x64.size (by sl_kernel_rfl) y
theorem first_cover2 (hc0 : isFirst i) (hc1 : ¬isLast i) (x : Vec F S32768x9 .f32) (w : Vec F S9x64 .f32) (y : S1x64.Idx) :
    ∃ pc ∈ (runFirst c i a1 h1 a2 h2 a3 h3 a4 h4 a5 h5 a6 h6 hc0 hc1 x w).2.1, y ∈ pc.1.set :=
  View.cover_of_tiledL (runFirst c i a1 h1 a2 h2 a3 h3 a4 h4 a5 h5 a6 h6 hc0 hc1 x w).2.1 S1x64.size (by sl_kernel_rfl) y
/-- What the first point leaves in the first accumulator (the sum row), -/
def first_acc1 (hc0 : isFirst i) (hc1 : ¬isLast i) (x : Vec F S32768x9 .f32) (w : Vec F S9x64 .f32) : Vec F S1x64 .f32 :=
  VA1.read (Elt F) (VA1.writes (Elt F) VA1.junk (runFirst c i a1 h1 a2 h2 a3 h3 a4 h4 a5 h5 a6 h6 hc0 hc1 x w).1)
/-- and in the second (the sum-of-squares row). -/
def first_acc2 (hc0 : isFirst i) (hc1 : ¬isLast i) (x : Vec F S32768x9 .f32) (w : Vec F S9x64 .f32) : Vec F S1x64 .f32 :=
  VA2.read (Elt F) (VA2.writes (Elt F) VA2.junk (runFirst c i a1 h1 a2 h2 a3 h3 a4 h4 a5 h5 a6 h6 hc0 hc1 x w).2.1)

theorem mid_cover1 (hc0 : ¬isFirst i) (hc1 : ¬isLast i) (x : Vec F S32768x9 .f32) (w : Vec F S9x64 .f32) (s1 s2 : Vec F S1x64 .f32) (y : S1x64.Idx) :
    ∃ pc ∈ (runMid c i a1 h1 a2 h2 a3 h3 a4 h4 a5 h5 a6 h6 hc0 hc1 x w s1 s2).1, y ∈ pc.1.set :=
  View.cover_of_tiledL (runMid c i a1 h1 a2 h2 a3 h3 a4 h4 a5 h5 a6 h6 hc0 hc1 x w s1 s2).1 S1x64.size (by sl_kernel_rfl) y
theorem mid_cover2 (hc0 : ¬isFirst i) (hc1 : ¬isLast i) (x : Vec F S32768x9 .f32) (w : Vec F S9x64 .f32) (s1 s2 : Vec F S1x64 .f32) (y : S1x64.Idx) :
    ∃ pc ∈ (runMid c i a1 h1 a2 h2 a3 h3 a4 h4 a5 h5 a6 h6 hc0 hc1 x w s1 s2).2.1, y ∈ pc.1.set :=
  View.cover_of_tiledL (runMid c i a1 h1 a2 h2 a3 h3 a4 h4 a5 h5 a6 h6 hc0 hc1 x w s1 s2).2.1 S1x64.size (by sl_kernel_rfl) y
def mid_acc1 (hc0 : ¬isFirst i) (hc1 : ¬isLast i) (x : Vec F S32768x9 .f32) (w : Vec F S9x64 .f32) (s1 s2 : Vec F S1x64 .f32) : Vec F S1x64 .f32 :=
  VA1.read (Elt F) (VA1.writes (Elt F) VA1.junk (runMid c i a1 h1 a2 h2 a3 h3 a4 h4 a5 h5 a6 h6 hc0 hc1 x w s1 s2).1)
def mid_acc2 (hc0 : ¬isFirst i) (hc1 : ¬isLast i) (x : Vec F S32768x9 .f32) (w : Vec F S9x64 .f32) (s1 s2 : Vec F S1x64 .f32) : Vec F S1x64 .f32 :=
  VA2.read (Elt F) (VA2.writes (Elt F) VA2.junk (runMid c i a1 h1 a2 h2 a3 h3 a4 h4 a5 h5 a6 h6 hc0 hc1 x w s1 s2).2.1)

theorem last_coverO1 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).1, y ∈ pc.1.set :=
  View.cover_of_tiledL (runLast c i a1 h1 a2 h2 a3 h3 a4 h4 a5 h5 a6 h6 hc0 hc1 x w s1 s2).1 S1x64.size (by sl_kernel_rfl) y
theorem last_coverO2 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).2.1, y ∈ pc.1.set :=
  View.cover_of_tiledL (runLast c i a1 h1 a2 h2 a3 h3 a4 h4 a5 h5 a6 h6 hc0 hc1 x w s1 s2).2.1 S1x64.size (by sl_kernel_rfl) y
theorem last_cover1 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).2.2.1, y ∈ pc.1.set :=
  View.cover_of_tiledL (runLast c i a1 h1 a2 h2 a3 h3 a4 h4 a5 h5 a6 h6 hc0 hc1 x w s1 s2).2.2.1 S1x64.size (by sl_kernel_rfl) y
theorem last_cover2 (hc0 : ¬isFirst i) (hc1 : isLast i) (x : Vec F S32768x9 .f32) (w : Vec F S9x64 .f32) (s1 s2 : Vec F S1x64 .f32) (y : S1x64.Idx) :
    ∃ pc ∈ (runLast c i a1 h1 a2 h2 a3 h3 a4 h4 a5 h5 a6 h6 hc0 hc1 x w s1 s2).2.2.2.1, y ∈ pc.1.set :=
  View.cover_of_tiledL (runLast c i a1 h1 a2 h2 a3 h3 a4 h4 a5 h5 a6 h6 hc0 hc1 x w s1 s2).2.2.2.1 S1x64.size (by sl_kernel_rfl) y
/-- What the last point stores into the first output row, -/
def last_out1 (hc0 : ¬isFirst i) (hc1 : isLast i) (x : Vec F S32768x9 .f32) (w : Vec F S9x64 .f32) (s1 s2 : Vec F S1x64 .f32) : Vec F S1x64 .f32 :=
  VO1.read (Elt F) (VO1.writes (Elt F) VO1.junk (runLast c i a1 h1 a2 h2 a3 h3 a4 h4 a5 h5 a6 h6 hc0 hc1 x w s1 s2).1)
/-- into the second, -/
def last_out2 (hc0 : ¬isFirst i) (hc1 : isLast i) (x : Vec F S32768x9 .f32) (w : Vec F S9x64 .f32) (s1 s2 : Vec F S1x64 .f32) : Vec F S1x64 .f32 :=
  VO2.read (Elt F) (VO2.writes (Elt F) VO2.junk (runLast c i a1 h1 a2 h2 a3 h3 a4 h4 a5 h5 a6 h6 hc0 hc1 x w s1 s2).2.1)
/-- and leaves in the two accumulators. -/
def last_acc1 (hc0 : ¬isFirst i) (hc1 : isLast i) (x : Vec F S32768x9 .f32) (w : Vec F S9x64 .f32) (s1 s2 : Vec F S1x64 .f32) : Vec F S1x64 .f32 :=
  VA1.read (Elt F) (VA1.writes (Elt F) VA1.junk (runLast c i a1 h1 a2 h2 a3 h3 a4 h4 a5 h5 a6 h6 hc0 hc1 x w s1 s2).2.2.1)
def last_acc2 (hc0 : ¬isFirst i) (hc1 : isLast i) (x : Vec F S32768x9 .f32) (w : Vec F S9x64 .f32) (s1 s2 : Vec F S1x64 .f32) : Vec F S1x64 .f32 :=
  VA2.read (Elt F) (VA2.writes (Elt F) VA2.junk (runLast c i a1 h1 a2 h2 a3 h3 a4 h4 a5 h5 a6 h6 hc0 hc1 x w s1 s2).2.2.2.1)
end Cases

section
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem held0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem held0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

theorem N0_eq : cfg0.N = 32 := N_0

/-- THE ACCUMULATION: the two accumulators after the body at position `n`. -/
def accAt (c : Dev nD) : (n : ℕ) → n < cfg0.N → Vec F S1x64 .f32 × Vec F S1x64 .f32
  | 0, hn =>
    (first_acc1 c (grid0.coords ⟨0, hn⟩) (mX ⟨0, hn⟩) (hX ⟨0, hn⟩) (mW ⟨0, hn⟩) (hW ⟨0, hn⟩) (mO1 ⟨0, hn⟩) (hO1 ⟨0, hn⟩) (mO2 ⟨0, hn⟩) (hO2 ⟨0, hn⟩) mA1 (Memref.isWhole_whole _) mA2 (Memref.isWhole_whole _) ((isFirst_iff ⟨0, hn⟩).mpr (Nat.zero_mod _)) (fun h => absurd ((isLast_iff ⟨0, hn⟩).mp h) (by show ¬ (0 % 32 = 31); decide)) (blk0 V c 0 ⟨0, hn⟩) (blk0 V c 1 ⟨0, hn⟩),
     first_acc2 c (grid0.coords ⟨0, hn⟩) (mX ⟨0, hn⟩) (hX ⟨0, hn⟩) (mW ⟨0, hn⟩) (hW ⟨0, hn⟩) (mO1 ⟨0, hn⟩) (hO1 ⟨0, hn⟩) (mO2 ⟨0, hn⟩) (hO2 ⟨0, hn⟩) mA1 (Memref.isWhole_whole _) mA2 (Memref.isWhole_whole _) ((isFirst_iff ⟨0, hn⟩).mpr (Nat.zero_mod _)) (fun h => absurd ((isLast_iff ⟨0, hn⟩).mp h) (by show ¬ (0 % 32 = 31); decide)) (blk0 V c 0 ⟨0, hn⟩) (blk0 V c 1 ⟨0, hn⟩))
  | n + 1, hn =>
    have hnf : ¬isFirst (grid0.coords ⟨n + 1, hn⟩) := fun h => by
      have h' := (isFirst_iff ⟨n + 1, hn⟩).mp h
      have hN : n + 1 < 32 := lt_of_lt_of_eq hn N0_eq
      dsimp only at h'; omega
    if h1 : (n + 1) % 32 = 31 then
      (last_acc1 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf ((isLast_iff ⟨n + 1, hn⟩).mpr h1) (blk0 V c 0 ⟨n + 1, hn⟩) (blk0 V c 1 ⟨n + 1, hn⟩) (accAt c n (Nat.lt_of_succ_lt hn)).1 (accAt c n (Nat.lt_of_succ_lt hn)).2,
       last_acc2 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf ((isLast_iff ⟨n + 1, hn⟩).mpr h1) (blk0 V c 0 ⟨n + 1, hn⟩) (blk0 V c 1 ⟨n + 1, hn⟩) (accAt c n (Nat.lt_of_succ_lt hn)).1 (accAt c n (Nat.lt_of_succ_lt hn)).2)
    else
      (mid_acc1 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf (fun h => h1 ((isLast_iff ⟨n + 1, hn⟩).mp h)) (blk0 V c 0 ⟨n + 1, hn⟩) (blk0 V c 1 ⟨n + 1, hn⟩) (accAt c n (Nat.lt_of_succ_lt hn)).1 (accAt c n (Nat.lt_of_succ_lt hn)).2,
       mid_acc2 c (grid0.coords ⟨n + 1, hn⟩) (mX ⟨n + 1, hn⟩) (hX ⟨n + 1, hn⟩) (mW ⟨n + 1, hn⟩) (hW ⟨n + 1, hn⟩) (mO1 ⟨n + 1, hn⟩) (hO1 ⟨n + 1, hn⟩) (mO2 ⟨n + 1, hn⟩) (hO2 ⟨n + 1, hn⟩) mA1 (Memref.isWhole_whole _) mA2 (Memref.isWhole_whole _) hnf (fun h => h1 ((isLast_iff ⟨n + 1, hn⟩).mp h)) (blk0 V c 0 ⟨n + 1, hn⟩) (blk0 V c 1 ⟨n + 1, hn⟩) (accAt c n (Nat.lt_of_succ_lt hn)).1 (accAt c n (Nat.lt_of_succ_lt hn)).2)

/-- The accumulators the point before `t` left (junk-free only when `t` is not the first point). -/
abbrev prevAcc (c : Dev nD) (t : Fin cfg0.N) : Vec F S1x64 .f32 × Vec F S1x64 .f32 :=
  accAt V c (t.val - 1) (Nat.lt_of_le_of_lt (Nat.sub_le _ _) t.isLt)

theorem accAt_first (c : Dev nD) (t : Fin cfg0.N) (hc0 : isFirst (grid0.coords t)) (hc1 : ¬isLast (grid0.coords t)) :
    accAt V c t.val t.isLt
      = (first_acc1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t),
         first_acc2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t)) := by
  have h0 := (isFirst_iff t).mp hc0
  obtain ⟨n, hn⟩ := t
  cases n with
  | zero => rfl
  | succ n => exfalso; have hN : n + 1 < 32 := lt_of_lt_of_eq hn N0_eq; dsimp only at h0; omega

theorem accAt_mid (c : Dev nD) (t : Fin cfg0.N) (hc0 : ¬isFirst (grid0.coords t)) (hc1 : ¬isLast (grid0.coords t)) :
    accAt V c t.val t.isLt
      = (mid_acc1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2,
         mid_acc2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2) := by
  have h1 : ¬ t.val % 32 = 31 := fun h => hc1 ((isLast_iff t).mpr h)
  obtain ⟨n, hn⟩ := t
  cases n with
  | zero => exact absurd ((isFirst_iff ⟨0, hn⟩).mpr (Nat.zero_mod _)) hc0
  | succ n => exact (dif_neg h1).trans rfl

theorem accAt_last (c : Dev nD) (t : Fin cfg0.N) (hc0 : ¬isFirst (grid0.coords t)) (hc1 : isLast (grid0.coords t)) :
    accAt V c t.val t.isLt
      = (last_acc1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2,
         last_acc2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2) := by
  have h1 : t.val % 32 = 31 := (isLast_iff t).mp hc1
  obtain ⟨n, hn⟩ := t
  cases n with
  | zero => exact absurd ((isFirst_iff ⟨0, hn⟩).mpr (Nat.zero_mod _)) hc0
  | succ n => exact (dif_pos h1).trans rfl

/-- What the two output rows' staging buffers hold after the body at point `t`: the last point's stores; at any other point
    a placeholder nothing consults (the windows are idle there and not written back). -/
def outAt (c : Dev nD) (t : Fin cfg0.N) : Vec F S1x64 .f32 × Vec F S1x64 .f32 :=
  if h1 : t.val % 32 = 31 then
    have hnf : ¬isFirst (grid0.coords t) := fun h => by have h' := (isFirst_iff t).mp h; omega
    (last_out1 c (grid0.coords t) (mX t) (hX t) (mW t) (hW t) (mO1 t) (hO1 t) (mO2 t) (hO2 t) mA1 (Memref.isWhole_whole _) mA2 (Memref.isWhole_whole _) hnf ((isLast_iff t).mpr h1) (blk0 V c 0 t) (blk0 V c 1 t) (prevAcc V c t).1 (prevAcc V c t).2,
     last_out2 c (grid0.coords t) (mX t) (hX t) (mW t) (hW t) (mO1 t) (hO1 t) (mO2 t) (hO2 t) mA1 (Memref.isWhole_whole _) mA2 (Memref.isWhole_whole _) hnf ((isLast_iff t).mpr h1) (blk0 V c 0 t) (blk0 V c 1 t) (prevAcc V c t).1 (prevAcc V c t).2)
  else (VO1.read (Elt F) VO1.junk, VO2.read (Elt F) VO2.junk)

theorem outAt_last (c : Dev nD) (t : Fin cfg0.N) (hc0 : ¬isFirst (grid0.coords t)) (hc1 : isLast (grid0.coords t)) :
    outAt V c t
      = (last_out1 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2,
         last_out2 c (grid0.coords t) (mX t) (hX t) (mW t) (hW t) (mO1 t) (hO1 t) (mO2 t) (hO2 t) mA1 (Memref.isWhole_whole _) mA2 (Memref.isWhole_whole _) hc0 hc1 (blk0 V c 0 t) (blk0 V c 1 t) (prevAcc V c t).1 (prevAcc V c t).2) := by
  unfold outAt; rw [dif_pos ((isLast_iff t).mp hc1)]

/-! ## The region invariant -/

/-- The scoped buffers that are neither this kernel's staging buffers nor its accumulators (the other kernel's
    staging buffers), each whole at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant (every scoped buffer no window stages at anything, the generator register at some state)
    with the two accumulators spelt as memrefs. -/
theorem PhiA0_eq (c : Dev nD) :
    (Pipeline.ΦA spec0 c : sProp 𝕄)
      = iprop(iprop((∃ d, owns (c : Thread nD τ) mA1 fullShare d) ∗ (∃ d, owns (c : Thread nD τ) mA2 fullShare d) ∗ otherScoped c) ∗ (∃ r, prngReg c r)) := by
  unfold Pipeline.ΦA otherScoped; rw [scopedRest0_eq]; simp only [mA1, mA2, owns_whole]; try rfl

/-- Before position `n`: at the very start the class invariant (the accumulators at anything); afterwards the same
    with the accumulators at what the point before left. -/
def PhiS (c : Dev nD) : (n : ℕ) → n ≤ cfg0.N → sProp 𝕄
  | 0, _ => Pipeline.ΦA spec0 c
  | n + 1, hn => iprop(iprop(owns (c : Thread nD τ) mA1 fullShare (accAt V c n hn).1 ∗ owns (c : Thread nD τ) mA2 fullShare (accAt V c n hn).2 ∗ otherScoped c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mA1 fullShare (accAt V c n hn).1 ∗ owns (c : Thread nD τ) mA2 fullShare (accAt V c n hn).2 ∗ otherScoped c) ∗ (∃ r, prngReg c r)) := rfl
theorem PhiS_pos (c : Dev nD) (n : ℕ) (h : n ≤ cfg0.N) (hz : n ≠ 0) :
    PhiS V c n h = iprop(iprop(owns (c : Thread nD τ) mA1 fullShare (accAt V c (n - 1) (by omega)).1 ∗ owns (c : Thread nD τ) mA2 fullShare (accAt V c (n - 1) (by omega)).2 ∗ otherScoped c) ∗ (∃ r, prngReg c r)) := by
  cases n with
  | zero => exact absurd rfl hz
  | succ n => rfl

/-! ## The region's proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (outAt V c t).1
    | ⟨3, _⟩ => (outAt V c t).2
  Φ t := PhiS V c t.val (Nat.le_of_lt_succ t.isLt)
  q _ := fullShare
  owed _ := 0

theorem dat0_A (c : Dev nD) (w : Fin cfg0.W) : (dat0 V c).A w = V c (Pipeline.arrRef spec0 w) := by dsimp only [dat0]
theorem dat0_Phi_castSucc (c : Dev nD) (t : Fin cfg0.N) :
    (dat0 V c).Φ t.castSucc = PhiS V c t.val (Nat.le_of_lt t.isLt) := by
  dsimp only [dat0]; simp only [Fin.coe_castSucc]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = (outAt V c t).1 := by dsimp only [dat0]
theorem dat0_after3 (c : Dev nD) (t : Fin cfg0.N) : (dat0 V c).after 3 t = (outAt V c t).2 := by dsimp only [dat0]
theorem dat0_before0 (c : Dev nD) (t : Fin cfg0.N) (d) : (dat0 V c).before 0 t d = blk0 V c 0 t :=
  held0_0 V (dat0 V c) (dat0_A V c 0) (dat0_after0 V c) t d
theorem dat0_before1 (c : Dev nD) (t : Fin cfg0.N) (d) : (dat0 V c).before 1 t d = blk0 V c 1 t :=
  held0_1 V (dat0 V c) (dat0_A V c 1) (dat0_after1 V c) t d

/-! ## The body obligation -/

def statsPre (c : Dev nD) (t : Fin cfg0.N) : sProp 𝕄 :=
  iprop((dat0 V c).Φ t.castSucc ∗ (dat0 V c).owesAt () t.castSucc
    ∗ (∃ d, owns (c : Thread nD τ) (mX t) fullShare ((dat0 V c).before 0 t d))
    ∗ (∃ d, owns (c : Thread nD τ) (mW t) fullShare ((dat0 V c).before 1 t d))
    ∗ (∃ d, owns (c : Thread nD τ) (mO1 t) fullShare ((dat0 V c).before 2 t d))
    ∗ (∃ d, owns (c : Thread nD τ) (mO2 t) fullShare ((dat0 V c).before 3 t d)))

def statsPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem stats_point (c : Dev nD) (t : Fin cfg0.N) :
    statsPre V c t ⊢ wp frame (wpE (defs₀ (F := F)) Variants.none c none) Set.univ (bodyAt0 t) (fun _ => statsPost V c t) := by
  unfold statsPre statsPost bodyAt0
  simp only [dat0_before0, dat0_before1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (mX t) fullShare ((dat0 V c).after 0 t) from by
    unfold Dat.leavesExact; rw [live0_0 t], dat0_after0]
  rw [show (dat0 V c).leavesExact 1 t = owns (c : Thread nD τ) (mW t) fullShare ((dat0 V c).after 1 t) from by
    unfold Dat.leavesExact; rw [live0_1 t], dat0_after1]
  have hN : t.val < 32 := lt_of_lt_of_eq t.isLt N0_eq
  by_cases hl : isLast (grid0.coords t)
  · -- the last point: add, then copy both accumulators out
    have h31 := (isLast_iff t).mp hl
    have hnf : ¬isFirst (grid0.coords t) := fun h => by have := (isFirst_iff t).mp h; omega
    have hz : t.val ≠ 0 := by omega
    rw [show (dat0 V c).leavesExact 2 t = owns (c : Thread nD τ) (mO1 t) fullShare ((dat0 V c).after 2 t) from by
      unfold Dat.leavesExact; rw [live0_2 t hl], dat0_after2]
    rw [show (dat0 V c).leavesExact 3 t = owns (c : Thread nD τ) (mO2 t) fullShare ((dat0 V c).after 3 t) from by
      unfold Dat.leavesExact; rw [live0_3 t hl], dat0_after3]
    rw [outAt_last V c t hnf hl, accAt_last V c t hnf hl]
    unfold last_out1 last_out2 last_acc1 last_acc2; (try dsimp only)
    rw [dat0_Phi_castSucc V c t, PhiS_pos V c _ _ hz]
    iintro ⟨⟨⟨HA1, HA2, Hr⟩, Hg⟩, Ho, ⟨%d0, H0⟩, ⟨%d1, H1⟩, ⟨%d2, H2⟩, ⟨%d3, H3⟩⟩
    iapply ((runLast c (grid0.coords t) _ _ _ _ _ _ _ _ _ _ _ _ hnf hl (blk0 V c 0 t) (blk0 V c 1 t) _ _).2.2.2.2 Set.univ _)
    isplitl [H0]; · iexact H0
    isplitl [H1]; · iexact H1
    isplitl [H2]; · iexists _; iexact H2
    isplitl [H3]; · iexists _; iexact H3
    isplitl [HA1]; · iexact HA1
    isplitl [HA2]; · iexact HA2
    iintro ⟨H0, H1, ⟨%e2, H2⟩, ⟨%e3, H3⟩, ⟨%e5, HA1⟩, ⟨%e6, HA2⟩⟩
    isplitl [HA1 HA2 Hr Hg]
    · isplitl [HA1 HA2 Hr]
      · isplitl [HA1]
        · unfold owns; iexists _; isplitr
          swap; · iexact HA1
          ipureintro; exact View.read_writes_of_cover _ _ _ _ _ (last_cover1 c _ _ _ _ _ _ _ _ _ _ _ _ _ _ _ _ _ _ _)
        isplitl [HA2]
        · unfold owns; iexists _; isplitr
          swap; · iexact HA2
          ipureintro; exact View.read_writes_of_cover _ _ _ _ _ (last_cover2 c _ _ _ _ _ _ _ _ _ _ _ _ _ _ _ _ _ _ _)
        iexact Hr
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (last_coverO1 c _ _ _ _ _ _ _ _ _ _ _ _ _ _ _ _ _ _ _)
    unfold owns; iexists _; isplitr
    swap; · iexact H3
    ipureintro; exact View.read_writes_of_cover _ _ _ _ _ (last_coverO2 c _ _ _ _ _ _ _ _ _ _ _ _ _ _ _ _ _ _ _)
  · rw [Dat.leavesExact_idle (dat0 V c) 2 t (idle0_2 t hl) (noFlush0_2 t hl)]
    rw [Dat.leavesExact_idle (dat0 V c) 3 t (idle0_3 t hl) (noFlush0_3 t hl)]
    by_cases hf : isFirst (grid0.coords t)
    · -- the first point: clear, then add
      have hz : t.val = 0 := by have := (isFirst_iff t).mp hf; omega
      rw [accAt_first V c t hf hl]
      unfold first_acc1 first_acc2; (try dsimp only)
      rw [dat0_Phi_castSucc V c t, PhiS_zero V c _ _ hz, PhiA0_eq]
      iintro ⟨⟨⟨HA1, HA2, Hr⟩, Hg⟩, Ho, ⟨%d0, H0⟩, ⟨%d1, H1⟩, ⟨%d2, H2⟩, ⟨%d3, H3⟩⟩
      iapply ((runFirst c (grid0.coords t) _ _ _ _ _ _ _ _ _ _ _ _ hf hl (blk0 V c 0 t) (blk0 V c 1 t)).2.2 _ _ Set.univ _)
      isplitl [H0]; · iexact H0
      isplitl [H1]; · iexact H1
      isplitl [H2]; · iexact H2
      isplitl [H3]; · iexact H3
      isplitl [HA1]; · iexact HA1
      isplitl [HA2]; · iexact HA2
      iintro ⟨H0, H1, H2, H3, ⟨%e5, HA1⟩, ⟨%e6, HA2⟩⟩
      isplitl [HA1 HA2 Hr Hg]
      · isplitl [HA1 HA2 Hr]
        · isplitl [HA1]
          · unfold owns; iexists _; isplitr
            swap; · iexact HA1
            ipureintro; exact View.read_writes_of_cover _ _ _ _ _ (first_cover1 c _ _ _ _ _ _ _ _ _ _ _ _ _ _ _ _ _)
          isplitl [HA2]
          · unfold owns; iexists _; isplitr
            swap; · iexact HA2
            ipureintro; exact View.read_writes_of_cover _ _ _ _ _ (first_cover2 c _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3
    · -- a middle point: add
      have hz : t.val ≠ 0 := fun h => hf ((isFirst_iff t).mpr (by rw [h]))
      rw [accAt_mid V c t hf hl]
      unfold mid_acc1 mid_acc2; (try dsimp only)
      rw [dat0_Phi_castSucc V c t, PhiS_pos V c _ _ hz]
      iintro ⟨⟨⟨HA1, HA2, Hr⟩, Hg⟩, Ho, ⟨%d0, H0⟩, ⟨%d1, H1⟩, ⟨%d2, H2⟩, ⟨%d3, H3⟩⟩
      iapply ((runMid c (grid0.coords t) _ _ _ _ _ _ _ _ _ _ _ _ hf hl (blk0 V c 0 t) (blk0 V c 1 t) _ _).2.2 _ _ Set.univ _)
      isplitl [H0]; · iexact H0
      isplitl [H1]; · iexact H1
      isplitl [H2]; · iexact H2
      isplitl [H3]; · iexact H3
      isplitl [HA1]; · iexact HA1
      isplitl [HA2]; · iexact HA2
      iintro ⟨H0, H1, H2, H3, ⟨%e5, HA1⟩, ⟨%e6, HA2⟩⟩
      isplitl [HA1 HA2 Hr Hg]
      · isplitl [HA1 HA2 Hr]
        · isplitl [HA1]
          · unfold owns; iexists _; isplitr
            swap; · iexact HA1
            ipureintro; exact View.read_writes_of_cover _ _ _ _ _ (mid_cover1 c _ _ _ _ _ _ _ _ _ _ _ _ _ _ _ _ _ _ _)
          isplitl [HA2]
          · unfold owns; iexists _; isplitr
            swap; · iexact HA2
            ipureintro; exact View.read_writes_of_cover _ _ _ _ _ (mid_cover2 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

theorem stats_obligation (c : Dev nD) : BodyObligation (dat0 (F := F) V c) (defs₀ (F := F)) Variants.none () Set.univ := fun t => by
  rw [bigSep_W0, bigSep_W0]
  exact stats_point V c t

/-- What the launch hands the region is the invariant before the first point. -/
theorem stats_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back (the accumulators' contents forgotten). -/
theorem stats_out (c : Dev nD) : (dat0 V c).Φ (Fin.last cfg0.N) ⊢ Pipeline.ΦA spec0 c := by
  have ht : (Fin.last cfg0.N).val ≠ 0 := by rw [Fin.val_last]; have := N0_eq; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨H1, H2, Hr⟩, Hg⟩
  isplitl [H1 H2 Hr]
  · isplitl [H1]; · iexists _; iexact H1
    isplitl [H2]; · iexists _; iexact H2
    iexact Hr
  iexact Hg
end

end Cert.KernelIdeal.Hand

end
-- ==== Proof.MainCase.lean ====
/-
  The main kernel (the second pallas_call) at one grid point, and the region's proof data.

  At point t the body reads a block of 16384 rows of the flattened input (256 batch entries x 64 positions),
  the 9 x 64 weight, and the two 32 x 2 tables (scale and shift per position), and stores ONE whole output
  block: the projection, scaled and shifted per position, clamped below at zero, the larger of the two values
  of each pair kept, channels moved before pillars. Nothing is kept between points.
-/
import proofs.«153306_j41257455845539_1_alg».proof.Proof.Gen.KernelIdeal.Launch
import proofs.«153306_j41257455845539_1_alg».proof.Proof.Gen.KernelIdeal.Skeleton
import proofs.«153306_j41257455845539_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem held1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem held1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem held1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem held1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)
end

/-! ## The body's accesses: every load and the one store take the whole buffer -/

abbrev rX : Rect S16384x9 := Rect.unit (s := S16384x9) ![0, 0] S16384x9.size inb_S16384x9_S16384x9_0_0
abbrev rW : Rect S9x64 := Rect.unit (s := S9x64) ![0, 0] S9x64.size inb_S9x64_S9x64_0_0
abbrev rT : Rect S32x2 := Rect.unit (s := S32x2) ![0, 0] S32x2.size inb_S32x2_S32x2_0_0
abbrev rO : Rect S256x64x32 := Rect.unit (s := S256x64x32) ![0, 0, 0] S256x64x32.size inb_S256x64x32_S256x64x32_0_0_0

/-- The output block after the body, from the four input blocks: its one store. -/
def outBlock (x : Vec F S16384x9 .f32) (w : Vec F S9x64 .f32) (sc sh : Vec F S32x2 .f32) : Vec F S256x64x32 .f32 :=
  View.canon [⟨rO, k1_pay1 (View.ld x rX) (View.ld w rW) (View.ld sc rT) (View.ld sh rT)⟩]

/-- The one store covers the buffer. -/
theorem outBlock_cover (p0 : Vec F S256x64x32 .f32) (y : S256x64x32.Idx) :
    ∃ pc ∈ ([⟨rO, p0⟩] : List (View.Piece (Elt F) S256x64x32 .f32)), y ∈ pc.1.set :=
  View.cover_of_tiled [⟨rO, p0⟩] S256x64x32.size (by rfl) y

set_option maxHeartbeats 4000000 in
/-- The body on whole staging memrefs: the inputs kept, the output at `outBlock` of the inputs. -/
theorem mainKernel_run (c : Dev nD) (E : Set ℕ) (i : grid1.Coords)
    (a1 : Memref sig .tc .vmem S16384x9 .f32) (h1 : a1.IsWhole) (a2 : Memref sig .tc .vmem S9x64 .f32) (h2 : a2.IsWhole)
    (a3 : Memref sig .tc .vmem S32x2 .f32) (h3 : a3.IsWhole) (a4 : Memref sig .tc .vmem S32x2 .f32) (h4 : a4.IsWhole)
    (a5 : Memref sig .tc .vmem S256x64x32 .f32) (h5 : a5.IsWhole)
    (x : Vec F S16384x9 .f32) (w : Vec F S9x64 .f32) (sc sh : Vec F S32x2 .f32) (K : PUnit → sProp 𝕄) :
    iprop(owns (c : Thread nD τ) a1 fullShare x ∗ owns (c : Thread nD τ) a2 fullShare w
        ∗ owns (c : Thread nD τ) a3 fullShare sc ∗ owns (c : Thread nD τ) a4 fullShare sh
        ∗ (∃ d, owns (c : Thread nD τ) a5 fullShare d)
        ∗ (iprop(owns (c : Thread nD τ) a1 fullShare x ∗ owns (c : Thread nD τ) a2 fullShare w
            ∗ owns (c : Thread nD τ) a3 fullShare sc ∗ owns (c : Thread nD τ) a4 fullShare sh
            ∗ owns (c : Thread nD τ) a5 fullShare (outBlock x w sc sh)) -∗ K ⟨⟩))
      ⊢ wp frame (wpE (defs₀ (F := F)) Variants.none c none) E (cc1__main_kernel i a1 h1 a2 h2 a3 h3 a4 h4 a5 h5) K := by
  simp only [cc1__main_kernel_eq_skeleton]; unfold cc1__main_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outBlock_cover _)

section
variable (V : (c : Dev nD) → (b : Ref sig .tc) → Buf (Elt F) ((c : Thread nD τ).loc b))

/-- The region's proof data on core `c`: the arrays as the region finds them; after the body at point `t` each
    input's buffer at its block and the output's at `outBlock` of the four input blocks; nothing kept, nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => outBlock (blk1 V c 0 t) (blk1 V c 1 t) (blk1 V c 2 t) (blk1 V c 3 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) :
    (dat1 V c).after 4 t = outBlock (blk1 V c 0 t) (blk1 V c 1 t) (blk1 V c 2 t) (blk1 V c 3 t) := by dsimp only [dat1]

theorem dat1_before0 (c : Dev nD) (t : Fin cfg1.N) (d) : (dat1 V c).before 0 t d = blk1 V c 0 t :=
  held1_0 V (dat1 V c) (dat1_A V c 0) (dat1_after0 V c) t d
theorem dat1_before1 (c : Dev nD) (t : Fin cfg1.N) (d) : (dat1 V c).before 1 t d = blk1 V c 1 t :=
  held1_1 V (dat1 V c) (dat1_A V c 1) (dat1_after1 V c) t d
theorem dat1_before2 (c : Dev nD) (t : Fin cfg1.N) (d) : (dat1 V c).before 2 t d = blk1 V c 2 t :=
  held1_2 V (dat1 V c) (dat1_A V c 2) (dat1_after2 V c) t d
theorem dat1_before3 (c : Dev nD) (t : Fin cfg1.N) (d) : (dat1 V c).before 3 t d = blk1 V c 3 t :=
  held1_3 V (dat1 V c) (dat1_A V c 3) (dat1_after3 V c) t d

/-- What the body is called with at point `t`, -/
def mainPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def mainPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem main_point (c : Dev nD) (t : Fin cfg1.N) :
    mainPre V c t ⊢ wp frame (wpE (defs₀ (F := F)) Variants.none c none) Set.univ (bodyAt1 t) (fun _ => mainPost V c t) := by
  unfold mainPre mainPost bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  iintro ⟨HΦ, Ho, ⟨%d0, H0⟩, ⟨%d1, H1⟩, ⟨%d2, H2⟩, ⟨%d3, H3⟩, ⟨%d4, H4⟩⟩
  iapply (mainKernel_run c Set.univ _ _ _ _ _ _ _ _ _ _ _ (blk1 V c 0 t) (blk1 V c 1 t) (blk1 V c 2 t) (blk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem main_obligation (c : Dev nD) : BodyObligation (dat1 (F := F) V c) (defs₀ (F := F)) Variants.none () Set.univ := fun t => by
  rw [bigSep_W1, bigSep_W1]
  exact main_point V c t
end

end Cert.KernelIdeal.Hand

end
-- ==== Proof.Run.lean ====
/-
  The whole program's run: host operations, the statistics region, host operations, the main region.

  Between two items the core holds every unscoped buffer at known contents: the launch memory, then what each
  stretch of host operations computes from it, then, after a region, the same with that region's arrays at what
  its write-backs leave. Each region is entered from those contents and left at the next ones; its accumulators
  and staging buffers are scoped and forgotten at its end. At the return every unscoped buffer is read back: the
  arguments unchanged, and the result array at what the main region's 64 write-backs left.
-/
import proofs.«153306_j41257455845539_1_alg».proof.Proof.StatsRegion
import proofs.«153306_j41257455845539_1_alg».proof.Proof.MainCase
import proofs.«153306_j41257455845539_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first two host operations (the input flattened to rows, the weight transposed). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- After the statistics region: its arrays at what its write-backs leave, the rest as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem exit0_arr (c : Dev nD) (w : Fin cfg0.W) : (dat0 (U1 m) c).arrAt w cfg0.N = U2 m c (Pipeline.arrRef spec0 w) :=
  (W2_arr m c w).symm
theorem exit0_rest (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the twenty host operations between the regions (the scale and shift tables). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the main region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem exit1_arr (c : Dev nD) (w : Fin cfg1.W) : (dat1 (U3 m) c).arrAt w cfg1.N = U4 m c (Pipeline.arrRef spec1 w) :=
  (W4_arr m c w).symm
theorem exit1_rest (c : Dev nD) : ∀ b, b ∉ Finset.univ.image (Pipeline.arrRef spec1) → U4 m c b = U3 m c b :=
  fun b hb => W4_of_ne m c b fun w e => hb (Finset.mem_image.mpr ⟨w, Finset.mem_univ _, e⟩)

/-- A buffer no operation of the first stretch writes is as launched after it; -/
theorem W1_keep (c : Dev nD) (r : Ref sig .tc) (h : r ∉ (hostOps0_W : List (Ref sig .tc))) : W1 m c r = W0 m c r :=
  StableHlo.after_of_writes_sub hostOps0 _ hostOps0_writes h
/-- one the second stretch does not write is as the statistics region left it. -/
theorem W3_keep (c : Dev nD) (r : Ref sig .tc) (h : r ∉ (hostOps1_W : List (Ref sig .tc))) : W3 m c r = W2 m c r :=
  StableHlo.after_of_writes_sub hostOps1 _ hostOps1_writes h

/-- An argument reaches the end as launched: it is no array of either region, and no host operation writes it. -/
theorem W4_arg (c : Dev nD) (r : Ref sig .tc) (h1 : ∀ w, Pipeline.arrRef spec1 w ≠ r) (h0 : ∀ w, Pipeline.arrRef spec0 w ≠ r)
    (hw1 : r ∉ (hostOps1_W : List (Ref sig .tc))) (hw0 : r ∉ (hostOps0_W : List (Ref sig .tc))) :
    W4 m c (Proc.devRef .tc r) = m ((c : Thread nD τ).loc r) :=
  (W4_of_ne m c r h1).trans <| (W3_keep m c r hw1).trans <| (W2_of_ne m c r h0).trans <| (W1_keep m c r hw0).trans rfl

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m c) ∗ ∃ r, prngReg c r)

/-! ## The two regions as segments -/

set_option backward.isDefEq.respectTransparency.types false in
/-- The statistics region: entered from the buffers at `W1`, left at `W2`. -/
def regStats : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (stats_obligation (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (stats_in (U1 m) c)
  hout c := by
    rw [Pipeline.ownSems0_none]
    have h2 : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (stats_out (U1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region: entered from the buffers at `W3`, left at `W4`. -/
def regMain : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (main_obligation (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (exit1_arr m c) (exit1_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as four segments, and the launch -/

abbrev segs : List (Pipeline.Seg (pcfgs (F := F)) adm (pdats m) () defs₀ 𝒱₀ L lv) :=
  [ .host (hseg hostOps0 hostOps0_sub hostOps0_fresh (W0 m)),
    .region (regStats m),
    .host (hseg hostOps1 hostOps1_sub hostOps1_fresh (W2 m)),
    .region (regMain m) ]
theorem main_is_segs (c : Dev nD) : main (F := F) c = Pipeline.Seg.run (segs m) := (main_chain c).trans (by chain_rfl)

set_option backward.isDefEq.respectTransparency.types false in
/-- Every weakly fair execution from memory `m` with zero counters terminates, faulting nowhere, and every final
    memory holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩)
    (run_all m ρ)

/-- The run with the result named: the output array ends at what the main region's write-backs leave. -/
theorem run_result : θ_run defs (onTc (τ := τ) (main (F := F))) ⟨m, fun _ => 0, ρ⟩ (fun r => ∀ c : Dev nD,
      r.2.mem ((c.tc : Thread nD τ).loc main_v20) = (dat1 (U3 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v20 (by decide))).trans (W4_arr m c 4),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide)),
     (h c _ (mem_uc main_arg3 (by decide))).trans (W4_arg m c main_arg3 (by decide) (by decide) (by decide) (by decide)),
     (h c _ (mem_uc main_arg4 (by decide))).trans (W4_arg m c main_arg4 (by decide) (by decide) (by decide) (by decide))⟩)
    (run_all m ρ)

end Cert.KernelIdeal.Hand

end
-- ==== Proof.Spec.lean ====
/-
  What both programs compute, as functions of the argument arrays over the extended reals.

  The input holds, for each of 16384 batch entries, 32 pillars of 2 points with 9 features; the weight is 64 x 9.
  The projection of point (b, p, n) onto channel o is the sum over the 9 features of input times weight. The
  normalisation statistics are taken PER POSITION (p, n) of the 64 positions, jointly over the batch and the 64
  channels (that is 2^20 values per position): the sum, and either the sum of squares (the kernel, which then forms
  E[x^2] - E[x]^2) or the sum of squared deviations from the mean (the reference). The scale and shift vectors are
  indexed by position too. The result at (b, o, p) is the larger over the pillar's two points of the normalised,
  scaled, shifted projection clamped below at zero.

  The four float literals are kept as their words: the count 2^20 (0x49800000), the variance offset (0x3727C5AC), zero,
  and minus infinity (the start of the maximum).
-/
import Idealize.ShloMosaic.PureOps.Ideal
import Idealize.ShloMosaic.Lib.ValueIdx

noncomputable section

namespace Cert.Spec

open Idealize.ShloMosaic Idealize.ShloMosaic.ValueIdx

abbrev SIn : Shape := ⟨4, ![16384, 32, 2, 9]⟩
abbrev SWt : Shape := ⟨2, ![64, 9]⟩
abbrev SVec : Shape := ⟨1, ![64]⟩
abbrev SOut : Shape := ⟨3, ![16384, 64, 32]⟩

/-- The position of point `n` of pillar `p` among the 64 positions. -/
def pos (p : Fin 32) (n : Fin 2) : Fin 64 := ⟨p.val * 2 + n.val, by omega⟩
/-- The row of batch entry `b`, position `j`, in the input flattened to 2^20 rows of 9 features. -/
def row (b : Fin 16384) (j : Fin 64) : Fin 1048576 := ⟨b.val * 64 + j.val, by omega⟩

/-- The count of values per position, the variance offset, zero and minus infinity, as their words' values. -/
def cnt : EReal := Ideal.ofBits .f32 0x49800000#32
def eps : EReal := Ideal.ofBits .f32 0x3727C5AC#32
def zero : EReal := Ideal.ofBits .f32 0x00000000#32
def ninf : EReal := Ideal.ofBits .f32 0xFF800000#32

section
variable (A0 : SIn.Idx → EReal) (A2 : SWt.Idx → EReal) (A3 A4 : SVec.Idx → EReal)

/-- The projection of point (b, p, n) onto channel o. -/
def proj (b : Fin 16384) (p : Fin 32) (n : Fin 2) (o : Fin 64) : EReal :=
  ∑ k : Fin 9, A0 (ix4 b p n k) * A2 (ix2 o k)

/-- Per position: the sum over batch and channel of the projection, and of its square. -/
def sum1 (p : Fin 32) (n : Fin 2) : EReal := ∑ b : Fin 16384, ∑ o : Fin 64, proj A0 A2 b p n o
def sum2 (p : Fin 32) (n : Fin 2) : EReal := ∑ b : Fin 16384, ∑ o : Fin 64, proj A0 A2 b p n o * proj A0 A2 b p n o
/-- The mean per position. -/
def mean (p : Fin 32) (n : Fin 2) : EReal := Ideal.div (sum1 A0 A2 p n) cnt

/-! ### The kernel's form -/
def kvar (p : Fin 32) (n : Fin 2) : EReal := Ideal.div (sum2 A0 A2 p n) cnt - mean A0 A2 p n * mean A0 A2 p n
def kinv (p : Fin 32) (n : Fin 2) : EReal := Ideal.rsqrt (kvar A0 A2 p n + eps)
def kscale (p : Fin 32) (n : Fin 2) : EReal := A3 (ix1 (pos p n)) * kinv A0 A2 p n
def kshift (p : Fin 32) (n : Fin 2) : EReal := A4 (ix1 (pos p n)) - (mean A0 A2 p n * A3 (ix1 (pos p n))) * kinv A0 A2 p n
def kelem (b : Fin 16384) (p : Fin 32) (n : Fin 2) (o : Fin 64) : EReal :=
  max (proj A0 A2 b p n o * kscale A0 A2 A3 p n + kshift A0 A2 A3 A4 p n) zero
def kout (b : Fin 16384) (o : Fin 64) (p : Fin 32) : EReal :=
  (Finset.univ : Finset (Fin 2)).fold max ninf (fun n => kelem A0 A2 A3 A4 b p n o)

/-! ### The reference's form -/
def rvar (p : Fin 32) (n : Fin 2) : EReal :=
  Ideal.div (∑ b : Fin 16384, ∑ o : Fin 64, (proj A0 A2 b p n o - mean A0 A2 p n) * (proj A0 A2 b p n o - mean A0 A2 p n)) cnt
def rinv (p : Fin 32) (n : Fin 2) : EReal := Ideal.rsqrt (rvar A0 A2 p n + eps)
def relem (b : Fin 16384) (p : Fin 32) (n : Fin 2) (o : Fin 64) : EReal :=
  max (((proj A0 A2 b p n o - mean A0 A2 p n) * rinv A0 A2 p n) * A3 (ix1 (pos p n)) + A4 (ix1 (pos p n))) zero
def rout (b : Fin 16384) (o : Fin 64) (p : Fin 32) : EReal :=
  (Finset.univ : Finset (Fin 2)).fold max ninf (fun n => relem A0 A2 A3 A4 b p n o)

/-- Every entry of an array is a real number. -/
def Finite {S : Shape} (A : S.Idx → EReal) : Prop := ∀ i, ∃ r : ℝ, A i = (r : EReal)
end

end Cert.Spec

end
-- ==== Proof.Views.lean ====
/-
  The buffers the value statements speak of, each named at its literal array type over the extended reals, and the
  projection of one flattened input row onto one channel.
-/
import proofs.«153306_j41257455845539_1_alg».proof.Proof.Gen.KernelIdeal
import proofs.«153306_j41257455845539_1_alg».proof.Proof.Spec

noncomputable section

namespace Cert.KernelIdeal.Hand

open Idealize.ShloMosaic Idealize.ShloMosaic.TcCoe Idealize.SL.Sem
open Idealize.ShloMosaic.ValueIdx
open Cert.KernelIdeal

variable (V : (c : Dev nD) → (b : Ref sig .tc) → Buf (Elt Ideal) ((c : Thread nD τ).loc b))

/-- The input flattened to 2^20 rows of 9 features; the weight transposed to 9 x 64. -/
abbrev vRows (c : Dev nD) : S1048576x9.Idx → EReal := V c main_v0
abbrev vWt (c : Dev nD) : S9x64.Idx → EReal := V c main_v1
/-- The statistics region's two output rows. -/
abbrev vSum1 (c : Dev nD) : S1x64.Idx → EReal := V c main_v2_0
abbrev vSum2 (c : Dev nD) : S1x64.Idx → EReal := V c main_v2_1
/-- The scale and shift tables the main region reads, one entry per (pillar, point). -/
abbrev vScale (c : Dev nD) : S32x2.Idx → EReal := V c main_v15
abbrev vShift (c : Dev nD) : S32x2.Idx → EReal := V c main_v19
/-- The arguments. -/
abbrev vIn (c : Dev nD) : S16384x32x2x9.Idx → EReal := V c main_arg0
abbrev vW (c : Dev nD) : S64x9.Idx → EReal := V c main_arg2
abbrev vGamma (c : Dev nD) : S64.Idx → EReal := V c main_arg3
abbrev vBeta (c : Dev nD) : S64.Idx → EReal := V c main_arg4

/-- The projected value of flattened row `r` onto channel `o`. -/
def projRow (c : Dev nD) (r : Fin 1048576) (o : Fin 64) : EReal :=
  ∑ k : Fin 9, vRows V c (ix2 r k) * vWt V c (ix2 k o)

end Cert.KernelIdeal.Hand

end
-- ==== Proof.HostValue.lean ====
/-
  What the host operations around the two regions compute, at the extended reals.

  Before the statistics region: the input flattened to 2^20 rows (row b*64 + p*2 + n holds point (b, p, n)) and the
  weight transposed. Between the regions, from the two rows of sums S1, S2 the statistics region left, per position
  j = p*2 + n: mean = S1 / N, variance = S2 / N - mean * mean, inv = rsqrt (variance + offset), and the two tables
  scale(p, n) = gamma j * inv and shift(p, n) = beta j - (mean * gamma j) * inv. The arrays the main region reads from
  the first stretch are untouched in between.
-/
import proofs.«153306_j41257455845539_1_alg».proof.Proof.Run
import proofs.«153306_j41257455845539_1_alg».proof.Proof.Views
import Idealize.ShloMosaic.Lib.StableHlo.Run
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

open Idealize.ShloMosaic.StableHlo

variable (m : (ℓ : Loc nD τ sig) → Buf (Elt Ideal) ℓ)

/-- The five arguments at their literal types. -/
abbrev aIn (c : Dev nD) : S16384x32x2x9.Idx → EReal := m ((c : Thread nD τ).loc main_arg0)
abbrev aW (c : Dev nD) : S64x9.Idx → EReal := m ((c : Thread nD τ).loc main_arg2)
abbrev aGamma (c : Dev nD) : S64.Idx → EReal := m ((c : Thread nD τ).loc main_arg3)
abbrev aBeta (c : Dev nD) : S64.Idx → EReal := m ((c : Thread nD τ).loc main_arg4)

/-- The statistics region's two output rows after its 32 points, from the first stretch's contents. -/
abbrev sOut1 (c : Dev nD) : S1x64.Idx → EReal := (dat0 (F := Ideal) (U1 m) c).arrAt 2 cfg0.N
abbrev sOut2 (c : Dev nD) : S1x64.Idx → EReal := (dat0 (F := Ideal) (U1 m) c).arrAt 3 cfg0.N

/-! ## The first stretch -/

theorem rows_term (c : Dev nD) :
    vRows (U1 m) c = shapeCast S1048576x9 (aIn m c) shapeCasts_S16384x32x2x9_S1048576x9 := by
  show StableHlo.after hostOps0 (W0 m c) (Proc.devRef .tc main_v0) = _
  after_results
  all_goals rfl

theorem wt_term (c : Dev nD) :
    vWt (U1 m) c = transpose S9x64 [1, 0] (aW m c) transposes_S64x9_S9x64_1_0 := by
  show StableHlo.after hostOps0 (W0 m c) (Proc.devRef .tc main_v1) = _
  after_results
  all_goals rfl

/-- Row b*64 + p*2 + n of the flattened input is point (b, p, n). -/
theorem rows_at (c : Dev nD) (b : Fin 16384) (p : Fin 32) (n : Fin 2) (k : Fin 9) :
    vRows (U1 m) c (ix2 (Cert.Spec.row b (Cert.Spec.pos p n)) k) = aIn m c (ix4 b p n k) := by
  rw [rows_term]
  exact shapeCast_apply _ _ _ _ (by
    rw [Shape.rowMajor_val_four, Shape.rowMajor_val_two]
    show ((b.val * 32 + p.val) * 2 + n.val) * 9 + k.val = (b.val * 64 + (p.val * 2 + n.val)) * 9 + k.val
    omega)

/-- The transposed weight at (k, o) is the weight at (o, k). -/
theorem wt_at (c : Dev nD) (k : Fin 9) (o : Fin 64) :
    vWt (U1 m) c (ix2 k o) = aW m c (ix2 o k) := by
  rw [wt_term]
  exact transpose_ix2_apply _ _ k o

/-- The projection of a flattened row is the specification's projection of its point. -/
theorem projRow_eq (c : Dev nD) (b : Fin 16384) (p : Fin 32) (n : Fin 2) (o : Fin 64) :
    projRow (U1 m) c (Cert.Spec.row b (Cert.Spec.pos p n)) o = Cert.Spec.proj (aIn m c) (aW m c) b p n o := by
  unfold projRow Cert.Spec.proj
  exact Finset.sum_congr rfl fun k _ => by rw [rows_at, wt_at]

/-! ## What the second stretch and the main region find of the first stretch and the statistics region -/

theorem keep_rows (c : Dev nD) : vRows (U3 m) c = vRows (U1 m) c :=
  (W3_keep m c main_v0 (by decide)).trans ((W2_arr m c 0).trans (((dat0 (U1 m) c).arrAt_in 0 rfl _).trans (dat0_A (U1 m) c 0)))
theorem keep_wt (c : Dev nD) : vWt (U3 m) c = vWt (U1 m) c :=
  (W3_keep m c main_v1 (by decide)).trans ((W2_arr m c 1).trans (((dat0 (U1 m) c).arrAt_in 1 rfl _).trans (dat0_A (U1 m) c 1)))
theorem sum1_is (c : Dev nD) : vSum1 (U2 m) c = sOut1 m c := W2_arr m c 2
theorem sum2_is (c : Dev nD) : vSum2 (U2 m) c = sOut2 m c := W2_arr m c 3
theorem gamma_is (c : Dev nD) : vGamma (U2 m) c = aGamma m c :=
  (W2_of_ne m c main_arg3 (by decide)).trans ((W1_keep m c main_arg3 (by decide)).trans rfl)
theorem beta_is (c : Dev nD) : vBeta (U2 m) c = aBeta m c :=
  (W2_of_ne m c main_arg4 (by decide)).trans ((W1_keep m c main_arg4 (by decide)).trans rfl)

/-! ## The second stretch -/

/-- The mean row, the inverse deviation row, and the two tables, as the host operations' terms. -/
def meanT (s1 : FVec Ideal S1x64 .f32) : FVec Ideal S64 .f32 :=
  Host.divf (shapeCast S64 s1 shapeCasts_S1x64_S64) (broadcastInDim S64 ![] bcast_S_S64 (constant (F := Ideal) S_ .f32 0x49800000#32))
def invT (s1 s2 : FVec Ideal S1x64 .f32) : FVec Ideal S64 .f32 :=
  Host.rsqrt (addf (subf (Host.divf (shapeCast S64 s2 shapeCasts_S1x64_S64) (broadcastInDim S64 ![] bcast_S_S64 (constant (F := Ideal) S_ .f32 0x49800000#32)))
      (mulf (meanT s1) (meanT s1))) (broadcastInDim S64 ![] bcast_S_S64 (constant (F := Ideal) S_ .f32 0x3727C5AC#32)))
def scaleT (g : FVec Ideal S64 .f32) (s1 s2 : FVec Ideal S1x64 .f32) : FVec Ideal S32x2 .f32 :=
  shapeCast S32x2 (mulf g (invT s1 s2)) shapeCasts_S64_S32x2
def shiftT (g be : FVec Ideal S64 .f32) (s1 s2 : FVec Ideal S1x64 .f32) : FVec Ideal S32x2 .f32 :=
  shapeCast S32x2 (subf be (mulf (mulf (meanT s1) g) (invT s1 s2))) shapeCasts_S64_S32x2

theorem scale_term (c : Dev nD) :
    vScale (U3 m) c = scaleT (vGamma (U2 m) c) (vSum1 (U2 m) c) (vSum2 (U2 m) c) := by
  show StableHlo.after hostOps1 (W2 m c) (Proc.devRef .tc main_v15) = _
  after_results
  all_goals rfl

theorem shift_term (c : Dev nD) :
    vShift (U3 m) c = shiftT (vGamma (U2 m) c) (vBeta (U2 m) c) (vSum1 (U2 m) c) (vSum2 (U2 m) c) := by
  show StableHlo.after hostOps1 (W2 m c) (Proc.devRef .tc main_v19) = _
  after_results
  all_goals rfl

theorem meanT_at (s1 : FVec Ideal S1x64 .f32) (j : Fin 64) :
    meanT s1 (ix1 j) = Ideal.div (s1 (ix2 0 j)) Cert.Spec.cnt := by
  unfold meanT Cert.Spec.cnt
  simp only [Host.divf, broadcastInDim, constant, Ideal.hostDivf_def, Ideal.ofBits_def]
  rw [shapeCast_1a_a_apply]

theorem invT_at (s1 s2 : FVec Ideal S1x64 .f32) (j : Fin 64) :
    invT s1 s2 (ix1 j)
      = Ideal.rsqrt (Ideal.div (s2 (ix2 0 j)) Cert.Spec.cnt - meanT s1 (ix1 j) * meanT s1 (ix1 j) + Cert.Spec.eps) := by
  unfold invT Cert.Spec.cnt Cert.Spec.eps
  simp only [Host.rsqrt, Host.divf, addf, subf, mulf, broadcastInDim, constant, Ideal.hostUnary_rsqrt_def, Ideal.hostDivf_def,
    Ideal.addf_def, Ideal.subf_def, Ideal.mulf_def, Ideal.ofBits_def]
  rw [shapeCast_1a_a_apply]

theorem pos_cast (x : FVec Ideal S64 .f32) (p : Fin 32) (n : Fin 2) :
    shapeCast S32x2 x shapeCasts_S64_S32x2 (ix2 p n) = x (ix1 (Cert.Spec.pos p n)) :=
  shapeCast_apply _ _ _ _ (by
    rw [Shape.rowMajor_val_one, Shape.rowMajor_val_two]
    rfl)

/-- The scale table at (p, n). -/
theorem scale_at (c : Dev nD) (p : Fin 32) (n : Fin 2) :
    vScale (U3 m) c (ix2 p n)
      = aGamma m c (ix1 (Cert.Spec.pos p n))
        * invT (sOut1 m c) (sOut2 m c) (ix1 (Cert.Spec.pos p n)) := by
  rw [scale_term, gamma_is, sum1_is, sum2_is]
  unfold scaleT
  rw [pos_cast]
  rfl

/-- The shift table at (p, n). -/
theorem shift_at (c : Dev nD) (p : Fin 32) (n : Fin 2) :
    vShift (U3 m) c (ix2 p n)
      = aBeta m c (ix1 (Cert.Spec.pos p n))
        - (meanT (sOut1 m c) (ix1 (Cert.Spec.pos p n)) * aGamma m c (ix1 (Cert.Spec.pos p n)))
          * invT (sOut1 m c) (sOut2 m c) (ix1 (Cert.Spec.pos p n)) := by
  rw [shift_term, gamma_is, beta_is, sum1_is, sum2_is]
  unfold shiftT
  rw [pos_cast]
  rfl

end Cert.KernelIdeal.Hand

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.StatsValue.lean ====
/-
  What the statistics region leaves in its two output rows, at the extended reals: for each position j, the sum over
  all 16384 batch entries and 64 channels of the projected value, and of its square.
-/
import proofs.«153306_j41257455845539_1_alg».proof.Proof.StatsRegion
import proofs.«153306_j41257455845539_1_alg».proof.Proof.Views
import proofs.«153306_j41257455845539_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## What each control case leaves, as a function of what it read -/

section Pieces
variable {F : FTy → Type} [FloatOps F]
variable (c : Dev nD) (i : grid0.Coords) (a1 : Memref sig .tc .vmem S32768x9 .f32) (h1 : a1.IsWhole) (a2 : Memref sig .tc .vmem S9x64 .f32) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole)

/-- The zero offsets of a whole-row access. -/
theorem hz2 : (![0, 0] : Fin 2 → Nat) = fun _ => 0 := funext fun a => by fin_cases a <;> rfl

/-- First point, sum row: the cleared row plus the block's column sums. -/
theorem first_acc1_eq (hc0 : isFirst i) (hc1 : ¬isLast i) (x : Vec F S32768x9 .f32) (w : Vec F S9x64 .f32) :
    first_acc1 c i a1 h1 a2 h2 a3 h3 a4 h4 a5 h5 a6 h6 hc0 hc1 x w = k0_pay4 x w (k0_pay1 (F := F)) := by
  unfold first_acc1
  rw [View.read_writes_eq_canon _ _ _ (first_cover1 c i a1 h1 a2 h2 a3 h3 a4 h4 a5 h5 a6 h6 hc0 hc1 x w)]
  unfold runFirst
  dsimp only
  sl_unfold_words
  rw [View.canon_cons_unit_zero (S := S1x64) hz2]
  simp only [View.readAt_eq_ld, h1.read_unread, h2.read_unread, View.ld_unit_zero (S := S32768x9) hz2,
    View.ld_unit_zero (S := S9x64) hz2, View.ld_unit_zero (S := S1x64) hz2, View.readCov_unit_zero (S := S1x64) _ hz2]

/-- First point, square row. -/
theorem first_acc2_eq (hc0 : isFirst i) (hc1 : ¬isLast i) (x : Vec F S32768x9 .f32) (w : Vec F S9x64 .f32) :
    first_acc2 c i a1 h1 a2 h2 a3 h3 a4 h4 a5 h5 a6 h6 hc0 hc1 x w = k0_pay5 x w (k0_pay2 (F := F)) := by
  unfold first_acc2
  rw [View.read_writes_eq_canon _ _ _ (first_cover2 c i a1 h1 a2 h2 a3 h3 a4 h4 a5 h5 a6 h6 hc0 hc1 x w)]
  unfold runFirst
  dsimp only
  sl_unfold_words
  rw [View.canon_cons_unit_zero (S := S1x64) hz2]
  simp only [View.readAt_eq_ld, h1.read_unread, h2.read_unread, View.ld_unit_zero (S := S32768x9) hz2,
    View.ld_unit_zero (S := S9x64) hz2, View.ld_unit_zero (S := S1x64) hz2, View.readCov_unit_zero (S := S1x64) _ hz2]

/-- Middle point, sum row: what the point before left plus the block's column sums. -/
theorem mid_acc1_eq (hc0 : ¬isFirst i) (hc1 : ¬isLast i) (x : Vec F S32768x9 .f32) (w : Vec F S9x64 .f32) (s1 s2 : Vec F S1x64 .f32) :
    mid_acc1 c i a1 h1 a2 h2 a3 h3 a4 h4 a5 h5 a6 h6 hc0 hc1 x w s1 s2 = k0_pay4 x w s1 := by
  unfold mid_acc1
  rw [View.read_writes_eq_canon _ _ _ (mid_cover1 c i a1 h1 a2 h2 a3 h3 a4 h4 a5 h5 a6 h6 hc0 hc1 x w s1 s2)]
  unfold runMid
  dsimp only
  sl_unfold_words
  rw [View.canon_unit_zero (S := S1x64) hz2]
  simp only [View.readAt_eq_ld, h1.read_unread, h2.read_unread, h5.read_unread, View.ld_unit_zero (S := S32768x9) hz2,
    View.ld_unit_zero (S := S9x64) hz2, View.ld_unit_zero (S := S1x64) hz2]

/-- Middle point, square row. -/
theorem mid_acc2_eq (hc0 : ¬isFirst i) (hc1 : ¬isLast i) (x : Vec F S32768x9 .f32) (w : Vec F S9x64 .f32) (s1 s2 : Vec F S1x64 .f32) :
    mid_acc2 c i a1 h1 a2 h2 a3 h3 a4 h4 a5 h5 a6 h6 hc0 hc1 x w s1 s2 = k0_pay5 x w s2 := by
  unfold mid_acc2
  rw [View.read_writes_eq_canon _ _ _ (mid_cover2 c i a1 h1 a2 h2 a3 h3 a4 h4 a5 h5 a6 h6 hc0 hc1 x w s1 s2)]
  unfold runMid
  dsimp only
  sl_unfold_words
  rw [View.canon_unit_zero (S := S1x64) hz2]
  simp only [View.readAt_eq_ld, h1.read_unread, h2.read_unread, h6.read_unread, View.ld_unit_zero (S := S32768x9) hz2,
    View.ld_unit_zero (S := S9x64) hz2, View.ld_unit_zero (S := S1x64) hz2]

/-- Last point, sum row. -/
theorem last_acc1_eq (hc0 : ¬isFirst i) (hc1 : isLast i) (x : Vec F S32768x9 .f32) (w : Vec F S9x64 .f32) (s1 s2 : Vec F S1x64 .f32) :
    last_acc1 c i a1 h1 a2 h2 a3 h3 a4 h4 a5 h5 a6 h6 hc0 hc1 x w s1 s2 = k0_pay4 x w s1 := by
  unfold last_acc1
  rw [View.read_writes_eq_canon _ _ _ (last_cover1 c i a1 h1 a2 h2 a3 h3 a4 h4 a5 h5 a6 h6 hc0 hc1 x w s1 s2)]
  unfold runLast
  dsimp only
  sl_unfold_words
  rw [View.canon_unit_zero (S := S1x64) hz2]
  simp only [View.readAt_eq_ld, h1.read_unread, h2.read_unread, h5.read_unread, View.ld_unit_zero (S := S32768x9) hz2,
    View.ld_unit_zero (S := S9x64) hz2, View.ld_unit_zero (S := S1x64) hz2]

/-- Last point, square row. -/
theorem last_acc2_eq (hc0 : ¬isFirst i) (hc1 : isLast i) (x : Vec F S32768x9 .f32) (w : Vec F S9x64 .f32) (s1 s2 : Vec F S1x64 .f32) :
    last_acc2 c i a1 h1 a2 h2 a3 h3 a4 h4 a5 h5 a6 h6 hc0 hc1 x w s1 s2 = k0_pay5 x w s2 := by
  unfold last_acc2
  rw [View.read_writes_eq_canon _ _ _ (last_cover2 c i a1 h1 a2 h2 a3 h3 a4 h4 a5 h5 a6 h6 hc0 hc1 x w s1 s2)]
  unfold runLast
  dsimp only
  sl_unfold_words
  rw [View.canon_unit_zero (S := S1x64) hz2]
  simp only [View.readAt_eq_ld, h1.read_unread, h2.read_unread, h6.read_unread, View.ld_unit_zero (S := S32768x9) hz2,
    View.ld_unit_zero (S := S9x64) hz2, View.ld_unit_zero (S := S1x64) hz2]

/-- Last point, first output row: a copy of the updated sum row. -/
theorem last_out1_eq (hc0 : ¬isFirst i) (hc1 : isLast i) (x : Vec F S32768x9 .f32) (w : Vec F S9x64 .f32) (s1 s2 : Vec F S1x64 .f32) :
    last_out1 c i a1 h1 a2 h2 a3 h3 a4 h4 a5 h5 a6 h6 hc0 hc1 x w s1 s2 = k0_pay4 x w s1 := by
  unfold last_out1
  rw [View.read_writes_eq_canon _ _ _ (last_coverO1 c i a1 h1 a2 h2 a3 h3 a4 h4 a5 h5 a6 h6 hc0 hc1 x w s1 s2)]
  unfold runLast
  dsimp only
  sl_unfold_words
  rw [View.canon_unit_zero (S := S1x64) hz2]
  simp only [View.readAt_eq_ld, h1.read_unread, h2.read_unread, h5.read_unread, View.ld_unit_zero (S := S32768x9) hz2,
    View.ld_unit_zero (S := S9x64) hz2, View.ld_unit_zero (S := S1x64) hz2, View.readCov_unit_zero (S := S1x64) _ hz2]

/-- Last point, second output row: a copy of the updated square row. -/
theorem last_out2_eq (hc0 : ¬isFirst i) (hc1 : isLast i) (x : Vec F S32768x9 .f32) (w : Vec F S9x64 .f32) (s1 s2 : Vec F S1x64 .f32) :
    last_out2 c i a1 h1 a2 h2 a3 h3 a4 h4 a5 h5 a6 h6 hc0 hc1 x w s1 s2 = k0_pay5 x w s2 := by
  unfold last_out2
  rw [View.read_writes_eq_canon _ _ _ (last_coverO2 c i a1 h1 a2 h2 a3 h3 a4 h4 a5 h5 a6 h6 hc0 hc1 x w s1 s2)]
  unfold runLast
  dsimp only
  sl_unfold_words
  rw [View.canon_unit_zero (S := S1x64) hz2]
  simp only [View.readAt_eq_ld, h1.read_unread, h2.read_unread, h6.read_unread, View.ld_unit_zero (S := S32768x9) hz2,
    View.ld_unit_zero (S := S9x64) hz2, View.ld_unit_zero (S := S1x64) hz2, View.readCov_unit_zero (S := S1x64) _ hz2]
end Pieces

/-! ## The stored rows read at one position, over the extended reals -/

section Payloads

/-- The lane sum of a [512, 64, 64] array at (bb, j): the sum over the last coordinate. -/
theorem sumLast_apply (v : FVec Ideal S512x64x64 .f32) (bb : Fin 512) (j : Fin 64) :
    multiReduction (F := Ideal) .add [2] S512x64 v 0x00000000#32 reduces_S512x64x64_S512x64 (.inl rfl) rfl (ix2 bb j)
      = ∑ o : Fin 64, v (ix3 bb j o) := by
  refine (Ideal.multiReduction_add_single v 0x00000000#32 reduces_S512x64x64_S512x64 (.inl rfl) rfl (ix2 bb j)).trans ?_
  refine Finset.sum_congr rfl fun o _ => congrArg v ?_
  funext a
  apply Fin.ext
  match a with
  | ⟨0, _⟩ => rfl
  | ⟨1, _⟩ => rfl
  | ⟨2, _⟩ => rfl

/-- The sum over the rows of a [512, 64] array at column j. -/
theorem sumRows_apply (v : FVec Ideal S512x64 .f32) (j : Fin 64) :
    multiReduction (F := Ideal) .add [0] S64 v 0x00000000#32 reduces_S512x64_S64 (.inl rfl) rfl (ix1 j)
      = ∑ bb : Fin 512, v (ix2 bb j) := by
  refine (Ideal.multiReduction_add_single v 0x00000000#32 reduces_S512x64_S64 (.inl rfl) rfl (ix1 j)).trans ?_
  refine Finset.sum_congr rfl fun bb _ => congrArg v ?_
  funext a
  apply Fin.ext
  match a with
  | ⟨0, _⟩ => rfl
  | ⟨1, _⟩ => rfl

/-- Row bb * 64 + j of a block of 32768 rows. -/
def brow (bb : Fin 512) (j : Fin 64) : Fin 32768 := ⟨bb.val * 64 + j.val, by omega⟩

/-- The block's projection, re-laid as [512, 64, 64], at (bb, j, o): row bb * 64 + j of the block against column o of the weight. -/
theorem pay3_apply (x : Vec Ideal S32768x9 .f32) (w : Vec Ideal S9x64 .f32) (bb : Fin 512) (j o : Fin 64) :
    k0_pay3 (F := Ideal) x w (ix3 bb j o) = ∑ k : Fin 9, x (ix2 (brow bb j) k) * w (ix2 k o) := by
  unfold k0_pay3
  refine (shapeCast_apply _ _ (ix3 bb j o) (ix2 (brow bb j) o) ?_).trans ?_
  · rw [Shape.rowMajor_val_two, Shape.rowMajor_val_three]
    show (bb.val * 64 + j.val) * 64 + o.val = (bb.val * 64 + j.val) * 64 + o.val
    rfl
  · refine (Cert.Lib.PlainDot.matmul_zero_apply 32768 9 64 none _ _ (brow bb j) o).trans ?_
    refine Finset.sum_congr rfl fun k _ => ?_
    rw [truncf_apply, truncf_apply, shapeCast_self, shapeCast_self]

/-- The sum row's update at position j: what was there plus the block's double sum of the projection. -/
theorem pay4_apply (x : Vec Ideal S32768x9 .f32) (w : Vec Ideal S9x64 .f32) (s : Vec Ideal S1x64 .f32) (j : Fin 64) :
    k0_pay4 (F := Ideal) x w s (ix2 0 j)
      = s (ix2 0 j) + ∑ bb : Fin 512, ∑ o : Fin 64, ∑ k : Fin 9, x (ix2 (brow bb j) k) * w (ix2 k o) := by
  unfold k0_pay4
  rw [shapeCast_self, addf_apply]
  refine congrArg (s (ix2 0 j) + ·) ?_
  refine (shapeCast_apply _ _ (ix2 0 j) (ix1 j) ?_).trans ?_
  · rw [Shape.rowMajor_val_one, Shape.rowMajor_val_two]
    show j.val = 0 * 64 + j.val
    omega
  · refine (sumRows_apply _ j).trans ?_
    refine Finset.sum_congr rfl fun bb _ => ?_
    refine (sumLast_apply _ bb j).trans ?_
    refine Finset.sum_congr rfl fun o _ => ?_
    exact pay3_apply x w bb j o

/-- The square row's update at position j. -/
theorem pay5_apply (x : Vec Ideal S32768x9 .f32) (w : Vec Ideal S9x64 .f32) (s : Vec Ideal S1x64 .f32) (j : Fin 64) :
    k0_pay5 (F := Ideal) x w s (ix2 0 j)
      = s (ix2 0 j) + ∑ bb : Fin 512, ∑ o : Fin 64,
          (∑ k : Fin 9, x (ix2 (brow bb j) k) * w (ix2 k o)) * (∑ k : Fin 9, x (ix2 (brow bb j) k) * w (ix2 k o)) := by
  unfold k0_pay5
  rw [shapeCast_self, addf_apply]
  refine congrArg (s (ix2 0 j) + ·) ?_
  refine (shapeCast_apply _ _ (ix2 0 j) (ix1 j) ?_).trans ?_
  · rw [Shape.rowMajor_val_one, Shape.rowMajor_val_two]
    show j.val = 0 * 64 + j.val
    omega
  · refine (sumRows_apply _ j).trans ?_
    refine Finset.sum_congr rfl fun bb _ => ?_
    refine (sumLast_apply _ bb j).trans ?_
    refine Finset.sum_congr rfl fun o _ => ?_
    rw [mulf_apply, pay3_apply x w bb j o]

/-- The cleared rows read zero. -/
theorem pay1_apply (j : Fin 64) : (k0_pay1 (F := Ideal)) (ix2 0 j) = 0 := by
  unfold k0_pay1
  rw [shapeCast_self, broadcast_apply]
  exact Ideal.ofBits_zero_f32
theorem pay2_apply (j : Fin 64) : (k0_pay2 (F := Ideal)) (ix2 0 j) = 0 := by
  unfold k0_pay2
  rw [shapeCast_self, broadcast_apply]
  exact Ideal.ofBits_zero_f32
end Payloads

/-! ## The blocks a point reads, in the arrays' own coordinates -/

section Blocks
variable (V : (c : Dev nD) → (b : Ref sig .tc) → Buf (Elt Ideal) ((c : Thread nD τ).loc b))

/-- The block of 32768 input rows and the weight, as the body at point t finds them, at their literal types. -/
abbrev xblk (c : Dev nD) (t : Fin cfg0.N) : S32768x9.Idx → EReal := blk0 (F := Ideal) V c 0 t
abbrev wblk (c : Dev nD) (t : Fin cfg0.N) : S9x64.Idx → EReal := blk0 (F := Ideal) V c 1 t

/-- Point t's block of rows is block t along the rows and the only block along the features; the weight's and the two
    output rows' blocks are their whole arrays. -/
theorem idx0_facts : ∀ t : Fin cfg0.N, win0_0.index t 0 = t.val ∧ win0_0.index t 1 = 0 :=
  (by decide +kernel : ∀ t : Fin grid0.N, win0_0.index t 0 = t.val ∧ win0_0.index t 1 = 0)
theorem idx1_facts : ∀ t : Fin cfg0.N, win0_1.index t 0 = 0 ∧ win0_1.index t 1 = 0 :=
  (by decide +kernel : ∀ t : Fin grid0.N, win0_1.index t 0 = 0 ∧ win0_1.index t 1 = 0)
theorem idx2_facts : ∀ t : Fin cfg0.N, win0_2.index t 0 = 0 ∧ win0_2.index t 1 = 0 :=
  (by decide +kernel : ∀ t : Fin grid0.N, win0_2.index t 0 = 0 ∧ win0_2.index t 1 = 0)
theorem idx3_facts : ∀ t : Fin cfg0.N, win0_3.index t 0 = 0 ∧ win0_3.index t 1 = 0 :=
  (by decide +kernel : ∀ t : Fin grid0.N, win0_3.index t 0 = 0 ∧ win0_3.index t 1 = 0)

/-- Row r of point t's block is row t * 32768 + r of the flattened input. -/
theorem xblk_apply (c : Dev nD) (t : Fin cfg0.N) (r : Fin 32768) (k : Fin 9) (R : Fin 1048576)
    (hR : R.val = t.val * 32768 + r.val) : xblk V c t (ix2 r k) = vRows V c (ix2 R k) := by
  show blk0 (F := Ideal) V c 0 t (ix2 r k) = V c main_v0 (ix2 R k)
  unfold blk0
  rw [View.read_apply]
  show V c main_v0 (((cfg0.win 0).blk t).view.emb (ix2 r k)) = V c main_v0 (ix2 R k)
  refine congrArg (V c main_v0) ?_
  funext a
  apply Fin.ext
  match a with
  | ⟨0, _⟩ => show win0_0.index t 0 * 32768 + 1 * r.val = R.val; rw [(idx0_facts t).1, hR]; omega
  | ⟨1, _⟩ => show win0_0.index t 1 * 9 + 1 * k.val = k.val; rw [(idx0_facts t).2]; omega

/-- Every point reads the whole weight. -/
theorem wblk_apply (c : Dev nD) (t : Fin cfg0.N) (k : Fin 9) (o : Fin 64) : wblk V c t (ix2 k o) = vWt V c (ix2 k o) := by
  show blk0 (F := Ideal) V c 1 t (ix2 k o) = V c main_v1 (ix2 k o)
  unfold blk0
  rw [View.read_apply]
  show V c main_v1 (((cfg0.win 1).blk t).view.emb (ix2 k o)) = V c main_v1 (ix2 k o)
  refine congrArg (V c main_v1) ?_
  funext a
  apply Fin.ext
  match a with
  | ⟨0, _⟩ => show win0_1.index t 0 * 9 + 1 * k.val = k.val; rw [(idx1_facts t).1]; omega
  | ⟨1, _⟩ => show win0_1.index t 1 * 64 + 1 * o.val = o.val; rw [(idx1_facts t).2]; omega
end Blocks

/-! ## The accumulation over the 32 points -/

section Accumulation
variable (V : (c : Dev nD) → (b : Ref sig .tc) → Buf (Elt Ideal) ((c : Thread nD τ).loc b))

/-- Batch entry t * 512 + bb: entry bb of point t's 512. -/
def bat (t : Fin 32) (bb : Fin 512) : Fin 16384 := ⟨t.val * 512 + bb.val, by omega⟩

/-- What point t adds at position j: the sum over its 512 batch entries and the 64 channels of the projection, and of
    its square; nothing past the 32 points. -/
def add1 (c : Dev nD) (j : Fin 64) (t : ℕ) : EReal :=
  if h : t < 32 then ∑ bb : Fin 512, ∑ o : Fin 64, projRow V c (Cert.Spec.row (bat ⟨t, h⟩ bb) j) o else 0
def add2 (c : Dev nD) (j : Fin 64) (t : ℕ) : EReal :=
  if h : t < 32 then ∑ bb : Fin 512, ∑ o : Fin 64,
    projRow V c (Cert.Spec.row (bat ⟨t, h⟩ bb) j) o * projRow V c (Cert.Spec.row (bat ⟨t, h⟩ bb) j) o else 0

/-- A block's product against the weight is the projection of the flattened input's row. -/
theorem blockProj (c : Dev nD) (t : Fin cfg0.N) (hN : t.val < 32) (bb : Fin 512) (j o : Fin 64) :
    (∑ k : Fin 9, xblk V c t (ix2 (brow bb j) k) * wblk V c t (ix2 k o))
      = projRow V c (Cert.Spec.row (bat ⟨t.val, hN⟩ bb) j) o := by
  unfold projRow
  refine Finset.sum_congr rfl fun k _ => ?_
  rw [xblk_apply V c t (brow bb j) k (Cert.Spec.row (bat ⟨t.val, hN⟩ bb) j)
    (by show (t.val * 512 + bb.val) * 64 + j.val = t.val * 32768 + (bb.val * 64 + j.val); omega), wblk_apply V c t k o]

theorem blockSum1 (c : Dev nD) (t : Fin cfg0.N) (j : Fin 64) :
    (∑ bb : Fin 512, ∑ o : Fin 64, ∑ k : Fin 9, xblk V c t (ix2 (brow bb j) k) * wblk V c t (ix2 k o)) = add1 V c j t.val := by
  have hN : t.val < 32 := lt_of_lt_of_eq t.isLt N0_eq
  unfold add1
  rw [dif_pos hN]
  exact Finset.sum_congr rfl fun bb _ => Finset.sum_congr rfl fun o _ => blockProj V c t hN bb j o

theorem blockSum2 (c : Dev nD) (t : Fin cfg0.N) (j : Fin 64) :
    (∑ bb : Fin 512, ∑ o : Fin 64, (∑ k : Fin 9, xblk V c t (ix2 (brow bb j) k) * wblk V c t (ix2 k o))
        * (∑ k : Fin 9, xblk V c t (ix2 (brow bb j) k) * wblk V c t (ix2 k o))) = add2 V c j t.val := by
  have hN : t.val < 32 := lt_of_lt_of_eq t.isLt N0_eq
  unfold add2
  rw [dif_pos hN]
  exact Finset.sum_congr rfl fun bb _ => Finset.sum_congr rfl fun o _ => by rw [blockProj V c t hN bb j o]

/-- The first point leaves its own contribution in both rows. -/
theorem acc_first (c : Dev nD) (t : Fin cfg0.N) (hc0 : isFirst (grid0.coords t)) (hc1 : ¬isLast (grid0.coords t)) (j : Fin 64) :
    (accAt (F := Ideal) V c t.val t.isLt).1 (ix2 0 j) = add1 V c j t.val
      ∧ (accAt (F := Ideal) V c t.val t.isLt).2 (ix2 0 j) = add2 V c j t.val := by
  rw [accAt_first V c t hc0 hc1]
  dsimp only
  constructor
  · refine (congrFun (first_acc1_eq (F := Ideal) c (grid0.coords t) (mX t) (hX t) (mW t) (hW t) (mO1 t) (hO1 t) (mO2 t) (hO2 t)
      mA1 (Memref.isWhole_whole _) mA2 (Memref.isWhole_whole _) hc0 hc1 (xblk V c t) (wblk V c t)) (ix2 0 j)).trans ?_
    refine (pay4_apply (xblk V c t) (wblk V c t) (k0_pay1 (F := Ideal)) j).trans ?_
    rw [pay1_apply, zero_add]
    exact blockSum1 V c t j
  · refine (congrFun (first_acc2_eq (F := Ideal) c (grid0.coords t) (mX t) (hX t) (mW t) (hW t) (mO1 t) (hO1 t) (mO2 t) (hO2 t)
      mA1 (Memref.isWhole_whole _) mA2 (Memref.isWhole_whole _) hc0 hc1 (xblk V c t) (wblk V c t)) (ix2 0 j)).trans ?_
    refine (pay5_apply (xblk V c t) (wblk V c t) (k0_pay2 (F := Ideal)) j).trans ?_
    rw [pay2_apply, zero_add]
    exact blockSum2 V c t j

/-- Every later point adds its contribution to what the point before left. -/
theorem acc_next (c : Dev nD) (t : Fin cfg0.N) (hc0 : ¬isFirst (grid0.coords t)) (j : Fin 64) :
    (accAt (F := Ideal) V c t.val t.isLt).1 (ix2 0 j) = (prevAcc (F := Ideal) V c t).1 (ix2 0 j) + add1 V c j t.val
      ∧ (accAt (F := Ideal) V c t.val t.isLt).2 (ix2 0 j) = (prevAcc (F := Ideal) V c t).2 (ix2 0 j) + add2 V c j t.val := by
  by_cases hc1 : isLast (grid0.coords t)
  · rw [accAt_last V c t hc0 hc1]
    dsimp only
    constructor
    · refine (congrFun (last_acc1_eq (F := Ideal) c (grid0.coords t) (mX t) (hX t) (mW t) (hW t) (mO1 t) (hO1 t) (mO2 t) (hO2 t)
        mA1 (Memref.isWhole_whole _) mA2 (Memref.isWhole_whole _) hc0 hc1 (xblk V c t) (wblk V c t)
        (prevAcc (F := Ideal) V c t).1 (prevAcc (F := Ideal) V c t).2) (ix2 0 j)).trans ?_
      refine (pay4_apply (xblk V c t) (wblk V c t) (prevAcc (F := Ideal) V c t).1 j).trans ?_
      rw [blockSum1 V c t j]
    · refine (congrFun (last_acc2_eq (F := Ideal) c (grid0.coords t) (mX t) (hX t) (mW t) (hW t) (mO1 t) (hO1 t) (mO2 t) (hO2 t)
        mA1 (Memref.isWhole_whole _) mA2 (Memref.isWhole_whole _) hc0 hc1 (xblk V c t) (wblk V c t)
        (prevAcc (F := Ideal) V c t).1 (prevAcc (F := Ideal) V c t).2) (ix2 0 j)).trans ?_
      refine (pay5_apply (xblk V c t) (wblk V c t) (prevAcc (F := Ideal) V c t).2 j).trans ?_
      rw [blockSum2 V c t j]
  · rw [accAt_mid V c t hc0 hc1]
    dsimp only
    constructor
    · refine (congrFun (mid_acc1_eq (F := Ideal) c (grid0.coords t) (mX t) (hX t) (mW t) (hW t) (mO1 t) (hO1 t) (mO2 t) (hO2 t)
        mA1 (Memref.isWhole_whole _) mA2 (Memref.isWhole_whole _) hc0 hc1 (xblk V c t) (wblk V c t)
        (prevAcc (F := Ideal) V c t).1 (prevAcc (F := Ideal) V c t).2) (ix2 0 j)).trans ?_
      refine (pay4_apply (xblk V c t) (wblk V c t) (prevAcc (F := Ideal) V c t).1 j).trans ?_
      rw [blockSum1 V c t j]
    · refine (congrFun (mid_acc2_eq (F := Ideal) c (grid0.coords t) (mX t) (hX t) (mW t) (hW t) (mO1 t) (hO1 t) (mO2 t) (hO2 t)
        mA1 (Memref.isWhole_whole _) mA2 (Memref.isWhole_whole _) hc0 hc1 (xblk V c t) (wblk V c t)
        (prevAcc (F := Ideal) V c t).1 (prevAcc (F := Ideal) V c t).2) (ix2 0 j)).trans ?_
      refine (pay5_apply (xblk V c t) (wblk V c t) (prevAcc (F := Ideal) V c t).2 j).trans ?_
      rw [blockSum2 V c t j]

/-- After point n the two rows hold, at position j, the contributions of points 0 to n. -/
theorem acc_eq (c : Dev nD) (j : Fin 64) : ∀ (n : ℕ) (hn : n < cfg0.N),
    (accAt (F := Ideal) V c n hn).1 (ix2 0 j) = ∑ t ∈ Finset.range (n + 1), add1 V c j t
      ∧ (accAt (F := Ideal) V c n hn).2 (ix2 0 j) = ∑ t ∈ Finset.range (n + 1), add2 V c j t
  | 0, hn => by
    have hl : ¬isLast (grid0.coords (⟨0, hn⟩ : Fin cfg0.N)) := fun h => by
      have := (isLast_iff ⟨0, hn⟩).mp h; dsimp only at this; omega
    have h := acc_first V c ⟨0, hn⟩ ((isFirst_iff ⟨0, hn⟩).mpr (Nat.zero_mod _)) hl j
    rw [Finset.sum_range_one, Finset.sum_range_one]
    exact h
  | n + 1, hn => by
    have hN : n + 1 < 32 := lt_of_lt_of_eq hn N0_eq
    have hnf : ¬isFirst (grid0.coords (⟨n + 1, hn⟩ : Fin cfg0.N)) := fun h => by
      have := (isFirst_iff ⟨n + 1, hn⟩).mp h; dsimp only at this; omega
    have h := acc_next V c ⟨n + 1, hn⟩ hnf j
    have ih := acc_eq c j n (Nat.lt_of_succ_lt hn)
    rw [Finset.sum_range_succ _ (n + 1), Finset.sum_range_succ _ (n + 1), ← ih.1, ← ih.2]
    exact h
end Accumulation

/-! ## The output rows: written back once, by the last point, from the accumulators -/

section Output
variable (V : (c : Dev nD) → (b : Ref sig .tc) → Buf (Elt Ideal) ((c : Thread nD τ).loc b))

theorem lastLt : 31 < cfg0.N := lt_of_lt_of_eq (by decide : 31 < 32) N0_eq.symm
/-- The last of the 32 points. -/
def lastT : Fin cfg0.N := ⟨31, lastLt⟩

/-- What the two accumulators hold after the last point. -/
abbrev fin1 (c : Dev nD) : S1x64.Idx → EReal := (accAt (F := Ideal) V c 31 lastLt).1
abbrev fin2 (c : Dev nD) : S1x64.Idx → EReal := (accAt (F := Ideal) V c 31 lastLt).2

theorem accAt_last_pt (c : Dev nD) (t : Fin cfg0.N) (h31 : t.val = 31) :
    accAt (F := Ideal) V c t.val t.isLt = accAt (F := Ideal) V c 31 lastLt := by
  obtain ⟨n, hn⟩ := t
  dsimp only at h31
  subst h31
  rfl

/-- At the last point each output row is stored with the very row the accumulator is left with. -/
theorem out_eq (c : Dev nD) (t : Fin cfg0.N) (h31 : t.val = 31) :
    (outAt (F := Ideal) V c t).1 = fin1 V c ∧ (outAt (F := Ideal) V c t).2 = fin2 V c := by
  have hl : isLast (grid0.coords t) := (isLast_iff t).mpr (by rw [h31])
  have hnf : ¬isFirst (grid0.coords t) := fun h => by have := (isFirst_iff t).mp h; omega
  show _ = (accAt (F := Ideal) V c 31 lastLt).1 ∧ _ = (accAt (F := Ideal) V c 31 lastLt).2
  rw [← accAt_last_pt V c t h31, outAt_last V c t hnf hl, accAt_last V c t hnf hl]
  dsimp only
  constructor
  · exact (last_out1_eq (F := Ideal) c (grid0.coords t) (mX t) (hX t) (mW t) (hW t) (mO1 t) (hO1 t) (mO2 t) (hO2 t)
      mA1 (Memref.isWhole_whole _) mA2 (Memref.isWhole_whole _) hnf hl (xblk V c t) (wblk V c t)
      (prevAcc (F := Ideal) V c t).1 (prevAcc (F := Ideal) V c t).2).trans
      (last_acc1_eq (F := Ideal) c (grid0.coords t) (mX t) (hX t) (mW t) (hW t) (mO1 t) (hO1 t) (mO2 t) (hO2 t)
      mA1 (Memref.isWhole_whole _) mA2 (Memref.isWhole_whole _) hnf hl (xblk V c t) (wblk V c t)
      (prevAcc (F := Ideal) V c t).1 (prevAcc (F := Ideal) V c t).2).symm
  · exact (last_out2_eq (F := Ideal) c (grid0.coords t) (mX t) (hX t) (mW t) (hW t) (mO1 t) (hO1 t) (mO2 t) (hO2 t)
      mA1 (Memref.isWhole_whole _) mA2 (Memref.isWhole_whole _) hnf hl (xblk V c t) (wblk V c t)
      (prevAcc (F := Ideal) V c t).1 (prevAcc (F := Ideal) V c t).2).trans
      (last_acc2_eq (F := Ideal) c (grid0.coords t) (mX t) (hX t) (mW t) (hW t) (mO1 t) (hO1 t) (mO2 t) (hO2 t)
      mA1 (Memref.isWhole_whole _) mA2 (Memref.isWhole_whole _) hnf hl (xblk V c t) (wblk V c t)
      (prevAcc (F := Ideal) V c t).1 (prevAcc (F := Ideal) V c t).2).symm

/-- The one write-back of the first output row writes the final sum row: its block is the whole [1, 64] array. -/
theorem flushed1_eq (c : Dev nD) (t : Fin cfg0.N) (hf : (cfg0.win 2).flush t = true) :
    (dat0 (F := Ideal) V c).flushed 2 t = ((cfg0.win 2).blk t).view.read (Elt Ideal) (fin1 V c) := by
  have hN : t.val < 32 := lt_of_lt_of_eq t.isLt N0_eq
  have h31 : t.val = 31 := by have := (flush0_2 t).mp hf; omega
  show (cfg0.win 2).cut (grid0.coords t) ((dat0 (F := Ideal) V c).after 2 t) = _
  rw [dat0_after2, (out_eq V c t h31).1]
  have hz' : (fun a => win0_2.index t a * main_v2_0.ty.shape.size a) = fun _ => 0 := funext fun (a : Fin 2) => by
    match a with
    | ⟨0, _⟩ => show win0_2.index t 0 * 1 = 0; rw [(idx2_facts t).1]
    | ⟨1, _⟩ => show win0_2.index t 1 * 64 = 0; rw [(idx2_facts t).2]
  exact (Memref.read_access_unit_zero (Elt Ideal) main_v2_0 hz' (fun a => by rw [congrFun hz' a]; simp) (fin1 V c)).symm

theorem flushed2_eq (c : Dev nD) (t : Fin cfg0.N) (hf : (cfg0.win 3).flush t = true) :
    (dat0 (F := Ideal) V c).flushed 3 t = ((cfg0.win 3).blk t).view.read (Elt Ideal) (fin2 V c) := by
  have hN : t.val < 32 := lt_of_lt_of_eq t.isLt N0_eq
  have h31 : t.val = 31 := by have := (flush0_3 t).mp hf; omega
  show (cfg0.win 3).cut (grid0.coords t) ((dat0 (F := Ideal) V c).after 3 t) = _
  rw [dat0_after3, (out_eq V c t h31).2]
  have hz' : (fun a => win0_3.index t a * main_v2_1.ty.shape.size a) = fun _ => 0 := funext fun (a : Fin 2) => by
    match a with
    | ⟨0, _⟩ => show win0_3.index t 0 * 1 = 0; rw [(idx3_facts t).1]
    | ⟨1, _⟩ => show win0_3.index t 1 * 64 = 0; rw [(idx3_facts t).2]
  exact (Memref.read_access_unit_zero (Elt Ideal) main_v2_1 hz' (fun a => by rw [congrFun hz' a]; simp) (fin2 V c)).symm

/-- So each output array ends holding the accumulator's final row. -/
theorem final1 (c : Dev nD) : (dat0 (F := Ideal) V c).arrAt 2 cfg0.N = fin1 V c :=
  (dat0 (F := Ideal) V c).arrAt_eq_of_cover 2 (fin1 V c) (flushed1_eq V c) fun i =>
    ⟨lastT, (flush0_2 lastT).mpr rfl, by
      show i ∈ ((View.whole main_v2_0).slice (win0_2.rect lastT)).set
      rw [View.set_slice_whole, Rect.mem_set_unit]
      intro a
      have h0 : (i 0 : Nat) < 1 := (i 0).isLt
      have h1 : (i 1 : Nat) < 64 := (i 1).isLt
      match a with
      | ⟨0, _⟩ => show win0_2.index lastT 0 * 1 ≤ (i 0 : Nat) ∧ (i 0 : Nat) < win0_2.index lastT 0 * 1 + 1
                  rw [(idx2_facts lastT).1]; omega
      | ⟨1, _⟩ => show win0_2.index lastT 1 * 64 ≤ (i 1 : Nat) ∧ (i 1 : Nat) < win0_2.index lastT 1 * 64 + 64
                  rw [(idx2_facts lastT).2]; omega⟩

theorem final2 (c : Dev nD) : (dat0 (F := Ideal) V c).arrAt 3 cfg0.N = fin2 V c :=
  (dat0 (F := Ideal) V c).arrAt_eq_of_cover 3 (fin2 V c) (flushed2_eq V c) fun i =>
    ⟨lastT, (flush0_3 lastT).mpr rfl, by
      show i ∈ ((View.whole main_v2_1).slice (win0_3.rect lastT)).set
      rw [View.set_slice_whole, Rect.mem_set_unit]
      intro a
      have h0 : (i 0 : Nat) < 1 := (i 0).isLt
      have h1 : (i 1 : Nat) < 64 := (i 1).isLt
      match a with
      | ⟨0, _⟩ => show win0_3.index lastT 0 * 1 ≤ (i 0 : Nat) ∧ (i 0 : Nat) < win0_3.index lastT 0 * 1 + 1
                  rw [(idx3_facts lastT).1]; omega
      | ⟨1, _⟩ => show win0_3.index lastT 1 * 64 ≤ (i 1 : Nat) ∧ (i 1 : Nat) < win0_3.index lastT 1 * 64 + 64
                  rw [(idx3_facts lastT).2]; omega⟩

/-- The 16384 batch entries are the 32 points' runs of 512. -/
theorem sum_batch {M : Type*} [AddCommMonoid M] (f : Fin 16384 → M) :
    ∑ b : Fin 16384, f b = ∑ t : Fin 32, ∑ bb : Fin 512, f (bat t bb) := by
  rw [← Equiv.sum_comp (finProdFinEquiv (m := 32) (n := 512)) f, Fintype.sum_prod_type]
  refine Finset.sum_congr rfl fun t _ => Finset.sum_congr rfl fun bb _ => congrArg f (Fin.ext ?_)
  show bb.val + 512 * t.val = t.val * 512 + bb.val
  omega
end Output

variable (V : (c : Dev nD) → (b : Ref sig .tc) → Buf (Elt Ideal) ((c : Thread nD τ).loc b))

/-- The two output rows after the region's 32 points. -/
abbrev statsOut1 (c : Dev nD) : S1x64.Idx → EReal := (dat0 (F := Ideal) V c).arrAt 2 cfg0.N
abbrev statsOut2 (c : Dev nD) : S1x64.Idx → EReal := (dat0 (F := Ideal) V c).arrAt 3 cfg0.N

/-- The first output row: per position, the sum over batch and channel of the projection. -/
theorem stats_row1 (c : Dev nD) (j : Fin 64) :
    statsOut1 V c (ix2 0 j) = ∑ b : Fin 16384, ∑ o : Fin 64, projRow V c (Cert.Spec.row b j) o := by
  refine (congrFun (final1 V c) (ix2 0 j)).trans ?_
  refine ((acc_eq V c j 31 lastLt).1).trans ?_
  show ∑ t ∈ Finset.range 32, add1 V c j t = _
  rw [sum_batch (fun b => ∑ o : Fin 64, projRow V c (Cert.Spec.row b j) o), ← Fin.sum_univ_eq_sum_range (add1 V c j) 32]
  refine Finset.sum_congr rfl fun t _ => ?_
  unfold add1
  rw [dif_pos t.isLt]

/-- The second output row: per position, the same sum of the projection's square. -/
theorem stats_row2 (c : Dev nD) (j : Fin 64) :
    statsOut2 V c (ix2 0 j)
      = ∑ b : Fin 16384, ∑ o : Fin 64, projRow V c (Cert.Spec.row b j) o * projRow V c (Cert.Spec.row b j) o := by
  refine (congrFun (final2 V c) (ix2 0 j)).trans ?_
  refine ((acc_eq V c j 31 lastLt).2).trans ?_
  show ∑ t ∈ Finset.range 32, add2 V c j t = _
  rw [sum_batch (fun b => ∑ o : Fin 64, projRow V c (Cert.Spec.row b j) o * projRow V c (Cert.Spec.row b j) o),
    ← Fin.sum_univ_eq_sum_range (add2 V c j) 32]
  refine Finset.sum_congr rfl fun t _ => ?_
  unfold add2
  rw [dif_pos t.isLt]

end Cert.KernelIdeal.Hand

end
-- ==== Proof.MainValue.lean ====
/-
  What the main region leaves in the result array, at the extended reals: at (b, o, p) the larger over the pillar's
  two points n of max(projection * scale(p, n) + shift(p, n), 0), the maximum started from minus infinity.
-/
import proofs.«153306_j41257455845539_1_alg».proof.Proof.MainCase
import proofs.«153306_j41257455845539_1_alg».proof.Proof.Views
import proofs.«153306_j41257455845539_1_alg».proof.Proof.LibPlainDot
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (V : (c : Dev nD) → (b : Ref sig .tc) → Buf (Elt Ideal) ((c : Thread nD τ).loc b))

namespace MainValue

/-! ## The body's arithmetic at one element of the output block -/

/-- Row `bb * 64 + p * 2 + n` of a block of 16384 flattened rows: batch entry `bb` of the block, point `n` of pillar `p`. -/
def rowIn (bb : Fin 256) (p : Fin 32) (n : Fin 2) : Fin 16384 := ⟨bb.val * 64 + p.val * 2 + n.val, by omega⟩

/-- The projection of the block, regrouped as [256, 32, 2, 64], at (bb, p, n, o): row `rowIn bb p n` of the block against
    column `o` of the weight. Changing the operands' format changes nothing at the extended reals. -/
theorem proj_apply (x : Vec Ideal S16384x9 .f32) (w : Vec Ideal S9x64 .f32) (bb : Fin 256) (p : Fin 32) (n : Fin 2) (o : Fin 64) :
    shapeCast S256x32x2x64
        (matmul dot_S16384x9_S9x64_S16384x64_1_0_0_1_n_n none
          (truncf .bf16 (shapeCast S16384x9 x shapeCasts_S16384x9_S16384x9) bitsLt_bf16_f32)
          (truncf .bf16 (shapeCast S9x64 w shapeCasts_S9x64_S9x64) bitsLt_bf16_f32)
          (constant (F := Ideal) S16384x64 .f32 0x00000000#32))
        shapeCasts_S16384x64_S256x32x2x64 (ix4 bb p n o)
      = ∑ k : Fin 9, x (ix2 (rowIn bb p n) k) * w (ix2 k o) := by
  refine (shapeCast_apply _ _ (ix4 bb p n o) (ix2 (rowIn bb p n) o) ?_).trans ?_
  · rw [Shape.rowMajor_val_two, Shape.rowMajor_val_four]
    show (bb.val * 64 + p.val * 2 + n.val) * 64 + o.val = ((bb.val * 32 + p.val) * 2 + n.val) * 64 + o.val
    omega
  refine (Cert.Lib.PlainDot.matmul_zero_apply 16384 9 64 none _ _ (rowIn bb p n) o).trans ?_
  refine Finset.sum_congr rfl fun k _ => ?_
  rw [truncf_apply, truncf_apply, shapeCast_self, shapeCast_self]

/-- A 32 x 2 table regrouped as [1, 32, 2, 1] and repeated over the batch entries and the channels, at (bb, p, n, o): the
    table's entry (p, n). -/
theorem table_apply (sc : Vec Ideal S32x2 .f32) (bb : Fin 256) (p : Fin 32) (n : Fin 2) (o : Fin 64) :
    broadcastTo S256x32x2x64
        (shapeCast S1x32x2x1 (shapeCast S1x32x2x1 (shapeCast S32x2 sc shapeCasts_S32x2_S32x2) shapeCasts_S32x2_S1x32x2x1)
          shapeCasts_S1x32x2x1_S1x32x2x1)
        broadcasts_S1x32x2x1_S256x32x2x64 (ix4 bb p n o)
      = sc (ix2 p n) := by
  refine (broadcastTo_apply _ _ (ix4 bb p n o) (ix4 (0 : Fin 1) p n (0 : Fin 1)) (fun a => ?_)).trans ?_
  · match a with
    | ⟨0, _⟩ => rfl
    | ⟨1, _⟩ => rfl
    | ⟨2, _⟩ => rfl
    | ⟨3, _⟩ => rfl
  rw [shapeCast_self]
  refine (shapeCast_apply _ _ (ix4 (0 : Fin 1) p n (0 : Fin 1)) (ix2 p n) ?_).trans ?_
  · rw [Shape.rowMajor_val_two, Shape.rowMajor_val_four]
    show p.val * 2 + n.val = ((0 * 32 + p.val) * 2 + n.val) * 1 + 0
    omega
  rw [shapeCast_self]

/-- The index a maximum over the pair axis reads, spelt by its coordinates. -/
theorem pairLift (bb : Fin 256) (p : Fin 32) (o : Fin 64) (n : Fin 2) :
    reduces_S256x32x2x64_S256x32x64.lift (ix3 bb p o) n = ix4 bb p n o :=
  funext fun a => Fin.ext (by
    match a with
    | ⟨0, _⟩ => rfl
    | ⟨1, _⟩ => rfl
    | ⟨2, _⟩ => rfl
    | ⟨3, _⟩ => rfl)

/-- A [256, 32, 2, 64] array, read at the index the maximum over the pair axis takes for point `n` of (bb, p, o),
    is the array at (bb, p, n, o). -/
theorem pairComp {α : Type} (f : S256x32x2x64.Idx → α) (bb : Fin 256) (p : Fin 32) (o : Fin 64) (n : Fin 2) :
    (f ∘ reduces_S256x32x2x64_S256x32x64.lift (ix3 bb p o)) n = f (ix4 bb p n o) :=
  congrArg f (pairLift bb p o n)

/-- The body's stored value at (bb, o, p) of the output block: the larger, over the two points n of pillar p and starting
    from minus infinity, of the projection of row `rowIn bb p n` onto channel o, scaled and shifted by the tables' entries
    (p, n), clamped below at zero. -/
theorem pay_apply (x : Vec Ideal S16384x9 .f32) (w : Vec Ideal S9x64 .f32) (sc sh : Vec Ideal S32x2 .f32)
    (bb : Fin 256) (o : Fin 64) (p : Fin 32) :
    k1_pay1 x w sc sh (ix3 bb o p)
      = (Finset.univ : Finset (Fin 2)).fold max (Ideal.ofBits .f32 0xFF800000#32) (fun n =>
          max ((∑ k : Fin 9, x (ix2 (rowIn bb p n) k) * w (ix2 k o)) * sc (ix2 p n) + sh (ix2 p n))
            (Ideal.ofBits .f32 0x00000000#32)) := by
  unfold k1_pay1
  dsimp only
  refine (transpose_ix3_021_apply _ _ bb o p).trans ?_
  refine (Ideal.multiReduction_maximumf_single _ _ _ _ _ (ix3 bb p o)).trans ?_
  show (Finset.univ : Finset (Fin 2)).fold max (Ideal.ofBits .f32 0xFF800000#32) _ = _
  refine congrArg ((Finset.univ : Finset (Fin 2)).fold max (Ideal.ofBits .f32 0xFF800000#32)) (funext fun (n : Fin 2) => ?_)
  refine (pairComp _ bb p o n).trans ?_
  rw [maximumf_apply, addf_apply, mulf_apply, broadcast_apply, proj_apply, table_apply, table_apply]
  rfl

/-! ## From the blocks to the result array -/

/-- The result at (b, o, p), as a function of the region's four input arrays. -/
def mainAt (c : Dev nD) (b : Fin 16384) (o : Fin 64) (p : Fin 32) : EReal :=
  (Finset.univ : Finset (Fin 2)).fold max Cert.Spec.ninf (fun n =>
    max (projRow V c (Cert.Spec.row b (Cert.Spec.pos p n)) o * vScale V c (ix2 p n) + vShift V c (ix2 p n)) Cert.Spec.zero)

/-- The whole result array, index by index. -/
def mainArr (c : Dev nD) : S16384x64x32.Idx → EReal := fun i => mainAt V c (i 0) (i 1) (i 2)

/-- The four input blocks at point `t`, each at its literal type. -/
abbrev rowsBlk (c : Dev nD) (t : Fin cfg1.N) : S16384x9.Idx → EReal := blk1 (F := Ideal) V c 0 t
abbrev wtBlk (c : Dev nD) (t : Fin cfg1.N) : S9x64.Idx → EReal := blk1 (F := Ideal) V c 1 t
abbrev scaleBlk (c : Dev nD) (t : Fin cfg1.N) : S32x2.Idx → EReal := blk1 (F := Ideal) V c 2 t
abbrev shiftBlk (c : Dev nD) (t : Fin cfg1.N) : S32x2.Idx → EReal := blk1 (F := Ideal) V c 3 t

theorem zeros2 : (![0, 0] : Fin 2 → Nat) = fun _ => 0 := funext fun a => by fin_cases a <;> rfl
theorem zeros3 : (![0, 0, 0] : Fin 3 → Nat) = fun _ => 0 := funext fun a => by fin_cases a <;> rfl

/-- The windows' index maps at every point of the grid: the rows' block and the output's block are block `t` along axis 0;
    the weight and the two tables are taken whole at every point. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- Row `r` of the rows' block at point `t` is row `t * 16384 + r` of the flattened input. -/
theorem rowsBlk_apply (c : Dev nD) (t : Fin cfg1.N) (r : Fin 16384) (k : Fin 9) (R : Fin 1048576)
    (hR : R.val = t.val * 16384 + r.val) :
    rowsBlk V c t (ix2 r k) = vRows V c (ix2 R k) := by
  obtain ⟨e0, e1, -⟩ := blockIndices t
  show ((cfg1.win 0).blk t).view.read (Elt Ideal) (V c (Pipeline.arrRef spec1 0)) (ix2 r k) = V c main_v0 (ix2 R k)
  rw [View.read_apply]
  show V c main_v0 _ = V c main_v0 _
  refine congrArg (V c main_v0) (funext fun a => Fin.ext ?_)
  match a with
  | ⟨0, _⟩ => show win1_0.index t (0 : Fin 2) * 16384 + 1 * r.val = R.val; omega
  | ⟨1, _⟩ => show win1_0.index t (1 : Fin 2) * 9 + 1 * k.val = k.val; omega

/-- The weight's block is the weight. -/
theorem wtBlk_apply (c : Dev nD) (t : Fin cfg1.N) (k : Fin 9) (o : Fin 64) :
    wtBlk V c t (ix2 k o) = vWt V c (ix2 k o) := by
  obtain ⟨-, -, e0, e1, -⟩ := blockIndices t
  show ((cfg1.win 1).blk t).view.read (Elt Ideal) (V c (Pipeline.arrRef spec1 1)) (ix2 k o) = V c main_v1 (ix2 k o)
  rw [View.read_apply]
  show V c main_v1 _ = V c main_v1 _
  refine congrArg (V c main_v1) (funext fun a => Fin.ext ?_)
  match a with
  | ⟨0, _⟩ => show win1_1.index t (0 : Fin 2) * 9 + 1 * k.val = k.val; omega
  | ⟨1, _⟩ => show win1_1.index t (1 : Fin 2) * 64 + 1 * o.val = o.val; omega

/-- The scale table's block is the table. -/
theorem scaleBlk_apply (c : Dev nD) (t : Fin cfg1.N) (p : Fin 32) (n : Fin 2) :
    scaleBlk V c t (ix2 p n) = vScale V c (ix2 p n) := by
  obtain ⟨-, -, -, -, e0, e1, -⟩ := blockIndices t
  show ((cfg1.win 2).blk t).view.read (Elt Ideal) (V c (Pipeline.arrRef spec1 2)) (ix2 p n) = V c main_v15 (ix2 p n)
  rw [View.read_apply]
  show V c main_v15 _ = V c main_v15 _
  refine congrArg (V c main_v15) (funext fun a => Fin.ext ?_)
  match a with
  | ⟨0, _⟩ => show win1_2.index t (0 : Fin 2) * 32 + 1 * p.val = p.val; omega
  | ⟨1, _⟩ => show win1_2.index t (1 : Fin 2) * 2 + 1 * n.val = n.val; omega

/-- The shift table's block is the table. -/
theorem shiftBlk_apply (c : Dev nD) (t : Fin cfg1.N) (p : Fin 32) (n : Fin 2) :
    shiftBlk V c t (ix2 p n) = vShift V c (ix2 p n) := by
  obtain ⟨-, -, -, -, -, -, e0, e1, -⟩ := blockIndices t
  show ((cfg1.win 3).blk t).view.read (Elt Ideal) (V c (Pipeline.arrRef spec1 3)) (ix2 p n) = V c main_v19 (ix2 p n)
  rw [View.read_apply]
  show V c main_v19 _ = V c main_v19 _
  refine congrArg (V c main_v19) (funext fun a => Fin.ext ?_)
  match a with
  | ⟨0, _⟩ => show win1_3.index t (0 : Fin 2) * 32 + 1 * p.val = p.val; omega
  | ⟨1, _⟩ => show win1_3.index t (1 : Fin 2) * 2 + 1 * n.val = n.val; omega

/-- The body's stored value at element `j` of the output block of point `t` is the result at the array index `i` that
    element sits at: batch entry `t * 256 + j 0`, the other two coordinates unchanged. -/
theorem block_elem (c : Dev nD) (t : Fin cfg1.N) (j : S256x64x32.Idx) (i : S16384x64x32.Idx)
    (h0 : (i 0).val = t.val * 256 + (j 0).val) (h1 : (i 1).val = (j 1).val) (h2 : (i 2).val = (j 2).val) :
    k1_pay1 (F := Ideal) (rowsBlk V c t) (wtBlk V c t) (scaleBlk V c t) (shiftBlk V c t) j = mainArr V c i := by
  obtain ⟨bb, o, p, rfl⟩ : ∃ (bb : Fin 256) (o : Fin 64) (p : Fin 32), j = ix3 bb o p := ⟨j 0, j 1, j 2, eq_ix3 j⟩
  obtain ⟨b, o', p', rfl⟩ : ∃ (b : Fin 16384) (o' : Fin 64) (p' : Fin 32), i = ix3 b o' p' := ⟨i 0, i 1, i 2, eq_ix3 i⟩
  obtain rfl : o' = o := Fin.ext h1
  obtain rfl : p' = p := Fin.ext h2
  have hb : b.val = t.val * 256 + bb.val := h0
  refine (pay_apply (rowsBlk V c t) (wtBlk V c t) (scaleBlk V c t) (shiftBlk V c t) bb o' p').trans ?_
  show _ = mainAt V c b o' p'
  unfold mainAt Cert.Spec.ninf Cert.Spec.zero projRow
  refine congrArg ((Finset.univ : Finset (Fin 2)).fold max (Ideal.ofBits .f32 0xFF800000#32)) (funext fun n => ?_)
  rw [scaleBlk_apply, shiftBlk_apply]
  refine congrArg (fun s => max (s * vScale V c (ix2 p' n) + vShift V c (ix2 p' n)) (Ideal.ofBits .f32 0x00000000#32)) ?_
  refine Finset.sum_congr rfl fun k _ => ?_
  rw [wtBlk_apply, rowsBlk_apply V c t (rowIn bb p' n) k (Cert.Spec.row b (Cert.Spec.pos p' n))
    (by show b.val * 64 + (p'.val * 2 + n.val) = t.val * 16384 + (bb.val * 64 + p'.val * 2 + n.val); omega)]

/-- What point `t` writes back is block `t` of the result array. -/
theorem main_flushed (c : Dev nD) (t : Fin cfg1.N) :
    (dat1 (F := Ideal) V c).flushed 4 t = ((cfg1.win 4).blk t).view.read (Elt Ideal) (mainArr V c) := by
  show (cfg1.win 4).cut (grid1.coords t) ((dat1 (F := Ideal) V c).after 4 t) = _
  rw [dat1_after4]
  unfold outBlock
  rw [View.canon_unit_zero zeros3]
  simp only [View.ld_unit_zero (S := S16384x9) zeros2, View.ld_unit_zero (S := S9x64) zeros2, View.ld_unit_zero (S := S32x2) zeros2]
  obtain ⟨-, -, -, -, -, -, -, -, e0, e1, e2⟩ := blockIndices t
  funext j
  show k1_pay1 (F := Ideal) (rowsBlk V c t) (wtBlk V c t) (scaleBlk V c t) (shiftBlk V c t) ((cfg1.win 4).xinj (grid1.coords t) j)
    = mainArr V c (((cfg1.win 4).blk t).view.emb j)
  refine block_elem V c t ((cfg1.win 4).xinj (grid1.coords t) j) (((cfg1.win 4).blk t).view.emb j) ?_ ?_ ?_
  · show win1_4.index t (0 : Fin 3) * 256 + 1 * (j 0).val = t.val * 256 + (j 0).val; omega
  · show win1_4.index t (1 : Fin 3) * 64 + 1 * (j 1).val = (j 1).val; omega
  · show win1_4.index t (2 : Fin 3) * 32 + 1 * (j 2).val = (j 2).val; omega

/-- An index of the result array is in point `t`'s block iff each coordinate is in the block's range on its axis. -/
theorem main_mem_blk (t : Fin cfg1.N) (i : S16384x64x32.Idx) :
    i ∈ ((cfg1.win 4).blk t).view.set ↔ ∀ a : Fin 3, win1_4.index t a * S256x64x32.size a ≤ (i a).val
      ∧ (i a).val < win1_4.index t a * S256x64x32.size a + S256x64x32.size a := by
  show i ∈ ((View.whole main_v20).slice (win1_4.rect t)).set ↔ _
  rw [View.set_slice_whole, Rect.mem_set_unit]
  exact Iff.rfl

/-- Every index of the result array is in the block of the point its batch entry falls in: entry `b` in point `b / 256`. -/
theorem main_cover (i : S16384x64x32.Idx) :
    ∃ t : Fin cfg1.N, (cfg1.win 4).flush t = true ∧ i ∈ ((cfg1.win 4).blk t).view.set := by
  have hi0 : (i 0).val < 16384 := (i 0).isLt
  have hi1 : (i 1).val < 64 := (i 1).isLt
  have hi2 : (i 2).val < 32 := (i 2).isLt
  have hN : cfg1.N = 64 := N_1
  obtain ⟨t, ht⟩ : ∃ t : Fin cfg1.N, t.val = (i 0).val / 256 := ⟨⟨(i 0).val / 256, by rw [hN]; omega⟩, rfl⟩
  obtain ⟨-, -, -, -, -, -, -, -, e0, e1, e2⟩ := blockIndices t
  refine ⟨t, flush1_4 t, ?_⟩
  rw [main_mem_blk]
  intro a
  match a with
  | ⟨0, _⟩ => show win1_4.index t (0 : Fin 3) * 256 ≤ (i 0).val ∧ (i 0).val < win1_4.index t (0 : Fin 3) * 256 + 256; omega
  | ⟨1, _⟩ => show win1_4.index t (1 : Fin 3) * 64 ≤ (i 1).val ∧ (i 1).val < win1_4.index t (1 : Fin 3) * 64 + 64; omega
  | ⟨2, _⟩ => show win1_4.index t (2 : Fin 3) * 32 ≤ (i 2).val ∧ (i 2).val < win1_4.index t (2 : Fin 3) * 32 + 32; omega

/-- The result array after the region's 64 points, as one function of the four input arrays. -/
theorem main_final (c : Dev nD) : (dat1 (F := Ideal) V c).arrAt 4 cfg1.N = mainArr V c :=
  (dat1 (F := Ideal) V c).arrAt_eq_of_cover 4 (mainArr V c) (fun t _ => main_flushed V c t) main_cover

end MainValue

/-- The result array after the region's 64 points. -/
abbrev mainOut (c : Dev nD) : S16384x64x32.Idx → EReal := (dat1 (F := Ideal) V c).arrAt 4 cfg1.N

/-- The result array at one index. -/
theorem main_out (c : Dev nD) (b : Fin 16384) (o : Fin 64) (p : Fin 32) :
    mainOut V c (ix3 b o p)
      = (Finset.univ : Finset (Fin 2)).fold max Cert.Spec.ninf (fun n =>
          max (projRow V c (Cert.Spec.row b (Cert.Spec.pos p n)) o * vScale V c (ix2 p n) + vShift V c (ix2 p n)) Cert.Spec.zero) :=
  congrFun (MainValue.main_final V c) (ix3 b o p)

end Cert.KernelIdeal.Hand

end
-- ==== Proof.KernelValue.lean ====
/-
  The kernel program's result array, at the extended reals, is the specification's kernel form of the arguments:
  the main region's result read at (b, o, p), with the flattened rows and the transposed weight read back to the
  arguments, the two tables read back to the statistics region's two rows of sums, and those to the double sums.
-/
import proofs.«153306_j41257455845539_1_alg».proof.Proof.HostValue
import proofs.«153306_j41257455845539_1_alg».proof.Proof.StatsValue
import proofs.«153306_j41257455845539_1_alg».proof.Proof.MainValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ)

/-- The projection the main region forms is the one the statistics region formed: both read the first stretch's arrays. -/
theorem projRow_keep (c : Dev nD) (r : Fin 1048576) (o : Fin 64) : projRow (U3 m) c r o = projRow (U1 m) c r o := by
  unfold projRow
  rw [keep_rows, keep_wt]

/-- The first row of sums, per position, is the specification's sum of the projection. -/
theorem sum1_eq (c : Dev nD) (p : Fin 32) (n : Fin 2) :
    sOut1 m c (ix2 0 (Cert.Spec.pos p n)) = Cert.Spec.sum1 (aIn m c) (aW m c) p n := by
  show statsOut1 (U1 m) c (ix2 0 (Cert.Spec.pos p n)) = _
  rw [stats_row1]
  unfold Cert.Spec.sum1
  exact Finset.sum_congr rfl fun b _ => Finset.sum_congr rfl fun o _ => projRow_eq m c b p n o

/-- The second row of sums, per position, is the specification's sum of the projection's square. -/
theorem sum2_eq (c : Dev nD) (p : Fin 32) (n : Fin 2) :
    sOut2 m c (ix2 0 (Cert.Spec.pos p n)) = Cert.Spec.sum2 (aIn m c) (aW m c) p n := by
  show statsOut2 (U1 m) c (ix2 0 (Cert.Spec.pos p n)) = _
  rw [stats_row2]
  unfold Cert.Spec.sum2
  exact Finset.sum_congr rfl fun b _ => Finset.sum_congr rfl fun o _ => by rw [projRow_eq m c b p n o]

theorem mean_eq (c : Dev nD) (p : Fin 32) (n : Fin 2) :
    meanT (sOut1 m c) (ix1 (Cert.Spec.pos p n)) = Cert.Spec.mean (aIn m c) (aW m c) p n := by
  rw [meanT_at, sum1_eq]; rfl

theorem inv_eq (c : Dev nD) (p : Fin 32) (n : Fin 2) :
    invT (sOut1 m c) (sOut2 m c) (ix1 (Cert.Spec.pos p n)) = Cert.Spec.kinv (aIn m c) (aW m c) p n := by
  rw [invT_at, mean_eq, sum2_eq]; rfl

/-- The kernel program's result at (b, o, p). -/
theorem kernel_out (c : Dev nD) (b : Fin 16384) (o : Fin 64) (p : Fin 32) :
    mainOut (U3 m) c (ix3 b o p)
      = Cert.Spec.kout (aIn m c) (aW m c) (aGamma m c) (aBeta m c) b o p := by
  rw [main_out]
  unfold Cert.Spec.kout Cert.Spec.kelem Cert.Spec.kscale Cert.Spec.kshift
  refine congrArg (fun f => (Finset.univ : Finset (Fin 2)).fold max Cert.Spec.ninf f) (funext fun n => ?_)
  rw [projRow_keep, projRow_eq, scale_at, shift_at, inv_eq, mean_eq]

end Cert.KernelIdeal.Hand

end
-- ==== Proof.RefValue.lean ====
/-
  The reference program read at one index of its result.

  The reference flattens the projected array (batch, channel, pillar, point) to 2^20 rows by 64 columns: row
  b * 64 + o holds batch entry b and channel o, column p * 2 + n holds point n of pillar p. Its mean and its
  variance of a column are sums over the 2^20 rows; a sum over the rows is the double sum over batch entries and
  channels, because (b, o) to b * 64 + o is a bijection onto the rows. The result at (b, o, p) is the larger over
  the pillar's two points of the normalised, scaled, shifted projection clamped below at zero.
-/
import proofs.«153306_j41257455845539_1_alg».proof.Proof.Gen.ReferenceIdeal.Run
import proofs.«153306_j41257455845539_1_alg».proof.Proof.Gen.ReferenceIdeal.Read
import proofs.«153306_j41257455845539_1_alg».proof.Proof.Spec
import Mathlib.Algebra.BigOperators.Group.Finset.Defs
import Mathlib.Algebra.BigOperators.Group.Finset.Basic
import Mathlib.Data.Fintype.BigOperators

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ### The rows of the flattened array -/

/-- The row of batch entry `b` and channel `o` among the 2^20 rows. -/
def bo (b : Fin 16384) (o : Fin 64) : Fin 1048576 := ⟨b.val * 64 + o.val, by omega⟩

/-- Batch entry and channel to row is a bijection: a row `q` is batch entry `q / 64`, channel `q % 64`. -/
def boEquiv : Fin 16384 × Fin 64 ≃ Fin 1048576 where
  toFun x := bo x.1 x.2
  invFun q := (⟨q.val / 64, by omega⟩, ⟨q.val % 64, by omega⟩)
  left_inv x := by
    obtain ⟨b, o⟩ := x
    refine Prod.ext (Fin.ext ?_) (Fin.ext ?_)
    · show (b.val * 64 + o.val) / 64 = b.val
      omega
    · show (b.val * 64 + o.val) % 64 = o.val
      omega
  right_inv q := Fin.ext (by
    show q.val / 64 * 64 + q.val % 64 = q.val
    omega)

/-- A sum over the rows is the double sum over batch entries and channels. -/
theorem sum_rows {M : Type} [AddCommMonoid M] (f : Fin 1048576 → M) :
    ∑ k : Fin 1048576, f k = ∑ b : Fin 16384, ∑ o : Fin 64, f (bo b o) := by
  rw [← Equiv.sum_comp boEquiv f, Fintype.sum_prod_type]
  rfl

/-! ### The composed index maps, by coordinates -/

/-- Position (b, o, p, n) of the four-axis array lies in row `b * 64 + o`, column `p * 2 + n`. -/
theorem idx29 (b : Fin 16384) (o : Fin 64) (p : Fin 32) (n : Fin 2) :
    idx_main_v29 (ix4 b o p n) = ix2 (bo b o) (Cert.Spec.pos p n) := by
  funext a
  refine Fin.ext ?_
  match a with
  | ⟨0, _⟩ =>
    show (((b.val * 64 + o.val) * 32 + p.val) * 2 + n.val) / 64 = b.val * 64 + o.val
    omega
  | ⟨1, _⟩ =>
    show (((b.val * 64 + o.val) * 32 + p.val) * 2 + n.val) % 64 = p.val * 2 + n.val
    omega

/-- Row `b * 64 + o`, column `p * 2 + n` is position (b, o, p, n) of the four-axis array. -/
theorem idx2 (b : Fin 16384) (o : Fin 64) (p : Fin 32) (n : Fin 2) :
    idx_main_v2 (ix2 (bo b o) (Cert.Spec.pos p n)) = ix4 b o p n := by
  funext a
  refine Fin.ext ?_
  match a with
  | ⟨0, _⟩ =>
    show ((b.val * 64 + o.val) * 64 + (p.val * 2 + n.val)) / 4096 = b.val
    omega
  | ⟨1, _⟩ =>
    show ((b.val * 64 + o.val) * 64 + (p.val * 2 + n.val)) / 64 % 64 = o.val
    omega
  | ⟨2, _⟩ =>
    show ((b.val * 64 + o.val) * 64 + (p.val * 2 + n.val)) / 2 % 32 = p.val
    omega
  | ⟨3, _⟩ =>
    show ((b.val * 64 + o.val) * 64 + (p.val * 2 + n.val)) % 2 = n.val
    omega

/-- The transposition (b, p, n, o) to (b, o, p, n), read backwards. -/
theorem idx1 (b : Fin 16384) (o : Fin 64) (p : Fin 32) (n : Fin 2) :
    idx_main_v1 (ix4 b o p n) = ix4 b p n o := by
  funext a
  refine Fin.ext ?_
  match a with
  | ⟨0, _⟩ => rfl
  | ⟨1, _⟩ => rfl
  | ⟨2, _⟩ => rfl
  | ⟨3, _⟩ => rfl

/-- The contraction's left operand at (b, p, n, o) and feature `k` is the input at (b, p, n, k). -/
theorem lidx0 (b : Fin 16384) (o : Fin 64) (p : Fin 32) (n : Fin 2) (k : Fin 9) :
    lidx_main_v0 (ix4 b p n o) k = ix4 b p n k := by
  funext a
  refine Fin.ext ?_
  match a with
  | ⟨0, _⟩ => rfl
  | ⟨1, _⟩ => rfl
  | ⟨2, _⟩ => rfl
  | ⟨3, _⟩ => rfl

/-- The contraction's right operand at (b, p, n, o) and feature `k` is the weight at (o, k). -/
theorem ridx0 (b : Fin 16384) (o : Fin 64) (p : Fin 32) (n : Fin 2) (k : Fin 9) :
    ridx_main_v0 (ix4 b p n o) k = ix2 o k := by
  funext a
  refine Fin.ext ?_
  match a with
  | ⟨0, _⟩ => rfl
  | ⟨1, _⟩ => rfl

/-- A column's sum runs over the rows of that column. -/
theorem idx3 (j : Fin 64) (k : Fin 1048576) : idx_main_v3 (ix1 j) k = ix2 k j := by
  funext a
  refine Fin.ext ?_
  match a with
  | ⟨0, _⟩ => rfl
  | ⟨1, _⟩ => rfl

theorem idx10 (j : Fin 64) (k : Fin 1048576) : idx_main_v10 (ix1 j) k = ix2 k j := by
  funext a
  refine Fin.ext ?_
  match a with
  | ⟨0, _⟩ => rfl
  | ⟨1, _⟩ => rfl

/-- A per-column vector spread over the rows is read at the column. -/
theorem idx67 (k : Fin 1048576) (j : Fin 64) : idx_main_v6 (idx_main_v7 (ix2 k j)) = ix1 j := by
  funext a
  refine Fin.ext ?_
  match a with
  | ⟨0, _⟩ => rfl

theorem idx1314 (k : Fin 1048576) (j : Fin 64) : idx_main_v13 (idx_main_v14 (ix2 k j)) = ix1 j := by
  funext a
  refine Fin.ext ?_
  match a with
  | ⟨0, _⟩ => rfl

theorem idx1920 (k : Fin 1048576) (j : Fin 64) : idx_main_v19 (idx_main_v20 (ix2 k j)) = ix1 j := by
  funext a
  refine Fin.ext ?_
  match a with
  | ⟨0, _⟩ => rfl

theorem idx2223 (k : Fin 1048576) (j : Fin 64) : idx_main_v22 (idx_main_v23 (ix2 k j)) = ix1 j := by
  funext a
  refine Fin.ext ?_
  match a with
  | ⟨0, _⟩ => rfl

theorem idx2526 (k : Fin 1048576) (j : Fin 64) : idx_main_v25 (idx_main_v26 (ix2 k j)) = ix1 j := by
  funext a
  refine Fin.ext ?_
  match a with
  | ⟨0, _⟩ => rfl

/-! ### The stages, read at an index -/

section
variable (x0 : (⟨S16384x32x2x9, .f32⟩ : BufTy).Contents (Elt Ideal)) (x2 : (⟨S64x9, .f32⟩ : BufTy).Contents (Elt Ideal))
  (x3 x4 : (⟨S64, .f32⟩ : BufTy).Contents (Elt Ideal))

/-- The flattened projection at row (b, o), column (p, n) is the projection of point (b, p, n) onto channel o. -/
theorem proj_read (b : Fin 16384) (o : Fin 64) (p : Fin 32) (n : Fin 2) :
    (val_main_v2 (F := Ideal) x0 x2 : S1048576x64.Idx → EReal) (ix2 (bo b o) (Cert.Spec.pos p n))
      = Cert.Spec.proj (x0 : Cert.Spec.SIn.Idx → EReal) (x2 : Cert.Spec.SWt.Idx → EReal) b p n o := by
  rw [val_main_v2_apply, val_main_v1_apply, val_main_v0_apply, idx2, idx1]
  unfold Cert.Spec.proj
  refine Finset.sum_congr rfl fun k _ => ?_
  rw [lidx0, ridx0]

/-- The column's mean: its sum over the rows, from the zero word, divided by the count. -/
theorem mean_read (p : Fin 32) (n : Fin 2) :
    (val_main_v5 (F := Ideal) x0 x2 : S64.Idx → EReal) (ix1 (Cert.Spec.pos p n))
      = Cert.Spec.mean (x0 : Cert.Spec.SIn.Idx → EReal) (x2 : Cert.Spec.SWt.Idx → EReal) p n := by
  rw [val_main_v5_apply, val_main_v3_apply, val_main_v4_apply, val_main_cst_0_apply, val_main_cst_apply,
    Ideal.hostDivf_def, Ideal.ofBits_def, Ideal.ofBits_def, Ideal.ofBits_zero_f32, zero_add, sum_rows]
  unfold Cert.Spec.mean Cert.Spec.sum1 Cert.Spec.cnt
  refine congrArg (fun s => Ideal.div s (Ideal.ofBits .f32 0x49800000#32)) ?_
  refine Finset.sum_congr rfl fun b _ => Finset.sum_congr rfl fun o _ => ?_
  rw [idx3, proj_read]

/-- The column's variance: the sum over the rows of the squared deviations from the mean, divided by the count. -/
theorem var_read (p : Fin 32) (n : Fin 2) :
    (val_main_v12 (F := Ideal) x0 x2 : S64.Idx → EReal) (ix1 (Cert.Spec.pos p n))
      = Cert.Spec.rvar (x0 : Cert.Spec.SIn.Idx → EReal) (x2 : Cert.Spec.SWt.Idx → EReal) p n := by
  rw [val_main_v12_apply, val_main_v10_apply, val_main_v11_apply, val_main_cst_2_apply, val_main_cst_1_apply,
    Ideal.hostDivf_def, Ideal.ofBits_def, Ideal.ofBits_def, Ideal.ofBits_zero_f32, zero_add, sum_rows]
  unfold Cert.Spec.rvar Cert.Spec.cnt
  refine congrArg (fun s => Ideal.div s (Ideal.ofBits .f32 0x49800000#32)) ?_
  refine Finset.sum_congr rfl fun b _ => Finset.sum_congr rfl fun o _ => ?_
  rw [idx10, val_main_v9_apply, val_main_v8_apply, val_main_v7_apply, val_main_v6_apply, idx67, proj_read, mean_read,
    Ideal.mulf_def, Ideal.subf_def]

/-- The column's inverse deviation. -/
theorem rinv_read (p : Fin 32) (n : Fin 2) :
    (val_main_v18 (F := Ideal) x0 x2 : S64.Idx → EReal) (ix1 (Cert.Spec.pos p n))
      = Cert.Spec.rinv (x0 : Cert.Spec.SIn.Idx → EReal) (x2 : Cert.Spec.SWt.Idx → EReal) p n := by
  rw [val_main_v18_apply, val_main_v17_apply, val_main_v16_apply, val_main_cst_3_apply, var_read,
    Ideal.hostUnary_rsqrt_def, Ideal.addf_def, Ideal.ofBits_def]
  rfl

/-- The normalised, scaled, shifted, clamped entry at row (b, o), column (p, n). -/
theorem relem_read (b : Fin 16384) (o : Fin 64) (p : Fin 32) (n : Fin 2) :
    (val_main_v28 (F := Ideal) x0 x2 x3 x4 : S1048576x64.Idx → EReal) (ix2 (bo b o) (Cert.Spec.pos p n))
      = Cert.Spec.relem (x0 : Cert.Spec.SIn.Idx → EReal) (x2 : Cert.Spec.SWt.Idx → EReal)
          (x3 : Cert.Spec.SVec.Idx → EReal) (x4 : Cert.Spec.SVec.Idx → EReal) b p n o := by
  rw [val_main_v28_apply, val_main_call0_v0_apply, val_main_call0_cst_apply, val_main_v27_apply, val_main_v26_apply,
    val_main_v25_apply, idx2526, val_main_v24_apply, val_main_v23_apply, val_main_v22_apply, idx2223,
    val_main_v21_apply, val_main_v20_apply, val_main_v19_apply, idx1920, rinv_read, val_main_v15_apply,
    val_main_v14_apply, val_main_v13_apply, idx1314, mean_read, proj_read,
    Ideal.maximumf_def, Ideal.addf_def, Ideal.mulf_def, Ideal.mulf_def, Ideal.subf_def, Ideal.ofBits_def]
  rfl

end

/-! ### The maximum over a pillar's two points -/

theorem red3 : S16384x64x32x2.Reduces [3] S16384x64x32 := by decide

/-- Result index (b, o, p) with point `n` put back on the last axis. -/
theorem lift3 (b : Fin 16384) (o : Fin 64) (p : Fin 32) (n : Fin 2) :
    red3.lift (ix3 b o p) n = ix4 b o p n := by
  funext a
  refine Fin.ext ?_
  match a with
  | ⟨0, _⟩ => rfl
  | ⟨1, _⟩ => rfl
  | ⟨2, _⟩ => rfl
  | ⟨3, _⟩ => rfl

/-- The reduction by maximum over the last axis, at (b, o, p): the fold of `max` from the initial value over the two points. -/
theorem max_read (y : S16384x64x32x2.Idx → EReal) (init : S_.Idx → EReal) (b : Fin 16384) (o : Fin 64) (p : Fin 32) :
    Host.reduce (FloatOps.maximumf (F := Ideal) (φ := .f32)) y init reducesTo_S16384x64x32x2_S16384x64x32_d3 h_S_ (ix3 b o p)
      = (Finset.univ : Finset (Fin 2)).fold max (init (Shape.Idx.first h_S_)) (fun n => y (ix4 b o p n)) := by
  rw [Host.reduce_eq_fold_single (FloatOps.maximumf (F := Ideal) (φ := .f32)) y init reducesTo_S16384x64x32x2_S16384x64x32_d3 red3 h_S_ (ix3 b o p)]
  have e : (y ∘ red3.lift (ix3 b o p)) = fun n : Fin 2 => y (ix4 b o p n) := funext fun n => congrArg y (lift3 b o p n)
  rw [e]
  rfl

/-- The reference's result at (b, o, p), at the extended reals, is the reference's form of the specification. -/
theorem ref_out (x0 : (⟨S16384x32x2x9, .f32⟩ : BufTy).Contents (Elt Ideal)) (x2 : (⟨S64x9, .f32⟩ : BufTy).Contents (Elt Ideal))
    (x3 x4 : (⟨S64, .f32⟩ : BufTy).Contents (Elt Ideal)) (b : Fin 16384) (o : Fin 64) (p : Fin 32) :
    (Cert.ReferenceIdeal.Read.val_main_v30 (F := Ideal) x0 x2 x3 x4 : S16384x64x32.Idx → EReal) (ix3 b o p)
      = Cert.Spec.rout (x0 : Cert.Spec.SIn.Idx → EReal) (x2 : Cert.Spec.SWt.Idx → EReal) (x3 : Cert.Spec.SVec.Idx → EReal) (x4 : Cert.Spec.SVec.Idx → EReal) b o p := by
  unfold Cert.ReferenceIdeal.Read.val_main_v30
  rw [max_read, val_main_cst_4_apply, Ideal.ofBits_def]
  unfold Cert.Spec.rout Cert.Spec.ninf
  refine congrArg (fun f => (Finset.univ : Finset (Fin 2)).fold max (Ideal.ofBits .f32 0xFF800000#32) f) ?_
  funext n
  rw [val_main_v29_apply, idx29, relem_read]

end Cert.ReferenceIdeal.Hand

end
-- ==== Proof.Algebra.lean ====
/-
  The two forms of the result are one function of finite arguments.
-/
import proofs.«153306_j41257455845539_1_alg».proof.Proof.Spec

noncomputable section

namespace Cert.Spec

open Idealize.ShloMosaic Idealize.ShloMosaic.ValueIdx

/-- The count literal denotes 2^20 = 16384 * 64. -/
theorem cnt_eq : cnt = ((1048576 : ℝ) : EReal) := by
  simp [cnt, Ideal.ofBits, Ideal.ieee, -EReal.coe_mul]; norm_num

/-- The variance offset literal denotes a positive real. -/
theorem eps_pos : ∃ e : ℝ, 0 < e ∧ eps = (e : EReal) := by
  simp [eps, Ideal.ofBits, Ideal.ieee, -EReal.coe_mul]

/-- The coercion of a finite sum of reals is the sum of the coercions. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over a finite family of N reals with mean m: the mean of the squares minus m * m is the mean of the
    squared deviations from m. -/
theorem var_identity {ι : Type*} (s : Finset ι) (x : ι → ℝ) (N : ℝ) (hN : (s.card : ℝ) = N) (hN0 : N ≠ 0) :
    (∑ i ∈ s, x i * x i) * (1 / N) - ((∑ i ∈ s, x i) * (1 / N)) * ((∑ i ∈ s, x i) * (1 / N))
      = (∑ i ∈ s, (x i - (∑ j ∈ s, x j) * (1 / N)) * (x i - (∑ j ∈ s, x j) * (1 / N))) * (1 / N) := by
  obtain ⟨m, hm⟩ : ∃ m : ℝ, m = (∑ j ∈ s, x j) * (1 / N) := ⟨_, rfl⟩
  have hS1 : ∑ j ∈ s, x j = N * m := by rw [hm]; field_simp
  have hexp : ∑ i ∈ s, (x i - m) * (x i - m)
      = (∑ i ∈ s, x i * x i) - 2 * m * (∑ i ∈ s, x i) + N * (m * m) := by
    have h1 : ∀ i, (x i - m) * (x i - m) = x i * x i - 2 * m * x i + m * m := fun i => by ring
    simp only [h1, Finset.sum_add_distrib, Finset.sum_sub_distrib, ← Finset.mul_sum, Finset.sum_const,
      nsmul_eq_mul, hN]
    ring
  rw [← hm, hexp, hS1]
  field_simp
  ring

/-- The same over the 16384 * 64 = 2^20 pairs of a batch entry and a channel. -/
theorem var_real (x : Fin 16384 → Fin 64 → ℝ) :
    (∑ b, ∑ o, x b o * x b o) * (1 / 1048576)
        - ((∑ b, ∑ o, x b o) * (1 / 1048576)) * ((∑ b, ∑ o, x b o) * (1 / 1048576))
      = (∑ b, ∑ o, (x b o - (∑ b, ∑ o, x b o) * (1 / 1048576)) * (x b o - (∑ b, ∑ o, x b o) * (1 / 1048576)))
          * (1 / 1048576) := by
  have h := var_identity (Finset.univ : Finset (Fin 16384 × Fin 64)) (fun q => x q.1 q.2) 1048576
    (by rw [Finset.card_univ, Fintype.card_prod, Fintype.card_fin, Fintype.card_fin]; norm_num) (by norm_num)
  simpa only [Fintype.sum_prod_type] using h

/-- With finite arguments every projection is a real. -/
theorem proj_real (A0 : SIn.Idx → EReal) (A2 : SWt.Idx → EReal) (h0 : Finite A0) (h2 : Finite A2)
    (p : Fin 32) (n : Fin 2) :
    ∃ x : Fin 16384 → Fin 64 → ℝ, ∀ b o, proj A0 A2 b p n o = ((x b o : ℝ) : EReal) := by
  choose a0 ha0 using h0
  choose a2 ha2 using h2
  refine ⟨fun b o => ∑ k : Fin 9, a0 (ix4 b p n k) * a2 (ix2 o k), fun b o => ?_⟩
  simp only [proj, ha0, ha2, ← EReal.coe_mul, sum_coe]

/-- For finite arguments the two forms agree before the maximum over the pillar's points. -/
theorem kelem_eq_relem (A0 : SIn.Idx → EReal) (A2 : SWt.Idx → EReal) (A3 A4 : SVec.Idx → EReal)
    (h0 : Finite A0) (h2 : Finite A2) (h3 : Finite A3) (h4 : Finite A4)
    (b : Fin 16384) (p : Fin 32) (n : Fin 2) (o : Fin 64) :
    kelem A0 A2 A3 A4 b p n o = relem A0 A2 A3 A4 b p n o := by
  obtain ⟨x, hx⟩ := proj_real A0 A2 h0 h2 p n
  obtain ⟨g, hg⟩ := h3 (ix1 (pos p n))
  obtain ⟨β, hβ⟩ := h4 (ix1 (pos p n))
  obtain ⟨e, he, hee⟩ := eps_pos
  have hN : (1048576 : ℝ) ≠ 0 := by norm_num
  -- the mean is the real m
  obtain ⟨m, hm⟩ : ∃ m : ℝ, m = (∑ b, ∑ o, x b o) * (1 / 1048576) := ⟨_, rfl⟩
  have hmean : mean A0 A2 p n = ((m : ℝ) : EReal) := by
    rw [mean, sum1, cnt_eq, Ideal.div_coe hN]
    simp only [hx, sum_coe, ← EReal.coe_mul]
    rw [hm]
  -- the two variances are one real v, and v is not negative
  obtain ⟨v, hv⟩ : ∃ v : ℝ, v = (∑ b, ∑ o, (x b o - m) * (x b o - m)) * (1 / 1048576) := ⟨_, rfl⟩
  have hv0 : 0 ≤ v := by
    rw [hv]
    exact mul_nonneg (Finset.sum_nonneg fun b _ => Finset.sum_nonneg fun o _ => mul_self_nonneg _) (by norm_num)
  have hrvar : rvar A0 A2 p n = ((v : ℝ) : EReal) := by
    rw [rvar, cnt_eq, Ideal.div_coe hN]
    simp only [hx, hmean, ← EReal.coe_sub, ← EReal.coe_mul, sum_coe]
    rw [hv]
  have hkvar : kvar A0 A2 p n = ((v : ℝ) : EReal) := by
    rw [kvar, sum2, hmean, cnt_eq, Ideal.div_coe hN]
    simp only [hx, ← EReal.coe_sub, ← EReal.coe_mul, sum_coe]
    rw [hv, hm, var_real x]
  -- so the inverse deviation is one real s
  have hpos : 0 < v + e := by linarith
  have hinv : Ideal.rsqrt (((v : ℝ) : EReal) + ((e : ℝ) : EReal)) = (((Real.sqrt (v + e))⁻¹ : ℝ) : EReal) := by
    rw [← EReal.coe_add, Ideal.rsqrt_coe, if_neg (not_lt.mpr hpos.le), if_neg hpos.ne']
  have hkinv : kinv A0 A2 p n = (((Real.sqrt (v + e))⁻¹ : ℝ) : EReal) := by rw [kinv, hkvar, hee, hinv]
  have hrinv : rinv A0 A2 p n = (((Real.sqrt (v + e))⁻¹ : ℝ) : EReal) := by rw [rinv, hrvar, hee, hinv]
  -- and the two elements are one real
  rw [kelem, relem, kscale, kshift, hkinv, hrinv, hmean, hx, hg, hβ]
  congr 1
  simp only [← EReal.coe_sub, ← EReal.coe_mul, ← EReal.coe_add]
  congr 1
  ring

/-- For finite arguments the kernel's form and the reference's form agree at every index. -/
theorem kout_eq_rout (A0 : SIn.Idx → EReal) (A2 : SWt.Idx → EReal) (A3 A4 : SVec.Idx → EReal)
    (h0 : Finite A0) (h2 : Finite A2) (h3 : Finite A3) (h4 : Finite A4)
    (b : Fin 16384) (o : Fin 64) (p : Fin 32) :
    kout A0 A2 A3 A4 b o p = rout A0 A2 A3 A4 b o p := by
  have h : (fun n => kelem A0 A2 A3 A4 b p n o) = fun n => relem A0 A2 A3 A4 b p n o :=
    funext fun n => kelem_eq_relem A0 A2 A3 A4 h0 h2 h3 h4 b p n o
  rw [kout, rout, h]

end Cert.Spec

end
-- ==== Proof.PreFinite.lean ====
/-
  From the precondition to finiteness: the printed predicate says, of each float argument, that every entry's absolute
  value is below plus infinity; over the extended reals an entry whose absolute value is below the top element is a real.
-/
import proofs.«153306_j41257455845539_1_alg».proof.Proof.Gen.Pre_finite_inputs
import proofs.«153306_j41257455845539_1_alg».proof.Proof.Spec
import Idealize.ShloMosaic.Lib.ReduceAll
import Idealize.ShloMosaic.PureOps.Ideal.Laws

noncomputable section

namespace Cert.Pre_finite_inputs.Hand

open Idealize.ShloMosaic Idealize.ShloMosaic.ValueIdx Cert.Pre_finite_inputs Cert.Pre_finite_inputs.Gen

instance : Subsingleton S_.Idx := ⟨fun a b => funext fun d => d.elim0⟩

/-- An extended real whose absolute value compares below the value of the plus-infinity word is a real number. -/
theorem real_of_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The precondition at the extended reals makes every float argument finite. -/
theorem finite_of_pre (a0 : FVec Ideal S16384x32x2x9 .f32) (a1 : IVec S16384x32 32) (a2 : FVec Ideal S64x9 .f32)
    (a3 a4 : FVec Ideal S64 .f32) (h : fn (F := Ideal) a0 a1 a2 a3 a4 = fun _ => 1#1) :
    Cert.Spec.Finite a0 ∧ Cert.Spec.Finite a2 ∧ Cert.Spec.Finite a3 ∧ Cert.Spec.Finite a4 := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_lt_inf _ (Host.reduce_andi_all _ _ _ _ _ h1 i)
  · exact real_of_lt_inf _ (Host.reduce_andi_all _ _ _ _ _ h2 i)
  · exact real_of_lt_inf _ (Host.reduce_andi_all _ _ _ _ _ h3 i)
  · exact real_of_lt_inf _ (Host.reduce_andi_all _ _ _ _ _ h4 i)

end Cert.Pre_finite_inputs.Hand

end
-- ==== Proof.lean ====
/-
  The certificate's claim.

  Both kernel programs (the word-level one and its reading over the extended reals) run as: two host operations, the
  statistics region of 32 grid points, twenty host operations, the main region of 64 grid points. Their frames are
  that run with every unscoped buffer read back at the end; the reference's frame is its run with the result dropped.
  The idealization rewrote nothing, so what it must preserve is trivially true. For the value claim, at the extended
  reals the kernel's result is max over the pillar's two points of max(x * (gamma * s) + (beta - (mu * gamma) * s), 0)
  with mu = S1 / N, s = rsqrt(S2 / N - mu * mu + offset) per position, and the reference's is the same maximum of
  max(((x - mu) * s') * gamma + beta, 0) with s' = rsqrt((sum of (x - mu)^2) / N + offset); N = 2^20 is exactly the number
  of values per position, so the two variances are one real number for finite arguments, it is nonnegative, the offset
  is positive, s = s' is a finite real, and the two affine forms agree by distributivity, which needs the finiteness the
  precondition gives.
-/
import proofs.«153306_j41257455845539_1_alg».proof.Defs
import proofs.«153306_j41257455845539_1_alg».proof.Proof.Gen.Kernel
import proofs.«153306_j41257455845539_1_alg».proof.Proof.Gen.KernelIdeal
import proofs.«153306_j41257455845539_1_alg».proof.Proof.Gen.ReferenceIdeal
import proofs.«153306_j41257455845539_1_alg».proof.Proof.Gen.Pre_finite_inputs
import proofs.«153306_j41257455845539_1_alg».proof.Proof.BitsRun
import proofs.«153306_j41257455845539_1_alg».proof.Proof.Run
import proofs.«153306_j41257455845539_1_alg».proof.Proof.KernelValue
import proofs.«153306_j41257455845539_1_alg».proof.Proof.RefValue
import proofs.«153306_j41257455845539_1_alg».proof.Proof.Algebra
import proofs.«153306_j41257455845539_1_alg».proof.Proof.PreFinite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, run from memories agreeing on the arguments, end with equal results. -/
theorem algebraic : Cert.algebraic_KernelIdeal_ReferenceIdeal := by
  intro m ρ m' ρ' hpre hagree
  refine ⟨fun c => (Cert.KernelIdeal.Hand.dat1 (F := Ideal) (Cert.KernelIdeal.Hand.U3 m) c).arrAt 4 Cert.KernelIdeal.cfg1.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.2.1, (hagree c).2.2.2.1, (hagree c).2.2.2.2]
  obtain ⟨hf0, hf2, hf3, hf4⟩ := Cert.Pre_finite_inputs.Hand.finite_of_pre _ _ _ _ _ (hpre c)
  funext i
  obtain ⟨b, o, p, rfl⟩ : ∃ (b : Fin 16384) (o : Fin 64) (p : Fin 32), i = ix3 b o p := ⟨i 0, i 1, i 2, eq_ix3 i⟩
  refine (Cert.ReferenceIdeal.Hand.ref_out _ _ _ _ b o p).trans ?_
  refine (Cert.Spec.kout_eq_rout _ _ _ _ hf0 hf2 hf3 hf4 b o p).symm.trans ?_
  exact (Cert.KernelIdeal.Hand.kernel_out m c b o p).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
